-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S256x16 : Shape := ⟨2, ![256, 16]⟩
abbrev S16 : Shape := ⟨1, ![16]⟩
abbrev S256x128 : Shape := ⟨2, ![256, 128]⟩
abbrev S128 : Shape := ⟨1, ![128]⟩
abbrev S128x256 : Shape := ⟨2, ![128, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part8 {F : FTy → Type} [FloatOps F] (main_arg28 : FVec F S16 .f32) (main_v133 : IVec S_ 1) (main_v136 : IVec S256x16 1) : IVec S_ 1 :=
  let main_c_53 : IVec S_ 1 := constantI S_ 1 1#1
  let main_v137 : IVec S_ 1 := (fun x v => Host.reduce IntOp.andi x v reducesTo_S256x16_S_d0_1 h_S_) main_v136 main_c_53
  let main_v138 : IVec S_ 1 := andi main_v133 main_v137
  let main_v139 : FVec F S16 .f32 := Host.absf main_arg28
  let main_cst_54 : FVec F S_ .f32 := constant S_ .f32 0x7F800000#32
  let main_v140 : FVec F S16 .f32 := broadcastInDim S16 ![] bcast_S_S16 main_cst_54
  let main_v141 : IVec S16 1 := cmpf .olt main_v139 main_v140
  let main_c_55 : IVec S_ 1 := constantI S_ 1 1#1
  let main_v142 : IVec S_ 1 := (fun x v => Host.reduce IntOp.andi x v reducesTo_S16_S_d0 h_S_) main_v141 main_c_55
  let main_v143 : IVec S_ 1 := andi main_v138 main_v142
  main_v143

def fn_part7 {F : FTy → Type} [FloatOps F] (main_arg25 : FVec F S256x256 .f32) (main_arg26 : FVec F S256 .f32) (main_arg27 : FVec F S256x16 .f32) (main_arg28 : FVec F S16 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x256 .f32 := Host.absf main_arg25
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256x16 .f32 := Host.absf main_arg27
  let main_cst_52 : FVec F S_ .f32 := constant S_ .f32 0x7F800000#32
  let main_v135 : FVec F S256x16 .f32 := broadcastInDim S256x16 ![] bcast_S_S256x16 main_cst_52
  let main_v136 : IVec S256x16 1 := cmpf .olt main_v134 main_v135
  fn_part8 (F := F) main_arg28 main_v133 main_v136

def fn_part6 {F : FTy → Type} [FloatOps F] (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x16 .f32) (main_arg28 : FVec F S16 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg23
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg24
  fn_part7 (F := F) main_arg25 main_arg26 main_arg27 main_arg28 main_v118 main_v119

def fn_part5 {F : FTy → Type} [FloatOps F] (main_arg18 : FVec F S16 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x16 .f32) (main_arg28 : FVec F S16 .f32) (main_v83 : IVec S_ 1) (main_v84 : FVec F S256x16 .f32) (main_cst_32 : FVec F S_ .f32) : IVec S_ 1 :=
  let main_v85 : FVec F S256x16 .f32 := broadcastInDim S256x16 ![] bcast_S_S256x16 main_cst_32
  let main_v86 : IVec S256x16 1 := cmpf .olt main_v84 main_v85
  let main_c_33 : IVec S_ 1 := constantI S_ 1 1#1
  let main_v87 : IVec S_ 1 := (fun x v => Host.reduce IntOp.andi x v reducesTo_S256x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S128 .f32) (main_arg15 : FVec F S128x256 .f32) (main_arg16 : FVec F S256 .f32) (main_arg17 : FVec F S256x16 .f32) (main_arg18 : FVec F S16 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x16 .f32) (main_arg28 : FVec F S16 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg15
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x16 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S256x256 .f32) (main_arg12 : FVec F S256 .f32) (main_arg13 : FVec F S256x128 .f32) (main_arg14 : FVec F S128 .f32) (main_arg15 : FVec F S128x256 .f32) (main_arg16 : FVec F S256 .f32) (main_arg17 : FVec F S256x16 .f32) (main_arg18 : FVec F S16 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x16 .f32) (main_arg28 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S256x256 .f32) (main_arg8 : FVec F S256 .f32) (main_arg9 : FVec F S256x16 .f32) (main_arg10 : FVec F S16 .f32) (main_arg11 : FVec F S256x256 .f32) (main_arg12 : FVec F S256 .f32) (main_arg13 : FVec F S256x128 .f32) (main_arg14 : FVec F S128 .f32) (main_arg15 : FVec F S128x256 .f32) (main_arg16 : FVec F S256 .f32) (main_arg17 : FVec F S256x16 .f32) (main_arg18 : FVec F S16 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x16 .f32) (main_arg28 : FVec F S16 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x16 .f32 := Host.absf main_arg9
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S16 .f32) (main_arg5 : FVec F S256x256 .f32) (main_arg6 : FVec F S256 .f32) (main_arg7 : FVec F S256x256 .f32) (main_arg8 : FVec F S256 .f32) (main_arg9 : FVec F S256x16 .f32) (main_arg10 : FVec F S16 .f32) (main_arg11 : FVec F S256x256 .f32) (main_arg12 : FVec F S256 .f32) (main_arg13 : FVec F S256x128 .f32) (main_arg14 : FVec F S128 .f32) (main_arg15 : FVec F S128x256 .f32) (main_arg16 : FVec F S256 .f32) (main_arg17 : FVec F S256x16 .f32) (main_arg18 : FVec F S16 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x16 .f32) (main_arg28 : FVec F S16 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S65536x256 .f32) (main_arg1 : FVec F S256x256 .f32) (main_arg2 : FVec F S256 .f32) (main_arg3 : FVec F S256x16 .f32) (main_arg4 : FVec F S16 .f32) (main_arg5 : FVec F S256x256 .f32) (main_arg6 : FVec F S256 .f32) (main_arg7 : FVec F S256x256 .f32) (main_arg8 : FVec F S256 .f32) (main_arg9 : FVec F S256x16 .f32) (main_arg10 : FVec F S16 .f32) (main_arg11 : FVec F S256x256 .f32) (main_arg12 : FVec F S256 .f32) (main_arg13 : FVec F S256x128 .f32) (main_arg14 : FVec F S128 .f32) (main_arg15 : FVec F S128x256 .f32) (main_arg16 : FVec F S256 .f32) (main_arg17 : FVec F S256x16 .f32) (main_arg18 : FVec F S16 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x16 .f32) (main_arg28 : FVec F S16 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S65536x256 : Shape := ⟨2, ![65536, 256]⟩
abbrev S256x256 : Shape := ⟨2, ![256, 256]⟩
abbrev S256 : Shape := ⟨1, ![256]⟩
abbrev S256x16 : Shape := ⟨2, ![256, 16]⟩
abbrev S16 : Shape := ⟨1, ![16]⟩
abbrev S256x128 : Shape := ⟨2, ![256, 128]⟩
abbrev S128 : Shape := ⟨1, ![128]⟩
abbrev S128x256 : Shape := ⟨2, ![128, 256]⟩
abbrev S16384x256 : Shape := ⟨2, ![16384, 256]⟩
abbrev S16384x16 : Shape := ⟨2, ![16384, 16]⟩
abbrev S4096x256 : Shape := ⟨2, ![4096, 256]⟩
abbrev S4096x16 : Shape := ⟨2, ![4096, 16]⟩
abbrev S1x256 : Shape := ⟨2, ![1, 256]⟩
abbrev S1x16 : Shape := ⟨2, ![1, 16]⟩
abbrev S4096x128 : Shape := ⟨2, ![4096, 128]⟩
abbrev S1x128 : Shape := ⟨2, ![1, 128]⟩
abbrev S65536x16 : Shape := ⟨2, ![65536, 16]⟩
abbrev S65536x8 : Shape := ⟨2, ![65536, 8]⟩

abbrev nBuf : Space → Nat
  | .hbm => 40
  | .vmem => 44
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S256x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S128x256, .f32⟩
  | .hbm, ⟨16, _⟩ => ⟨S256, .f32⟩
  | .hbm, ⟨17, _⟩ => ⟨S256x16, .f32⟩
  | .hbm, ⟨18, _⟩ => ⟨S16, .f32⟩
  | .hbm, ⟨19, _⟩ => ⟨S256x256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S256x256, .f32⟩
  | .hbm, ⟨24, _⟩ => ⟨S256, .f32⟩
  | .hbm, ⟨25, _⟩ => ⟨S256x256, .f32⟩
  | .hbm, ⟨26, _⟩ => ⟨S256, .f32⟩
  | .hbm, ⟨27, _⟩ => ⟨S256x16, .f32⟩
  | .hbm, ⟨28, _⟩ => ⟨S16, .f32⟩
  | .hbm, ⟨29, _⟩ => ⟨S16384x256, .f32⟩
  | .hbm, ⟨30, _⟩ => ⟨S16384x16, .f32⟩
  | .hbm, ⟨31, _⟩ => ⟨S16384x256, .f32⟩
  | .hbm, ⟨32, _⟩ => ⟨S16384x16, .f32⟩
  | .hbm, ⟨33, _⟩ => ⟨S16384x256, .f32⟩
  | .hbm, ⟨34, _⟩ => ⟨S16384x16, .f32⟩
  | .hbm, ⟨35, _⟩ => ⟨S16384x256, .f32⟩
  | .hbm, ⟨36, _⟩ => ⟨S16384x16, .f32⟩
  | .hbm, ⟨37, _⟩ => ⟨S65536x16, .f32⟩
  | .hbm, ⟨38, _⟩ => ⟨S65536x8, .f32⟩
  | .hbm, ⟨39, _⟩ => ⟨S65536x8, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256, .f32⟩
  | .local _ .vmem, ⟨4, _⟩ => ⟨S256x16, .f32⟩
  | .local _ .vmem, ⟨5, _⟩ => ⟨S16, .f32⟩
  | .local _ .vmem, ⟨6, _⟩ => ⟨S4096x16, .f32⟩
  | .local _ .vmem, ⟨7, _⟩ => ⟨S4096x16, .f32⟩
  | .local _ .vmem, ⟨8, _⟩ => ⟨S4096x256, .f32⟩
  | .local _ .vmem, ⟨9, _⟩ => ⟨S4096x256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x16, .f32⟩
  | .local _ .vmem, ⟨15, _⟩ => ⟨S16, .f32⟩
  | .local _ .vmem, ⟨16, _⟩ => ⟨S4096x16, .f32⟩
  | .local _ .vmem, ⟨17, _⟩ => ⟨S4096x16, .f32⟩
  | .local _ .vmem, ⟨18, _⟩ => ⟨S4096x256, .f32⟩
  | .local _ .vmem, ⟨19, _⟩ => ⟨S4096x256, .f32⟩
  | .local _ .vmem, ⟨20, _⟩ => ⟨S256x256, .f32⟩
  | .local _ .vmem, ⟨21, _⟩ => ⟨S256, .f32⟩
  | .local _ .vmem, ⟨22, _⟩ => ⟨S256x128, .f32⟩
  | .local _ .vmem, ⟨23, _⟩ => ⟨S128, .f32⟩
  | .local _ .vmem, ⟨24, _⟩ => ⟨S128x256, .f32⟩
  | .local _ .vmem, ⟨25, _⟩ => ⟨S256, .f32⟩
  | .local _ .vmem, ⟨26, _⟩ => ⟨S256x16, .f32⟩
  | .local _ .vmem, ⟨27, _⟩ => ⟨S16, .f32⟩
  | .local _ .vmem, ⟨28, _⟩ => ⟨S4096x16, .f32⟩
  | .local _ .vmem, ⟨29, _⟩ => ⟨S4096x16, .f32⟩
  | .local _ .vmem, ⟨30, _⟩ => ⟨S4096x256, .f32⟩
  | .local _ .vmem, ⟨31, _⟩ => ⟨S4096x256, .f32⟩
  | .local _ .vmem, ⟨32, _⟩ => ⟨S256x256, .f32⟩
  | .local _ .vmem, ⟨33, _⟩ => ⟨S256, .f32⟩
  | .local _ .vmem, ⟨34, _⟩ => ⟨S256x256, .f32⟩
  | .local _ .vmem, ⟨35, _⟩ => ⟨S256, .f32⟩
  | .local _ .vmem, ⟨36, _⟩ => ⟨S256x256, .f32⟩
  | .local _ .vmem, ⟨37, _⟩ => ⟨S256, .f32⟩
  | .local _ .vmem, ⟨38, _⟩ => ⟨S256x256, .f32⟩
  | .local _ .vmem, ⟨39, _⟩ => ⟨S256, .f32⟩
  | .local _ .vmem, ⟨40, _⟩ => ⟨S256x16, .f32⟩
  | .local _ .vmem, ⟨41, _⟩ => ⟨S16, .f32⟩
  | .local _ .vmem, ⟨42, _⟩ => ⟨S4096x16, .f32⟩
  | .local _ .vmem, ⟨43, _⟩ => ⟨S4096x16, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg11_0 : Ref sig .tc := ⟨.vmem, 42, rfl⟩
abbrev cc3_stg11_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem11_0 : DmaSem sig := 42
abbrev cc3_sem11_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4096x16 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x16 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S16 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4096x16 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S65536x256_S16384x256_0_0 : S65536x256.Slices ![0, 0] S16384x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x16_S256x16_0_0 : ∀ a, (![0, 0] : Fin 2 → Nat) a + S256x16.size a ≤ S256x16.size a
  h_S256x16 : 0 < S256x16.numel
  inb_S16_S16_0 : ∀ a, (![0] : Fin 1 → Nat) a + S16.size a ≤ S16.size a
  h_S16 : 0 < S16.numel
  shapeCasts_S16_S1x16 : S16.ShapeCasts S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  slices_S65536x256_S16384x256_16384_0 : S65536x256.Slices ![16384, 0] S16384x256
  slices_S65536x256_S16384x256_32768_0 : S65536x256.Slices ![32768, 0] S16384x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x256_S128x256_0_0 : ∀ a, (![0, 0] : Fin 2 → Nat) a + S128x256.size a ≤ S128x256.size a
  h_S128x256 : 0 < S128x256.numel
  slices_S65536x256_S16384x256_49152_0 : S65536x256.Slices ![49152, 0] S16384x256
  concatenates_S16384x16_S16384x16_S16384x16_S16384x16_S65536x16_d0 : Shape.Concatenates [S16384x16, S16384x16, S16384x16, S16384x16] S65536x16 0
  slices_S65536x16_S65536x8_0_0 : S65536x16.Slices ![0, 0] S65536x8
  slices_S65536x16_S65536x8_0_8 : S65536x16.Slices ![0, 8] S65536x8
  dot_S4096x256_S256x256_S4096x256_1_0_0_1_n_n_wf : DotDims.WF S4096x256 S256x256 S4096x256 [1] [0] [0] [1] [] []
  dot_S4096x256_S256x16_S4096x16_1_0_0_1_n_n_wf : DotDims.WF S4096x256 S256x16 S4096x16 [1] [0] [0] [1] [] []
  dot_S4096x256_S256x128_S4096x128_1_0_0_1_n_n_wf : DotDims.WF S4096x256 S256x128 S4096x128 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S16384x16.size a
  hwx0_5 : ∀ i : grid0.Coords, EltTy.bits .f32 = 32 ∨ (Rect.block (s := S16384x16) S4096x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S16384x256.size a
  hwx1_0 : ∀ i : grid1.Coords, EltTy.bits .f32 = 32 ∨ (Rect.block (s := S16384x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x16.size a ≤ S256x16.size a
  hwx1_5 : ∀ i : grid1.Coords, EltTy.bits .f32 = 32 ∨ (Rect.block (s := S256x16) S256x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16.size a ≤ S16.size a
  hwx1_6 : ∀ i : grid1.Coords, EltTy.bits .f32 = 32 ∨ (Rect.block (s := S16) S16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x16.size a ≤ S16384x16.size a
  hwx1_7 : ∀ i : grid1.Coords, EltTy.bits .f32 = 32 ∨ (Rect.block (s := S16384x16) S4096x16.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S16384x256.size a
  hwx2_0 : ∀ i : grid2.Coords, EltTy.bits .f32 = 32 ∨ (Rect.block (s := S16384x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x16.size a ≤ S256x16.size a
  hwx2_7 : ∀ i : grid2.Coords, EltTy.bits .f32 = 32 ∨ (Rect.block (s := S256x16) S256x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16.size a ≤ S16.size a
  hwx2_8 : ∀ i : grid2.Coords, EltTy.bits .f32 = 32 ∨ (Rect.block (s := S16) S16.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4096x16.size a ≤ S16384x16.size a
  hwx2_9 : ∀ i : grid2.Coords, EltTy.bits .f32 = 32 ∨ (Rect.block (s := S16384x16) S4096x16.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S16384x256.size a
  hwx3_0 : ∀ i : grid3.Coords, EltTy.bits .f32 = 32 ∨ (Rect.block (s := S16384x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256.size a ≤ S256.size a
  hwx3_8 : ∀ i : grid3.Coords, EltTy.bits .f32 = 32 ∨ (Rect.block (s := S256) S256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x16.size a ≤ S256x16.size a
  hwx3_9 : ∀ i : grid3.Coords, EltTy.bits .f32 = 32 ∨ (Rect.block (s := S256x16) S256x16.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S16.size a ≤ S16.size a
  hwx3_10 : ∀ i : grid3.Coords, EltTy.bits .f32 = 32 ∨ (Rect.block (s := S16) S16.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4096x16.size a ≤ S16384x16.size a
  hwx3_11 : ∀ i : grid3.Coords, EltTy.bits .f32 = 32 ∨ (Rect.block (s := S16384x16) S4096x16.size (cc3_transform_11 i) (hinb3_11 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S4096x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v4) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S256x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v5) S4096x16.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v6) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg20) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg21) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg22) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg23) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg24) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg25) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg26) S256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg27) S256x16.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg28) S16.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v7) S4096x16.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x16 : Shape := ⟨2, ![256, 16]⟩
abbrev S16 : Shape := ⟨1, ![16]⟩
abbrev S256x128 : Shape := ⟨2, ![256, 128]⟩
abbrev S128 : Shape := ⟨1, ![128]⟩
abbrev S128x256 : Shape := ⟨2, ![128, 256]⟩
abbrev S16384x256 : Shape := ⟨2, ![16384, 256]⟩
abbrev S1x256 : Shape := ⟨2, ![1, 256]⟩
abbrev S_ : Shape := ⟨0, ![]⟩
abbrev S16384x16 : Shape := ⟨2, ![16384, 16]⟩
abbrev S1x16 : Shape := ⟨2, ![1, 16]⟩
abbrev S16384x128 : Shape := ⟨2, ![16384, 128]⟩
abbrev S1x128 : Shape := ⟨2, ![1, 128]⟩
abbrev S65536x16 : Shape := ⟨2, ![65536, 16]⟩
abbrev S65536x8 : Shape := ⟨2, ![65536, 8]⟩

abbrev nBuf : Space → Nat
  | .hbm => 122
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x16, .f32⟩
  | .hbm, ⟨10, _⟩ => ⟨S16, .f32⟩
  | .hbm, ⟨11, _⟩ => ⟨S256x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S128x256, .f32⟩
  | .hbm, ⟨16, _⟩ => ⟨S256, .f32⟩
  | .hbm, ⟨17, _⟩ => ⟨S256x16, .f32⟩
  | .hbm, ⟨18, _⟩ => ⟨S16, .f32⟩
  | .hbm, ⟨19, _⟩ => ⟨S256x256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S256x256, .f32⟩
  | .hbm, ⟨24, _⟩ => ⟨S256, .f32⟩
  | .hbm, ⟨25, _⟩ => ⟨S256x256, .f32⟩
  | .hbm, ⟨26, _⟩ => ⟨S256, .f32⟩
  | .hbm, ⟨27, _⟩ => ⟨S256x16, .f32⟩
  | .hbm, ⟨28, _⟩ => ⟨S16, .f32⟩
  | .hbm, ⟨29, _⟩ => ⟨S16384x256, .f32⟩
  | .hbm, ⟨30, _⟩ => ⟨S16384x256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S16384x16, .f32⟩
  | .hbm, ⟨38, _⟩ => ⟨S1x16, .f32⟩
  | .hbm, ⟨39, _⟩ => ⟨S16384x16, .f32⟩
  | .hbm, ⟨40, _⟩ => ⟨S16384x16, .f32⟩
  | .hbm, ⟨41, _⟩ => ⟨S16384x256, .f32⟩
  | .hbm, ⟨42, _⟩ => ⟨S16384x256, .f32⟩
  | .hbm, ⟨43, _⟩ => ⟨S1x256, .f32⟩
  | .hbm, ⟨44, _⟩ => ⟨S16384x256, .f32⟩
  | .hbm, ⟨45, _⟩ => ⟨S16384x256, .f32⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S1x256, .f32⟩
  | .hbm, ⟨51, _⟩ => ⟨S16384x256, .f32⟩
  | .hbm, ⟨52, _⟩ => ⟨S16384x256, .f32⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S16384x16, .f32⟩
  | .hbm, ⟨57, _⟩ => ⟨S1x16, .f32⟩
  | .hbm, ⟨58, _⟩ => ⟨S16384x16, .f32⟩
  | .hbm, ⟨59, _⟩ => ⟨S16384x16, .f32⟩
  | .hbm, ⟨60, _⟩ => ⟨S16384x256, .f32⟩
  | .hbm, ⟨61, _⟩ => ⟨S16384x256, .f32⟩
  | .hbm, ⟨62, _⟩ => ⟨S1x256, .f32⟩
  | .hbm, ⟨63, _⟩ => ⟨S16384x256, .f32⟩
  | .hbm, ⟨64, _⟩ => ⟨S16384x256, .f32⟩
  | .hbm, ⟨65, _⟩ => ⟨S_, .f32⟩
  | .hbm, ⟨66, _⟩ => ⟨S16384x256, .f32⟩
  | .hbm, ⟨67, _⟩ => ⟨S16384x256, .f32⟩
  | .hbm, ⟨68, _⟩ => ⟨S16384x128, .f32⟩
  | .hbm, ⟨69, _⟩ => ⟨S1x128, .f32⟩
  | .hbm, ⟨70, _⟩ => ⟨S16384x128, .f32⟩
  | .hbm, ⟨71, _⟩ => ⟨S16384x128, .f32⟩
  | .hbm, ⟨72, _⟩ => ⟨S_, .f32⟩
  | .hbm, ⟨73, _⟩ => ⟨S16384x128, .f32⟩
  | .hbm, ⟨74, _⟩ => ⟨S16384x128, .f32⟩
  | .hbm, ⟨75, _⟩ => ⟨S16384x256, .f32⟩
  | .hbm, ⟨76, _⟩ => ⟨S1x256, .f32⟩
  | .hbm, ⟨77, _⟩ => ⟨S16384x256, .f32⟩
  | .hbm, ⟨78, _⟩ => ⟨S16384x256, .f32⟩
  | .hbm, ⟨79, _⟩ => ⟨S_, .f32⟩
  | .hbm, ⟨80, _⟩ => ⟨S16384x256, .f32⟩
  | .hbm, ⟨81, _⟩ => ⟨S16384x256, .f32⟩
  | .hbm, ⟨82, _⟩ => ⟨S16384x16, .f32⟩
  | .hbm, ⟨83, _⟩ => ⟨S1x16, .f32⟩
  | .hbm, ⟨84, _⟩ => ⟨S16384x16, .f32⟩
  | .hbm, ⟨85, _⟩ => ⟨S16384x16, .f32⟩
  | .hbm, ⟨86, _⟩ => ⟨S16384x256, .f32⟩
  | .hbm, ⟨87, _⟩ => ⟨S16384x256, .f32⟩
  | .hbm, ⟨88, _⟩ => ⟨S1x256, .f32⟩
  | .hbm, ⟨89, _⟩ => ⟨S16384x256, .f32⟩
  | .hbm, ⟨90, _⟩ => ⟨S16384x256, .f32⟩
  | .hbm, ⟨91, _⟩ => ⟨S_, .f32⟩
  | .hbm, ⟨92, _⟩ => ⟨S16384x256, .f32⟩
  | .hbm, ⟨93, _⟩ => ⟨S16384x256, .f32⟩
  | .hbm, ⟨94, _⟩ => ⟨S16384x256, .f32⟩
  | .hbm, ⟨95, _⟩ => ⟨S1x256, .f32⟩
  | .hbm, ⟨96, _⟩ => ⟨S16384x256, .f32⟩
  | .hbm, ⟨97, _⟩ => ⟨S16384x256, .f32⟩
  | .hbm, ⟨98, _⟩ => ⟨S_, .f32⟩
  | .hbm, ⟨99, _⟩ => ⟨S16384x256, .f32⟩
  | .hbm, ⟨100, _⟩ => ⟨S16384x256, .f32⟩
  | .hbm, ⟨101, _⟩ => ⟨S16384x256, .f32⟩
  | .hbm, ⟨102, _⟩ => ⟨S1x256, .f32⟩
  | .hbm, ⟨103, _⟩ => ⟨S16384x256, .f32⟩
  | .hbm, ⟨104, _⟩ => ⟨S16384x256, .f32⟩
  | .hbm, ⟨105, _⟩ => ⟨S_, .f32⟩
  | .hbm, ⟨106, _⟩ => ⟨S16384x256, .f32⟩
  | .hbm, ⟨107, _⟩ => ⟨S16384x256, .f32⟩
  | .hbm, ⟨108, _⟩ => ⟨S16384x256, .f32⟩
  | .hbm, ⟨109, _⟩ => ⟨S1x256, .f32⟩
  | .hbm, ⟨110, _⟩ => ⟨S16384x256, .f32⟩
  | .hbm, ⟨111, _⟩ => ⟨S16384x256, .f32⟩
  | .hbm, ⟨112, _⟩ => ⟨S_, .f32⟩
  | .hbm, ⟨113, _⟩ => ⟨S16384x256, .f32⟩
  | .hbm, ⟨114, _⟩ => ⟨S16384x256, .f32⟩
  | .hbm, ⟨115, _⟩ => ⟨S16384x16, .f32⟩
  | .hbm, ⟨116, _⟩ => ⟨S1x16, .f32⟩
  | .hbm, ⟨117, _⟩ => ⟨S16384x16, .f32⟩
  | .hbm, ⟨118, _⟩ => ⟨S16384x16, .f32⟩
  | .hbm, ⟨119, _⟩ => ⟨S65536x16, .f32⟩
  | .hbm, ⟨120, _⟩ => ⟨S65536x8, .f32⟩
  | .hbm, ⟨121, _⟩ => ⟨S65536x8, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call0_cst : Ref sig .tc := ⟨.hbm, 34, rfl⟩
abbrev main_call0_v0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_call1_cst : Ref sig .tc := ⟨.hbm, 46, rfl⟩
abbrev main_call1_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_call2_cst : Ref sig .tc := ⟨.hbm, 53, rfl⟩
abbrev main_call2_v0 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call3_cst : Ref sig .tc := ⟨.hbm, 65, rfl⟩
abbrev main_call3_v0 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call4_cst : Ref sig .tc := ⟨.hbm, 72, rfl⟩
abbrev main_call4_v0 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call5_cst : Ref sig .tc := ⟨.hbm, 79, rfl⟩
abbrev main_call5_v0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_call6_cst : Ref sig .tc := ⟨.hbm, 91, rfl⟩
abbrev main_call6_v0 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call7_cst : Ref sig .tc := ⟨.hbm, 98, rfl⟩
abbrev main_call7_v0 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_call8_cst : Ref sig .tc := ⟨.hbm, 105, rfl⟩
abbrev main_call8_v0 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call9_cst : Ref sig .tc := ⟨.hbm, 112, rfl⟩
abbrev main_call9_v0 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩

abbrev nD : Nat := 1
abbrev τ : Topo := Topo.v7x

variable {F : FTy → Type} [FloatOps F]

class Facts₀ : Prop where
  slices_S65536x256_S16384x256_0_0 : S65536x256.Slices ![0, 0] S16384x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  slices_S65536x256_S16384x256_16384_0 : S65536x256.Slices ![16384, 0] S16384x256
  slices_S65536x256_S16384x256_32768_0 : S65536x256.Slices ![32768, 0] S16384x256
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  slices_S65536x256_S16384x256_49152_0 : S65536x256.Slices ![49152, 0] S16384x256
  concatenates_S16384x16_S16384x16_S16384x16_S16384x16_S65536x16_d0 : Shape.Concatenates [S16384x16, S16384x16, S16384x16, S16384x16] S65536x16 0
  slices_S65536x16_S65536x8_0_0 : S65536x16.Slices ![0, 0] S65536x8
  slices_S65536x16_S65536x8_0_8 : S65536x16.Slices ![0, 8] S65536x8
  dot_S16384x256_S256x256_S16384x256_1_0_0_1_n_n_wf : DotDims.WF S16384x256 S256x256 S16384x256 [1] [0] [0] [1] [] []
  dot_S16384x256_S256x16_S16384x16_1_0_0_1_n_n_wf : DotDims.WF S16384x256 S256x16 S16384x16 [1] [0] [0] [1] [] []
  dot_S16384x256_S256x128_S16384x128_1_0_0_1_n_n_wf : DotDims.WF S16384x256 S256x128 S16384x128 [1] [0] [0] [1] [] []
  dot_S16384x128_S128x256_S16384x256_1_0_0_1_n_n_wf : DotDims.WF S16384x128 S128x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf

class Facts : Prop extends Facts₀ where

variable [Facts]
-- ==== Proof.K.Region0.lean ====
/-
  Region 0 of the program: the first sub-network's kernel, run on the first quarter of the batch in four row blocks
  of 4096. Its body reads a block of inputs and the two layers' weights and biases, each whole, and stores
  relu-of-affine followed by affine into the output block, whole. This file states, for any contents `V` the region
  may be entered from: each window's block at a grid point; that an input's staging buffer holds that block whenever
  the body runs; what the body leaves in the output's buffer; the body's triple; the pipeline's proof data; and the
  body obligation at every grid point.
-/
import proofs.«143194_j50603304682112_1_alg».proof.Proof.Gen.Kernel.Launch
import proofs.«143194_j50603304682112_1_alg».proof.Proof.Gen.Kernel.Skeleton
import proofs.«143194_j50603304682112_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every grid point, whether the point fetched it or the block
    index stood still since the last fetch (the weights and biases are fetched once): the body only reads it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer whole -/

abbrev r0_0 : Rect S4096x256 := Rect.unit (s := S4096x256) ![0, 0] S4096x256.size inb_S4096x256_S4096x256_0_0
abbrev r0_1 : Rect S256x256 := Rect.unit (s := S256x256) ![0, 0] S256x256.size inb_S256x256_S256x256_0_0
abbrev r0_2 : Rect S256 := Rect.unit (s := S256) ![0] S256.size inb_S256_S256_0
abbrev r0_3 : Rect S256x16 := Rect.unit (s := S256x16) ![0, 0] S256x16.size inb_S256x16_S256x16_0_0
abbrev r0_4 : Rect S16 := Rect.unit (s := S16) ![0] S16.size inb_S16_S16_0
abbrev r0_5 : Rect S4096x16 := Rect.unit (s := S4096x16) ![0, 0] S4096x16.size inb_S4096x16_S4096x16_0_0

/-! ## What the body leaves in the output's buffer -/

/-- The output's staging buffer after the body, from the input blocks: one store, of the two layers' value. -/
def out0_5 (x0 : Vec F S4096x256 .f32) (x1 : Vec F S256x256 .f32) (x2 : Vec F S256 .f32) (x3 : Vec F S256x16 .f32) (x4 : Vec F S16 .f32) :
    Vec F S4096x16 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S4096x16 .f32) (y : S4096x16.Idx) :
    ∃ pc ∈ ([⟨r0_5, p0⟩] : List (View.Piece (Elt F) S4096x16 .f32)), y ∈ pc.1.set :=
  View.cover_of_tiled [⟨r0_5, p0⟩] S4096x16.size (by rfl) y

/-! ## The body's triple -/

set_option maxHeartbeats 1000000 in
/-- The body on whole staging memrefs, the inputs' at contents `x0 … x4` and the output's at anything, runs to the
    continuation with the inputs' as they were and the output's at `out0_5` of them. -/
theorem sound_kernel0 (c : Dev nD) (E : Set ℕ) (i : grid0.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x16 .f32) (harg4 : arg4.IsWhole)
    (arg5 : Memref sig .tc .vmem S16 .f32) (harg5 : arg5.IsWhole) (arg6 : Memref sig .tc .vmem S4096x16 .f32) (harg6 : arg6.IsWhole)
    (x0 : Vec F S4096x256 .f32) (x1 : Vec F S256x256 .f32) (x2 : Vec F S256 .f32) (x3 : Vec F S256x16 .f32) (x4 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the input blocks; the invariant untouched by the body;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the second sub-network's kernel, run on the second quarter of the batch (rows 16384 to
  32767) in four row blocks of 4096. Its body reads a block of inputs (4096 by 256) and three layers' weights and
  biases (256 by 256 with 256, 256 by 256 with 256, 256 by 16 with 16), each whole, and stores, whole, into the
  output block (4096 by 16) the value  relu(relu(x W₁ + b₁) W₂ + b₂) W₃ + b₃.  This file states, for any contents
  V the region may be entered from: each window's block at a grid point; that an input's staging buffer holds that
  block whenever the body runs; what the body leaves in the output's buffer; the body's triple; the pipeline's proof
  data; and the body obligation at every grid point.
-/
import proofs.«143194_j50603304682112_1_alg».proof.Proof.Gen.Kernel.Launch
import proofs.«143194_j50603304682112_1_alg».proof.Proof.Gen.Kernel.Skeleton
import proofs.«143194_j50603304682112_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every grid point: either the point fetched it, or the block
    index has not moved since the last fetch (each weight and each bias is fetched once, at the first point). The body
    only reads these buffers. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer whole -/

abbrev r1_0 : Rect S4096x256 := Rect.unit (s := S4096x256) ![0, 0] S4096x256.size inb_S4096x256_S4096x256_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S256x256 := Rect.unit (s := S256x256) ![0, 0] S256x256.size inb_S256x256_S256x256_0_0
abbrev r1_4 : Rect S256 := Rect.unit (s := S256) ![0] S256.size inb_S256_S256_0
abbrev r1_5 : Rect S256x16 := Rect.unit (s := S256x16) ![0, 0] S256x16.size inb_S256x16_S256x16_0_0
abbrev r1_6 : Rect S16 := Rect.unit (s := S16) ![0] S16.size inb_S16_S16_0
abbrev r1_7 : Rect S4096x16 := Rect.unit (s := S4096x16) ![0, 0] S4096x16.size inb_S4096x16_S4096x16_0_0

/-! ## What the body leaves in the output's buffer -/

/-- The output's staging buffer after the body, from the input blocks: one store, of the three layers' value. -/
def out1_7 (x0 : Vec F S4096x256 .f32) (x1 : Vec F S256x256 .f32) (x2 : Vec F S256 .f32) (x3 : Vec F S256x256 .f32) (x4 : Vec F S256 .f32)
    (x5 : Vec F S256x16 .f32) (x6 : Vec F S16 .f32) :
    Vec F S4096x16 .f32 :=
  View.canon [⟨r1_7, k1_pay1 (View.ld x0 r1_0) (View.ld x1 r1_1) (View.ld x2 r1_2) (View.ld x3 r1_3) (View.ld x4 r1_4) (View.ld x5 r1_5)
    (View.ld x6 r1_6)⟩]

/-- The one store covers the buffer. -/
theorem cover1_7 (p0 : Vec F S4096x16 .f32) (y : S4096x16.Idx) :
    ∃ pc ∈ ([⟨r1_7, p0⟩] : List (View.Piece (Elt F) S4096x16 .f32)), y ∈ pc.1.set :=
  View.cover_of_tiled [⟨r1_7, p0⟩] S4096x16.size (by rfl) y

/-! ## The body's triple -/

set_option maxHeartbeats 1000000 in
/-- The body on whole staging memrefs, the inputs' at contents x0 … x6 and the output's at anything, runs to the
    continuation with the inputs' as they were and the output's at out1_7 of them. -/
theorem sound_kernel1 (c : Dev nD) (E : Set ℕ) (i : grid1.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x16 .f32) (harg6 : arg6.IsWhole)
    (arg7 : Memref sig .tc .vmem S16 .f32) (harg7 : arg7.IsWhole) (arg8 : Memref sig .tc .vmem S4096x16 .f32) (harg8 : arg8.IsWhole)
    (x0 : Vec F S4096x256 .f32) (x1 : Vec F S256x256 .f32) (x2 : Vec F S256 .f32) (x3 : Vec F S256x256 .f32) (x4 : Vec F S256 .f32)
    (x5 : Vec F S256x16 .f32) (x6 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core c: the arrays as the region finds them; after the body at point t each
    input's buffer at its block and the output's at out1_7 of the input blocks; the invariant untouched by the body;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t
      = out1_7 (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic grid point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program: the third sub-network's kernel, run on the third quarter of the batch (rows 32768 to
  49151) in four row blocks of 4096. Its body reads a block of inputs (4096 by 256) and four layers' weights and
  biases (256 by 256 with 256, 256 by 128 with 128, 128 by 256 with 256, 256 by 16 with 16), each whole, and stores,
  whole, into the output block (4096 by 16) the value  relu(relu(relu(x W₁ + b₁) W₂ + b₂) W₃ + b₃) W₄ + b₄.  This
  file states, for any contents V the region may be entered from: each window's block at a grid point; that an
  input's staging buffer holds that block whenever the body runs; what the body leaves in the output's buffer; the
  body's triple; the pipeline's proof data; and the body obligation at every grid point.
-/
import proofs.«143194_j50603304682112_1_alg».proof.Proof.Gen.Kernel.Launch
import proofs.«143194_j50603304682112_1_alg».proof.Proof.Gen.Kernel.Skeleton
import proofs.«143194_j50603304682112_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every grid point: either the point fetched it, or the block
    index has not moved since the last fetch (each weight and each bias is fetched once, at the first point). The body
    only reads these buffers. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every buffer whole -/

abbrev r2_0 : Rect S4096x256 := Rect.unit (s := S4096x256) ![0, 0] S4096x256.size inb_S4096x256_S4096x256_0_0
abbrev r2_1 : Rect S256x256 := Rect.unit (s := S256x256) ![0, 0] S256x256.size inb_S256x256_S256x256_0_0
abbrev r2_2 : Rect S256 := Rect.unit (s := S256) ![0] S256.size inb_S256_S256_0
abbrev r2_3 : Rect S256x128 := Rect.unit (s := S256x128) ![0, 0] S256x128.size inb_S256x128_S256x128_0_0
abbrev r2_4 : Rect S128 := Rect.unit (s := S128) ![0] S128.size inb_S128_S128_0
abbrev r2_5 : Rect S128x256 := Rect.unit (s := S128x256) ![0, 0] S128x256.size inb_S128x256_S128x256_0_0
abbrev r2_6 : Rect S256 := Rect.unit (s := S256) ![0] S256.size inb_S256_S256_0
abbrev r2_7 : Rect S256x16 := Rect.unit (s := S256x16) ![0, 0] S256x16.size inb_S256x16_S256x16_0_0
abbrev r2_8 : Rect S16 := Rect.unit (s := S16) ![0] S16.size inb_S16_S16_0
abbrev r2_9 : Rect S4096x16 := Rect.unit (s := S4096x16) ![0, 0] S4096x16.size inb_S4096x16_S4096x16_0_0

/-! ## What the body leaves in the output's buffer -/

/-- The output's staging buffer after the body, from the input blocks: one store, of the four layers' value. -/
def out2_9 (x0 : Vec F S4096x256 .f32) (x1 : Vec F S256x256 .f32) (x2 : Vec F S256 .f32) (x3 : Vec F S256x128 .f32) (x4 : Vec F S128 .f32)
    (x5 : Vec F S128x256 .f32) (x6 : Vec F S256 .f32) (x7 : Vec F S256x16 .f32) (x8 : Vec F S16 .f32) :
    Vec F S4096x16 .f32 :=
  View.canon [⟨r2_9, k2_pay1 (View.ld x0 r2_0) (View.ld x1 r2_1) (View.ld x2 r2_2) (View.ld x3 r2_3) (View.ld x4 r2_4) (View.ld x5 r2_5)
    (View.ld x6 r2_6) (View.ld x7 r2_7) (View.ld x8 r2_8)⟩]

/-- The one store covers the buffer. -/
theorem cover2_9 (p0 : Vec F S4096x16 .f32) (y : S4096x16.Idx) :
    ∃ pc ∈ ([⟨r2_9, p0⟩] : List (View.Piece (Elt F) S4096x16 .f32)), y ∈ pc.1.set :=
  View.cover_of_tiled [⟨r2_9, p0⟩] S4096x16.size (by rfl) y

/-! ## The body's triple -/

set_option maxHeartbeats 1000000 in
/-- The body on whole staging memrefs, the inputs' at contents x0 … x8 and the output's at anything, runs to the
    continuation with the inputs' as they were and the output's at out2_9 of them. -/
theorem sound_kernel2 (c : Dev nD) (E : Set ℕ) (i : grid2.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S128x256 .f32) (harg6 : arg6.IsWhole)
    (arg7 : Memref sig .tc .vmem S256 .f32) (harg7 : arg7.IsWhole) (arg8 : Memref sig .tc .vmem S256x16 .f32) (harg8 : arg8.IsWhole)
    (arg9 : Memref sig .tc .vmem S16 .f32) (harg9 : arg9.IsWhole) (arg10 : Memref sig .tc .vmem S4096x16 .f32) (harg10 : arg10.IsWhole)
    (x0 : Vec F S4096x256 .f32) (x1 : Vec F S256x256 .f32) (x2 : Vec F S256 .f32) (x3 : Vec F S256x128 .f32) (x4 : Vec F S128 .f32)
    (x5 : Vec F S128x256 .f32) (x6 : Vec F S256 .f32) (x7 : Vec F S256x16 .f32) (x8 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core c: the arrays as the region finds them; after the body at point t each
    input's buffer at its block and the output's at out2_9 of the input blocks; the invariant untouched by the body;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t)
        (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t
      = out2_9 (iblk2 V c 0 t) (iblk2 V c 1 t) (iblk2 V c 2 t) (iblk2 V c 3 t) (iblk2 V c 4 t) (iblk2 V c 5 t) (iblk2 V c 6 t)
          (iblk2 V c 7 t) (iblk2 V c 8 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic grid point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t)
    (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the program: the fourth sub-network's kernel, run at four grid points on row blocks of 4096. Its body
  reads a block of inputs, then the weights and biases of four hidden layers of width 256 and of a closing layer of
  width 16, each buffer whole, and stores into the output block, whole, four rounds of relu-of-affine followed by one
  affine map. The first ten reads and the hidden layers' value form a part of the body of their own, which hands the
  last hidden activation and the closing weights to the rest; the rest reads the closing bias and stores. This file
  states, for any contents V the region may be entered from: each window's block at a grid point; that an input's
  staging buffer holds that block whenever the body runs; what the body leaves in the output's buffer; the body's
  triple; the pipeline's proof data; and the body obligation at every grid point.
-/
import proofs.«143194_j50603304682112_1_alg».proof.Proof.Gen.Kernel.Launch
import proofs.«143194_j50603304682112_1_alg».proof.Proof.Gen.Kernel.Skeleton
import proofs.«143194_j50603304682112_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every grid point, whether the point fetched it or the block
    index stood still since the last fetch (the ten weight and bias windows are fetched once): the body only reads it. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every buffer whole -/

abbrev r3_0 : Rect S4096x256 := Rect.unit (s := S4096x256) ![0, 0] S4096x256.size inb_S4096x256_S4096x256_0_0
abbrev r3_1 : Rect S256x256 := Rect.unit (s := S256x256) ![0, 0] S256x256.size inb_S256x256_S256x256_0_0
abbrev r3_2 : Rect S256 := Rect.unit (s := S256) ![0] S256.size inb_S256_S256_0
abbrev r3_3 : Rect S256x256 := Rect.unit (s := S256x256) ![0, 0] S256x256.size inb_S256x256_S256x256_0_0
abbrev r3_4 : Rect S256 := Rect.unit (s := S256) ![0] S256.size inb_S256_S256_0
abbrev r3_5 : Rect S256x256 := Rect.unit (s := S256x256) ![0, 0] S256x256.size inb_S256x256_S256x256_0_0
abbrev r3_6 : Rect S256 := Rect.unit (s := S256) ![0] S256.size inb_S256_S256_0
abbrev r3_7 : Rect S256x256 := Rect.unit (s := S256x256) ![0, 0] S256x256.size inb_S256x256_S256x256_0_0
abbrev r3_8 : Rect S256 := Rect.unit (s := S256) ![0] S256.size inb_S256_S256_0
abbrev r3_9 : Rect S256x16 := Rect.unit (s := S256x16) ![0, 0] S256x16.size inb_S256x16_S256x16_0_0
abbrev r3_10 : Rect S16 := Rect.unit (s := S16) ![0] S16.size inb_S16_S16_0
abbrev r3_11 : Rect S4096x16 := Rect.unit (s := S4096x16) ![0, 0] S4096x16.size inb_S4096x16_S4096x16_0_0

/-! ## What the body leaves in the output's buffer -/

/-- The output's staging buffer after the body, from the input blocks: one store, of the closing layer's value on the
    four hidden layers' value. -/
def out3_11 (x0 : Vec F S4096x256 .f32) (x1 : Vec F S256x256 .f32) (x2 : Vec F S256 .f32) (x3 : Vec F S256x256 .f32) (x4 : Vec F S256 .f32)
    (x5 : Vec F S256x256 .f32) (x6 : Vec F S256 .f32) (x7 : Vec F S256x256 .f32) (x8 : Vec F S256 .f32) (x9 : Vec F S256x16 .f32)
    (x10 : Vec F S16 .f32) : Vec F S4096x16 .f32 :=
  View.canon [⟨r3_11, k3_pay1 (k3_pay2 (View.ld x0 r3_0) (View.ld x1 r3_1) (View.ld x2 r3_2) (View.ld x3 r3_3) (View.ld x4 r3_4)
    (View.ld x5 r3_5) (View.ld x6 r3_6) (View.ld x7 r3_7) (View.ld x8 r3_8)) (View.ld x9 r3_9) (View.ld x10 r3_10)⟩]

/-- The one store covers the buffer. -/
theorem cover3_11 (p0 : Vec F S4096x16 .f32) (y : S4096x16.Idx) :
    ∃ pc ∈ ([⟨r3_11, p0⟩] : List (View.Piece (Elt F) S4096x16 .f32)), y ∈ pc.1.set :=
  View.cover_of_tiled [⟨r3_11, p0⟩] S4096x16.size (by rfl) y

/-! ## The body's triple -/

set_option maxHeartbeats 1000000 in
/-- The body on whole staging memrefs, the inputs' at contents x0 … x10 and the output's at anything, runs to the
    continuation with the inputs' as they were and the output's at out3_11 of them. The part reads ten of the inputs
    and returns the hidden layers' value with the closing weights; the rest reads the closing bias and stores. -/
theorem sound_kernel3 (c : Dev nD) (E : Set ℕ) (i : grid3.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S256 .f32) (harg7 : arg7.IsWhole) (arg8 : Memref sig .tc .vmem S256x256 .f32) (harg8 : arg8.IsWhole)
    (arg9 : Memref sig .tc .vmem S256 .f32) (harg9 : arg9.IsWhole) (arg10 : Memref sig .tc .vmem S256x16 .f32) (harg10 : arg10.IsWhole)
    (arg11 : Memref sig .tc .vmem S16 .f32) (harg11 : arg11.IsWhole) (arg12 : Memref sig .tc .vmem S4096x16 .f32) (harg12 : arg12.IsWhole)
    (x0 : Vec F S4096x256 .f32) (x1 : Vec F S256x256 .f32) (x2 : Vec F S256 .f32) (x3 : Vec F S256x256 .f32) (x4 : Vec F S256 .f32)
    (x5 : Vec F S256x256 .f32) (x6 : Vec F S256 .f32) (x7 : Vec F S256x256 .f32) (x8 : Vec F S256 .f32) (x9 : Vec F S256x16 .f32)
    (x10 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out3_11 x0 x1 x2 x3 x4 x5 x6 x7 x8 x9 x10)) -∗ K ⟨⟩))
      ⊢ wp frame (wpE (defs₀ (F := F)) Variants.none c none) E
          (cc3_kernel i arg1 harg1 arg2 harg2 arg3 harg3 arg4 harg4 arg5 harg5 arg6 harg6 arg7 harg7 arg8 harg8 arg9 harg9 arg10 harg10
            arg11 harg11 arg12 harg12) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data of pipeline 3 on core c: the arrays as the region finds them; after the body at point t each
    input's buffer at its block and the output's at out3_11 of the input blocks; the invariant untouched by the body;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) :
    (dat3 V c).after 11 t = out3_11 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic grid point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t)
    (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The whole program's run. Between two items of the program — a stretch of host operations or a kernel region — each
  core holds every buffer at known contents: the launch contents, then each host stretch applied, then, after a
  region, the region's output array at what its four write-backs leave (named `outs` and tied to the pipeline's
  proof data by `OutsOk`). Each region is entered from those contents: its arrays are split out of the buffers, its
  body obligation is the region's own, and its arrays are put back at the exit. The launch over the nine items then
  gives: every weakly fair execution ends, and every buffer ends at the last contents `V9`. The frame claim and the
  value claim both read their buffers off `V9`.
-/
import proofs.«143194_j50603304682112_1_alg».proof.Proof.K.Region0
import proofs.«143194_j50603304682112_1_alg».proof.Proof.K.Region1
import proofs.«143194_j50603304682112_1_alg».proof.Proof.K.Region2
import proofs.«143194_j50603304682112_1_alg».proof.Proof.K.Region3
import proofs.«143194_j50603304682112_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The contents each region is entered from -/

/-- Region 0's entry contents: the launch contents after the first host stretch (the first quarter of the batch sliced out). -/
abbrev ent0 : (c : Dev nD) → (b : Ref sig .tc) → Buf (Elt F) ((c : Thread nD τ).loc b) := fun c b => V1 m c b
/-- Region 1's entry contents. -/
abbrev ent1 : (c : Dev nD) → (b : Ref sig .tc) → Buf (Elt F) ((c : Thread nD τ).loc b) := fun c b => V3 m outs c b
/-- Region 2's entry contents. -/
abbrev ent2 : (c : Dev nD) → (b : Ref sig .tc) → Buf (Elt F) ((c : Thread nD τ).loc b) := fun c b => V5 m outs c b
/-- Region 3's entry contents. -/
abbrev ent3 : (c : Dev nD) → (b : Ref sig .tc) → Buf (Elt F) ((c : Thread nD τ).loc b) := fun c b => V7 m outs c b

/-- What ties the named output contents to the regions: after each region its output array holds what the region's
    write-backs, folded over the four grid points, leave of the entry contents. -/
structure OutsOk : Prop where
  h0 : ∀ c, outs 2 main_v1 c = (dat0 (ent0 m) c).arrAt 5 cfg0.N
  h1 : ∀ c, outs 4 main_v3 c = (dat1 (ent1 m outs) c).arrAt 7 cfg1.N
  h2 : ∀ c, outs 6 main_v5 c = (dat2 (ent2 m outs) c).arrAt 9 cfg2.N
  h3 : ∀ c, outs 8 main_v7 c = (dat3 (ent3 m outs) c).arrAt 11 cfg3.N

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (ent0 m) c
  | ⟨1, _⟩ => fun c => dat1 (ent1 m outs) c
  | ⟨2, _⟩ => fun c => dat2 (ent2 m outs) c
  | ⟨3, _⟩ => fun c => dat3 (ent3 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

/-! ## Region 0 as an item -/

/-- At region 0's exit each of its arrays holds what the pipeline leaves: an input's array is as entered, the output's
    is the named contents. -/
theorem hF0 (hok : OutsOk m outs) (c : Dev nD) (w : Fin cfg0.W) :
    (dat0 (ent0 m) c).arrAt w cfg0.N = V2 m outs c (Pipeline.arrRef spec0 w) := by
  match w with
  | ⟨0, _⟩ => exact (((dat0 (ent0 m) c).arrAt_in 0 rfl _).trans (A_eq0 (ent0 m) c 0)).trans (V2_of m outs c _ (by decide)).symm
  | ⟨1, _⟩ => exact (((dat0 (ent0 m) c).arrAt_in 1 rfl _).trans (A_eq0 (ent0 m) c 1)).trans (V2_of m outs c _ (by decide)).symm
  | ⟨2, _⟩ => exact (((dat0 (ent0 m) c).arrAt_in 2 rfl _).trans (A_eq0 (ent0 m) c 2)).trans (V2_of m outs c _ (by decide)).symm
  | ⟨3, _⟩ => exact (((dat0 (ent0 m) c).arrAt_in 3 rfl _).trans (A_eq0 (ent0 m) c 3)).trans (V2_of m outs c _ (by decide)).symm
  | ⟨4, _⟩ => exact (((dat0 (ent0 m) c).arrAt_in 4 rfl _).trans (A_eq0 (ent0 m) c 4)).trans (V2_of m outs c _ (by decide)).symm
  | ⟨5, _⟩ =>
    show _ = Function.update (V1 m c) main_v1 (outs 2 main_v1 c) main_v1
    rw [Function.update_self]; exact (hok.h0 c).symm

/-- Every other buffer is as the region found it. -/
theorem hrest0 (c : Dev nD) : ∀ b, b ∉ Finset.univ.image (Pipeline.arrRef spec0) → V2 m outs c b = V1 m c b :=
  fun b hb => V2_of m outs c b fun h => hb (by
    rw [List.mem_singleton] at h; subst h
    exact Finset.mem_image.mpr ⟨5, Finset.mem_univ _, rfl⟩)

set_option backward.isDefEq.respectTransparency.types false in
/-- Region 0 over the thread state: entered from every buffer at the contents before it, left at the contents after
    it. Its arrays are split out of the buffers and put back at the exit contents; the generator register goes into the
    pipeline's invariant and comes back; nothing is owed; the kernel has no semaphore of its own. -/
def reg0 (hok : OutsOk m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (ent0 m c) (fun b => V2 m outs c b) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as an item -/

/-- At region 1's exit each of its arrays holds what the pipeline leaves. -/
theorem hF1 (hok : OutsOk m outs) (c : Dev nD) (w : Fin cfg1.W) :
    (dat1 (ent1 m outs) c).arrAt w cfg1.N = V4 m outs c (Pipeline.arrRef spec1 w) := by
  match w with
  | ⟨0, _⟩ => exact (((dat1 (ent1 m outs) c).arrAt_in 0 rfl _).trans (A_eq1 (ent1 m outs) c 0)).trans (V4_of m outs c _ (by decide)).symm
  | ⟨1, _⟩ => exact (((dat1 (ent1 m outs) c).arrAt_in 1 rfl _).trans (A_eq1 (ent1 m outs) c 1)).trans (V4_of m outs c _ (by decide)).symm
  | ⟨2, _⟩ => exact (((dat1 (ent1 m outs) c).arrAt_in 2 rfl _).trans (A_eq1 (ent1 m outs) c 2)).trans (V4_of m outs c _ (by decide)).symm
  | ⟨3, _⟩ => exact (((dat1 (ent1 m outs) c).arrAt_in 3 rfl _).trans (A_eq1 (ent1 m outs) c 3)).trans (V4_of m outs c _ (by decide)).symm
  | ⟨4, _⟩ => exact (((dat1 (ent1 m outs) c).arrAt_in 4 rfl _).trans (A_eq1 (ent1 m outs) c 4)).trans (V4_of m outs c _ (by decide)).symm
  | ⟨5, _⟩ => exact (((dat1 (ent1 m outs) c).arrAt_in 5 rfl _).trans (A_eq1 (ent1 m outs) c 5)).trans (V4_of m outs c _ (by decide)).symm
  | ⟨6, _⟩ => exact (((dat1 (ent1 m outs) c).arrAt_in 6 rfl _).trans (A_eq1 (ent1 m outs) c 6)).trans (V4_of m outs c _ (by decide)).symm
  | ⟨7, _⟩ =>
    show _ = Function.update (V3 m outs c) main_v3 (outs 4 main_v3 c) main_v3
    rw [Function.update_self]; exact (hok.h1 c).symm

/-- Every other buffer is as the region found it. -/
theorem hrest1 (c : Dev nD) : ∀ b, b ∉ Finset.univ.image (Pipeline.arrRef spec1) → V4 m outs c b = V3 m outs c b :=
  fun b hb => V4_of m outs c b fun h => hb (by
    rw [List.mem_singleton] at h; subst h
    exact Finset.mem_image.mpr ⟨7, Finset.mem_univ _, rfl⟩)

set_option backward.isDefEq.respectTransparency.types false in
/-- Region 1 over the thread state, as region 0. -/
def reg1 (hok : OutsOk m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (ent1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (ent1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (ent1 m outs c) (fun b => V4 m outs c b) ((pdats m outs 1 c).arrAt · cfg1.N) (hF1 m outs hok c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as an item -/

set_option maxHeartbeats 1600000 in
/-- At region 2's exit each of its arrays holds what the pipeline leaves. -/
theorem hF2 (hok : OutsOk m outs) (c : Dev nD) (w : Fin cfg2.W) :
    (dat2 (ent2 m outs) c).arrAt w cfg2.N = V6 m outs c (Pipeline.arrRef spec2 w) := by
  match w with
  | ⟨0, _⟩ => exact (((dat2 (ent2 m outs) c).arrAt_in 0 rfl _).trans (A_eq2 (ent2 m outs) c 0)).trans (V6_of m outs c _ (by decide)).symm
  | ⟨1, _⟩ => exact (((dat2 (ent2 m outs) c).arrAt_in 1 rfl _).trans (A_eq2 (ent2 m outs) c 1)).trans (V6_of m outs c _ (by decide)).symm
  | ⟨2, _⟩ => exact (((dat2 (ent2 m outs) c).arrAt_in 2 rfl _).trans (A_eq2 (ent2 m outs) c 2)).trans (V6_of m outs c _ (by decide)).symm
  | ⟨3, _⟩ => exact (((dat2 (ent2 m outs) c).arrAt_in 3 rfl _).trans (A_eq2 (ent2 m outs) c 3)).trans (V6_of m outs c _ (by decide)).symm
  | ⟨4, _⟩ => exact (((dat2 (ent2 m outs) c).arrAt_in 4 rfl _).trans (A_eq2 (ent2 m outs) c 4)).trans (V6_of m outs c _ (by decide)).symm
  | ⟨5, _⟩ => exact (((dat2 (ent2 m outs) c).arrAt_in 5 rfl _).trans (A_eq2 (ent2 m outs) c 5)).trans (V6_of m outs c _ (by decide)).symm
  | ⟨6, _⟩ => exact (((dat2 (ent2 m outs) c).arrAt_in 6 rfl _).trans (A_eq2 (ent2 m outs) c 6)).trans (V6_of m outs c _ (by decide)).symm
  | ⟨7, _⟩ => exact (((dat2 (ent2 m outs) c).arrAt_in 7 rfl _).trans (A_eq2 (ent2 m outs) c 7)).trans (V6_of m outs c _ (by decide)).symm
  | ⟨8, _⟩ => exact (((dat2 (ent2 m outs) c).arrAt_in 8 rfl _).trans (A_eq2 (ent2 m outs) c 8)).trans (V6_of m outs c _ (by decide)).symm
  | ⟨9, _⟩ =>
    show _ = Function.update (V5 m outs c) main_v5 (outs 6 main_v5 c) main_v5
    rw [Function.update_self]; exact (hok.h2 c).symm

/-- Every other buffer is as the region found it. -/
theorem hrest2 (c : Dev nD) : ∀ b, b ∉ Finset.univ.image (Pipeline.arrRef spec2) → V6 m outs c b = V5 m outs c b :=
  fun b hb => V6_of m outs c b fun h => hb (by
    rw [List.mem_singleton] at h; subst h
    exact Finset.mem_image.mpr ⟨9, Finset.mem_univ _, rfl⟩)

set_option backward.isDefEq.respectTransparency.types false in
/-- Region 2 over the thread state, as region 0. -/
def reg2 (hok : OutsOk m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m outs) c).loose
  hwaits := Pipeline.hwaits_of_owed_zero _ _ _ _ L lv 2 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (ent2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (ent2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (ent2 m outs c) (fun b => V6 m outs c b) ((pdats m outs 2 c).arrAt · cfg2.N) (hF2 m outs hok c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as an item -/

set_option maxHeartbeats 1600000 in
/-- At region 3's exit each of its arrays holds what the pipeline leaves. -/
theorem hF3 (hok : OutsOk m outs) (c : Dev nD) (w : Fin cfg3.W) :
    (dat3 (ent3 m outs) c).arrAt w cfg3.N = V8 m outs c (Pipeline.arrRef spec3 w) := by
  match w with
  | ⟨0, _⟩ => exact (((dat3 (ent3 m outs) c).arrAt_in 0 rfl _).trans (A_eq3 (ent3 m outs) c 0)).trans (V8_of m outs c _ (by decide)).symm
  | ⟨1, _⟩ => exact (((dat3 (ent3 m outs) c).arrAt_in 1 rfl _).trans (A_eq3 (ent3 m outs) c 1)).trans (V8_of m outs c _ (by decide)).symm
  | ⟨2, _⟩ => exact (((dat3 (ent3 m outs) c).arrAt_in 2 rfl _).trans (A_eq3 (ent3 m outs) c 2)).trans (V8_of m outs c _ (by decide)).symm
  | ⟨3, _⟩ => exact (((dat3 (ent3 m outs) c).arrAt_in 3 rfl _).trans (A_eq3 (ent3 m outs) c 3)).trans (V8_of m outs c _ (by decide)).symm
  | ⟨4, _⟩ => exact (((dat3 (ent3 m outs) c).arrAt_in 4 rfl _).trans (A_eq3 (ent3 m outs) c 4)).trans (V8_of m outs c _ (by decide)).symm
  | ⟨5, _⟩ => exact (((dat3 (ent3 m outs) c).arrAt_in 5 rfl _).trans (A_eq3 (ent3 m outs) c 5)).trans (V8_of m outs c _ (by decide)).symm
  | ⟨6, _⟩ => exact (((dat3 (ent3 m outs) c).arrAt_in 6 rfl _).trans (A_eq3 (ent3 m outs) c 6)).trans (V8_of m outs c _ (by decide)).symm
  | ⟨7, _⟩ => exact (((dat3 (ent3 m outs) c).arrAt_in 7 rfl _).trans (A_eq3 (ent3 m outs) c 7)).trans (V8_of m outs c _ (by decide)).symm
  | ⟨8, _⟩ => exact (((dat3 (ent3 m outs) c).arrAt_in 8 rfl _).trans (A_eq3 (ent3 m outs) c 8)).trans (V8_of m outs c _ (by decide)).symm
  | ⟨9, _⟩ => exact (((dat3 (ent3 m outs) c).arrAt_in 9 rfl _).trans (A_eq3 (ent3 m outs) c 9)).trans (V8_of m outs c _ (by decide)).symm
  | ⟨10, _⟩ => exact (((dat3 (ent3 m outs) c).arrAt_in 10 rfl _).trans (A_eq3 (ent3 m outs) c 10)).trans (V8_of m outs c _ (by decide)).symm
  | ⟨11, _⟩ =>
    show _ = Function.update (V7 m outs c) main_v7 (outs 8 main_v7 c) main_v7
    rw [Function.update_self]; exact (hok.h3 c).symm

/-- Every other buffer is as the region found it. -/
theorem hrest3 (c : Dev nD) : ∀ b, b ∉ Finset.univ.image (Pipeline.arrRef spec3) → V8 m outs c b = V7 m outs c b :=
  fun b hb => V8_of m outs c b fun h => hb (by
    rw [List.mem_singleton] at h; subst h
    exact Finset.mem_image.mpr ⟨11, Finset.mem_univ _, rfl⟩)

set_option backward.isDefEq.respectTransparency.types false in
/-- Region 3 over the thread state, as region 0. -/
def reg3 (hok : OutsOk m outs) : RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (ent3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (ent3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (ent3 m outs c) (fun b => V8 m outs c b) ((pdats m outs 3 c).arrAt · cfg3.N) (hF3 m outs hok c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN. From any memory with zero counters every weakly fair execution of the program on the cores ends, nothing
    faulting, and in every final state each core's every buffer holds the last contents `V9`: the launch contents
    carried through the five host stretches and the four regions. -/
theorem run_all (hok : OutsOk m outs) :
    θ_run defs (onTc (τ := τ) (main (F := F))) ⟨m, fun _ => 0, ρ⟩ (fun r => ∀ c : Dev nD,
      ∀ b ∈ Pipeline.ucRefs τ sig, r.2.mem ((c : Thread nD τ).1, b) = V9 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs hok) (reg1 m outs hok) (reg2 m outs hok) (reg3 m outs hok))
    (fun c Q => by
      rewrite [main_chain c, Seg.run_eq_chain,
        show (segs m outs 𝒱₀ L lv E () (pdats m outs) (reg0 m outs hok) (reg1 m outs hok) (reg2 m outs hok) (reg3 m outs hok) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m outs c b)
    (hfin := fun c s' => by
      iintro ⟨Hh, HSI⟩
      unfold StableHlo.held
      imodintro
      iapply (pointsTo_read_all (Pipeline.ucRefs τ sig) (fun b => (((c : Thread nD τ)).1, b)) (V9 m outs c) s')
      isplitl [Hh] <;> iassumption)
    (hQ := fun s h c => h c)

/-- An unscoped buffer of a core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Outs.lean ====
/-
  The named output contents exist. The contents the four regions leave are defined one after the other: region 0's
  output from the launch contents, region 1's from the contents that follow once region 0's output is in place, and so
  on. Each later definition reads the earlier ones only through the buffers they were put in, so the family built in
  four steps satisfies all four defining equations at once.
-/
import proofs.«143194_j50603304682112_1_alg».proof.Proof.K.Run

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-- A family of contents that reads the valuations `W` at step `n0` and is `base` at every other step. -/
def stage (n0 : ℕ) (W : Dev nD → Valuation τ sig (Elt F)) (base : Outs (F := F)) : Outs (F := F) :=
  fun n r c => if n = n0 then W c r else base n r c

theorem stage_self (n0 : ℕ) (W : Dev nD → Valuation τ sig (Elt F)) (base : Outs (F := F)) (r : Ref sig .tc) (c : Dev nD) :
    stage n0 W base n0 r c = W c r := if_pos rfl

theorem stage_ne (n0 : ℕ) (W : Dev nD → Valuation τ sig (Elt F)) (base : Outs (F := F)) {n : ℕ} (h : n ≠ n0) (r : Ref sig .tc) (c : Dev nD) :
    stage n0 W base n r c = base n r c := if_neg h

/-! ## The contents after a region depend on the named outputs only through the regions before it -/

theorem V3_congr (o o' : Outs (F := F)) (h2 : ∀ c, o 2 main_v1 c = o' 2 main_v1 c) (c : Dev nD) : V3 m o c = V3 m o' c := by
  show StableHlo.after hostOps1 (Function.update (V1 m c) main_v1 (o 2 main_v1 c))
    = StableHlo.after hostOps1 (Function.update (V1 m c) main_v1 (o' 2 main_v1 c))
  rw [h2 c]

theorem V5_congr (o o' : Outs (F := F)) (h2 : ∀ c, o 2 main_v1 c = o' 2 main_v1 c) (h4 : ∀ c, o 4 main_v3 c = o' 4 main_v3 c) (c : Dev nD) :
    V5 m o c = V5 m o' c := by
  show StableHlo.after hostOps2 (Function.update (V3 m o c) main_v3 (o 4 main_v3 c))
    = StableHlo.after hostOps2 (Function.update (V3 m o' c) main_v3 (o' 4 main_v3 c))
  rw [V3_congr m o o' h2 c, h4 c]

theorem V7_congr (o o' : Outs (F := F)) (h2 : ∀ c, o 2 main_v1 c = o' 2 main_v1 c) (h4 : ∀ c, o 4 main_v3 c = o' 4 main_v3 c)
    (h6 : ∀ c, o 6 main_v5 c = o' 6 main_v5 c) (c : Dev nD) : V7 m o c = V7 m o' c := by
  show StableHlo.after hostOps3 (Function.update (V5 m o c) main_v5 (o 6 main_v5 c))
    = StableHlo.after hostOps3 (Function.update (V5 m o' c) main_v5 (o' 6 main_v5 c))
  rw [V5_congr m o o' h2 h4 c, h6 c]

/-! ## The four steps -/

/-- Before any region: every buffer's launch contents. -/
def outsA : Outs (F := F) := fun _ r c => V0 m c r
/-- Region 0's output in place. -/
def outsB : Outs (F := F) :=
  stage 2 (fun c => Function.update (V1 m c) main_v1 ((dat0 (ent0 m) c).arrAt 5 cfg0.N)) (outsA m)
/-- Region 1's output in place. -/
def outsC : Outs (F := F) :=
  stage 4 (fun c => Function.update (V3 m (outsB m) c) main_v3 ((dat1 (ent1 m (outsB m)) c).arrAt 7 cfg1.N)) (outsB m)
/-- Region 2's output in place. -/
def outsD : Outs (F := F) :=
  stage 6 (fun c => Function.update (V5 m (outsC m) c) main_v5 ((dat2 (ent2 m (outsC m)) c).arrAt 9 cfg2.N)) (outsC m)
/-- Region 3's output in place: the family the run is stated at. -/
def outsE : Outs (F := F) :=
  stage 8 (fun c => Function.update (V7 m (outsD m) c) main_v7 ((dat3 (ent3 m (outsD m)) c).arrAt 11 cfg3.N)) (outsD m)

theorem outsE_2 (c : Dev nD) : outsE m 2 main_v1 c = (dat0 (ent0 m) c).arrAt 5 cfg0.N := by
  unfold outsE; rw [stage_ne _ _ _ (by decide)]
  unfold outsD; rw [stage_ne _ _ _ (by decide)]
  unfold outsC; rw [stage_ne _ _ _ (by decide)]
  unfold outsB; rw [stage_self]
  exact Function.update_self _ _ _

theorem outsD_2 (c : Dev nD) : outsD m 2 main_v1 c = outsE m 2 main_v1 c := by
  rw [outsE_2]
  unfold outsD; rw [stage_ne _ _ _ (by decide)]
  unfold outsC; rw [stage_ne _ _ _ (by decide)]
  unfold outsB; rw [stage_self]
  exact Function.update_self _ _ _

theorem outsC_2 (c : Dev nD) : outsC m 2 main_v1 c = outsE m 2 main_v1 c := by
  rw [outsE_2]
  unfold outsC; rw [stage_ne _ _ _ (by decide)]
  unfold outsB; rw [stage_self]
  exact Function.update_self _ _ _

theorem outsB_2 (c : Dev nD) : outsB m 2 main_v1 c = outsE m 2 main_v1 c := by
  rw [outsE_2]
  unfold outsB; rw [stage_self]
  exact Function.update_self _ _ _

theorem outsE_4 (c : Dev nD) : outsE m 4 main_v3 c = (dat1 (ent1 m (outsB m)) c).arrAt 7 cfg1.N := by
  unfold outsE; rw [stage_ne _ _ _ (by decide)]
  unfold outsD; rw [stage_ne _ _ _ (by decide)]
  unfold outsC; rw [stage_self]
  exact Function.update_self _ _ _

theorem outsD_4 (c : Dev nD) : outsD m 4 main_v3 c = outsE m 4 main_v3 c := by
  rw [outsE_4]
  unfold outsD; rw [stage_ne _ _ _ (by decide)]
  unfold outsC; rw [stage_self]
  exact Function.update_self _ _ _

theorem outsC_4 (c : Dev nD) : outsC m 4 main_v3 c = outsE m 4 main_v3 c := by
  rw [outsE_4]
  unfold outsC; rw [stage_self]
  exact Function.update_self _ _ _

theorem outsE_6 (c : Dev nD) : outsE m 6 main_v5 c = (dat2 (ent2 m (outsC m)) c).arrAt 9 cfg2.N := by
  unfold outsE; rw [stage_ne _ _ _ (by decide)]
  unfold outsD; rw [stage_self]
  exact Function.update_self _ _ _

theorem outsD_6 (c : Dev nD) : outsD m 6 main_v5 c = outsE m 6 main_v5 c := by
  rw [outsE_6]
  unfold outsD; rw [stage_self]
  exact Function.update_self _ _ _

theorem outsE_8 (c : Dev nD) : outsE m 8 main_v7 c = (dat3 (ent3 m (outsD m)) c).arrAt 11 cfg3.N := by
  unfold outsE; rw [stage_self]
  exact Function.update_self _ _ _

/-- The entry contents of regions 1, 2, 3 at the final family are those at the step that defined the region's output. -/
theorem ent1_E : ent1 m (outsE m) = ent1 m (outsB m) := by
  funext c b
  exact congrFun (V3_congr m (outsE m) (outsB m) (fun c => (outsB_2 m c).symm) c) _

theorem ent2_E : ent2 m (outsE m) = ent2 m (outsC m) := by
  funext c b
  exact congrFun (V5_congr m (outsE m) (outsC m) (fun c => (outsC_2 m c).symm) (fun c => (outsC_4 m c).symm) c) _

theorem ent3_E : ent3 m (outsE m) = ent3 m (outsD m) := by
  funext c b
  exact congrFun (V7_congr m (outsE m) (outsD m) (fun c => (outsD_2 m c).symm) (fun c => (outsD_4 m c).symm) (fun c => (outsD_6 m c).symm) c) _

/-- The family built in four steps satisfies the four defining equations. -/
theorem outsE_ok : OutsOk m (outsE m) where
  h0 c := outsE_2 m c
  h1 c := by rw [ent1_E]; exact outsE_4 m c
  h2 c := by rw [ent2_E]; exact outsE_6 m c
  h3 c := by rw [ent3_E]; exact outsE_8 m c

end Cert.Kernel.Hand

end
-- ==== Proof.K.Frame.lean ====
/-
  The frame claim: the program runs to the end, faults nowhere, and every argument array ends as launched. The run
  leaves every buffer at the last contents of the chain, and no host operation and no region writes an argument, so
  each argument's last contents are its launch contents.
-/
import proofs.«143194_j50603304682112_1_alg».proof.Defs
import proofs.«143194_j50603304682112_1_alg».proof.Proof.Gen.Pre_finite_inputs
import proofs.«143194_j50603304682112_1_alg».proof.Proof.K.Run
import proofs.«143194_j50603304682112_1_alg».proof.Proof.K.Outs

noncomputable section

namespace Cert.Kernel.Hand

open Cert.Kernel Cert.Kernel.Gen
open Idealize.ShloMosaic Idealize.ShloMosaic.TcCoe
open Idealize.SL.Sem

theorem frame_claim : Cert.frame_Kernel := by
  intro m ρ _
  refine (θ_run defs _ _).mono (fun r h c => ?_) (run_all m ρ (outsE m) (outsE_ok m))
  exact ⟨
    (h c _ (mem_uc main_arg0 (by decide))).trans (V9_main_arg0 m (outsE m) c),
    (h c _ (mem_uc main_arg1 (by decide))).trans (V9_main_arg1 m (outsE m) c),
    (h c _ (mem_uc main_arg2 (by decide))).trans (V9_main_arg2 m (outsE m) c),
    (h c _ (mem_uc main_arg3 (by decide))).trans (V9_main_arg3 m (outsE m) c),
    (h c _ (mem_uc main_arg4 (by decide))).trans (V9_main_arg4 m (outsE m) c),
    (h c _ (mem_uc main_arg5 (by decide))).trans (V9_main_arg5 m (outsE m) c),
    (h c _ (mem_uc main_arg6 (by decide))).trans (V9_main_arg6 m (outsE m) c),
    (h c _ (mem_uc main_arg7 (by decide))).trans (V9_main_arg7 m (outsE m) c),
    (h c _ (mem_uc main_arg8 (by decide))).trans (V9_main_arg8 m (outsE m) c),
    (h c _ (mem_uc main_arg9 (by decide))).trans (V9_main_arg9 m (outsE m) c),
    (h c _ (mem_uc main_arg10 (by decide))).trans (V9_main_arg10 m (outsE m) c),
    (h c _ (mem_uc main_arg11 (by decide))).trans (V9_main_arg11 m (outsE m) c),
    (h c _ (mem_uc main_arg12 (by decide))).trans (V9_main_arg12 m (outsE m) c),
    (h c _ (mem_uc main_arg13 (by decide))).trans (V9_main_arg13 m (outsE m) c),
    (h c _ (mem_uc main_arg14 (by decide))).trans (V9_main_arg14 m (outsE m) c),
    (h c _ (mem_uc main_arg15 (by decide))).trans (V9_main_arg15 m (outsE m) c),
    (h c _ (mem_uc main_arg16 (by decide))).trans (V9_main_arg16 m (outsE m) c),
    (h c _ (mem_uc main_arg17 (by decide))).trans (V9_main_arg17 m (outsE m) c),
    (h c _ (mem_uc main_arg18 (by decide))).trans (V9_main_arg18 m (outsE m) c),
    (h c _ (mem_uc main_arg19 (by decide))).trans (V9_main_arg19 m (outsE m) c),
    (h c _ (mem_uc main_arg20 (by decide))).trans (V9_main_arg20 m (outsE m) c),
    (h c _ (mem_uc main_arg21 (by decide))).trans (V9_main_arg21 m (outsE m) c),
    (h c _ (mem_uc main_arg22 (by decide))).trans (V9_main_arg22 m (outsE m) c),
    (h c _ (mem_uc main_arg23 (by decide))).trans (V9_main_arg23 m (outsE m) c),
    (h c _ (mem_uc main_arg24 (by decide))).trans (V9_main_arg24 m (outsE m) c),
    (h c _ (mem_uc main_arg25 (by decide))).trans (V9_main_arg25 m (outsE m) c),
    (h c _ (mem_uc main_arg26 (by decide))).trans (V9_main_arg26 m (outsE m) c),
    (h c _ (mem_uc main_arg27 (by decide))).trans (V9_main_arg27 m (outsE m) c),
    (h c _ (mem_uc main_arg28 (by decide))).trans (V9_main_arg28 m (outsE m) c)⟩

end Cert.Kernel.Hand

end
-- ==== Proof.KI.Region0.lean ====
/-
  Region 0 of the program: the first sub-network's kernel, run on the first quarter of the batch in four row blocks
  of 4096. Its body reads a block of inputs and the two layers' weights and biases, each whole, and stores
  relu-of-affine followed by affine into the output block, whole. This file states, for any contents `V` the region
  may be entered from: each window's block at a grid point; that an input's staging buffer holds that block whenever
  the body runs; what the body leaves in the output's buffer; the body's triple; the pipeline's proof data; and the
  body obligation at every grid point.
-/
import proofs.«143194_j50603304682112_1_alg».proof.Proof.Gen.KernelIdeal.Launch
import proofs.«143194_j50603304682112_1_alg».proof.Proof.Gen.KernelIdeal.Skeleton
import proofs.«143194_j50603304682112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every grid point, whether the point fetched it or the block
    index stood still since the last fetch (the weights and biases are fetched once): the body only reads it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer whole -/

abbrev r0_0 : Rect S4096x256 := Rect.unit (s := S4096x256) ![0, 0] S4096x256.size inb_S4096x256_S4096x256_0_0
abbrev r0_1 : Rect S256x256 := Rect.unit (s := S256x256) ![0, 0] S256x256.size inb_S256x256_S256x256_0_0
abbrev r0_2 : Rect S256 := Rect.unit (s := S256) ![0] S256.size inb_S256_S256_0
abbrev r0_3 : Rect S256x16 := Rect.unit (s := S256x16) ![0, 0] S256x16.size inb_S256x16_S256x16_0_0
abbrev r0_4 : Rect S16 := Rect.unit (s := S16) ![0] S16.size inb_S16_S16_0
abbrev r0_5 : Rect S4096x16 := Rect.unit (s := S4096x16) ![0, 0] S4096x16.size inb_S4096x16_S4096x16_0_0

/-! ## What the body leaves in the output's buffer -/

/-- The output's staging buffer after the body, from the input blocks: one store, of the two layers' value. -/
def out0_5 (x0 : Vec F S4096x256 .f32) (x1 : Vec F S256x256 .f32) (x2 : Vec F S256 .f32) (x3 : Vec F S256x16 .f32) (x4 : Vec F S16 .f32) :
    Vec F S4096x16 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S4096x16 .f32) (y : S4096x16.Idx) :
    ∃ pc ∈ ([⟨r0_5, p0⟩] : List (View.Piece (Elt F) S4096x16 .f32)), y ∈ pc.1.set :=
  View.cover_of_tiled [⟨r0_5, p0⟩] S4096x16.size (by rfl) y

/-! ## The body's triple -/

set_option maxHeartbeats 1000000 in
/-- The body on whole staging memrefs, the inputs' at contents `x0 … x4` and the output's at anything, runs to the
    continuation with the inputs' as they were and the output's at `out0_5` of them. -/
theorem sound_kernel0 (c : Dev nD) (E : Set ℕ) (i : grid0.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x16 .f32) (harg4 : arg4.IsWhole)
    (arg5 : Memref sig .tc .vmem S16 .f32) (harg5 : arg5.IsWhole) (arg6 : Memref sig .tc .vmem S4096x16 .f32) (harg6 : arg6.IsWhole)
    (x0 : Vec F S4096x256 .f32) (x1 : Vec F S256x256 .f32) (x2 : Vec F S256 .f32) (x3 : Vec F S256x16 .f32) (x4 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the input blocks; the invariant untouched by the body;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic grid point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the second sub-network's kernel, run on the second quarter of the batch (rows 16384 to
  32767) in four row blocks of 4096. Its body reads a block of inputs (4096 by 256) and three layers' weights and
  biases (256 by 256 with 256, 256 by 256 with 256, 256 by 16 with 16), each whole, and stores, whole, into the
  output block (4096 by 16) the value  relu(relu(x W₁ + b₁) W₂ + b₂) W₃ + b₃.  This file states, for any contents
  V the region may be entered from: each window's block at a grid point; that an input's staging buffer holds that
  block whenever the body runs; what the body leaves in the output's buffer; the body's triple; the pipeline's proof
  data; and the body obligation at every grid point.
-/
import proofs.«143194_j50603304682112_1_alg».proof.Proof.Gen.KernelIdeal.Launch
import proofs.«143194_j50603304682112_1_alg».proof.Proof.Gen.KernelIdeal.Skeleton
import proofs.«143194_j50603304682112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every grid point: either the point fetched it, or the block
    index has not moved since the last fetch (each weight and each bias is fetched once, at the first point). The body
    only reads these buffers. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every buffer whole -/

abbrev r1_0 : Rect S4096x256 := Rect.unit (s := S4096x256) ![0, 0] S4096x256.size inb_S4096x256_S4096x256_0_0
abbrev r1_1 : Rect S256x256 := Rect.unit (s := S256x256) ![0, 0] S256x256.size inb_S256x256_S256x256_0_0
abbrev r1_2 : Rect S256 := Rect.unit (s := S256) ![0] S256.size inb_S256_S256_0
abbrev r1_3 : Rect S256x256 := Rect.unit (s := S256x256) ![0, 0] S256x256.size inb_S256x256_S256x256_0_0
abbrev r1_4 : Rect S256 := Rect.unit (s := S256) ![0] S256.size inb_S256_S256_0
abbrev r1_5 : Rect S256x16 := Rect.unit (s := S256x16) ![0, 0] S256x16.size inb_S256x16_S256x16_0_0
abbrev r1_6 : Rect S16 := Rect.unit (s := S16) ![0] S16.size inb_S16_S16_0
abbrev r1_7 : Rect S4096x16 := Rect.unit (s := S4096x16) ![0, 0] S4096x16.size inb_S4096x16_S4096x16_0_0

/-! ## What the body leaves in the output's buffer -/

/-- The output's staging buffer after the body, from the input blocks: one store, of the three layers' value. -/
def out1_7 (x0 : Vec F S4096x256 .f32) (x1 : Vec F S256x256 .f32) (x2 : Vec F S256 .f32) (x3 : Vec F S256x256 .f32) (x4 : Vec F S256 .f32)
    (x5 : Vec F S256x16 .f32) (x6 : Vec F S16 .f32) :
    Vec F S4096x16 .f32 :=
  View.canon [⟨r1_7, k1_pay1 (View.ld x0 r1_0) (View.ld x1 r1_1) (View.ld x2 r1_2) (View.ld x3 r1_3) (View.ld x4 r1_4) (View.ld x5 r1_5)
    (View.ld x6 r1_6)⟩]

/-- The one store covers the buffer. -/
theorem cover1_7 (p0 : Vec F S4096x16 .f32) (y : S4096x16.Idx) :
    ∃ pc ∈ ([⟨r1_7, p0⟩] : List (View.Piece (Elt F) S4096x16 .f32)), y ∈ pc.1.set :=
  View.cover_of_tiled [⟨r1_7, p0⟩] S4096x16.size (by rfl) y

/-! ## The body's triple -/

set_option maxHeartbeats 1000000 in
/-- The body on whole staging memrefs, the inputs' at contents x0 … x6 and the output's at anything, runs to the
    continuation with the inputs' as they were and the output's at out1_7 of them. -/
theorem sound_kernel1 (c : Dev nD) (E : Set ℕ) (i : grid1.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x16 .f32) (harg6 : arg6.IsWhole)
    (arg7 : Memref sig .tc .vmem S16 .f32) (harg7 : arg7.IsWhole) (arg8 : Memref sig .tc .vmem S4096x16 .f32) (harg8 : arg8.IsWhole)
    (x0 : Vec F S4096x256 .f32) (x1 : Vec F S256x256 .f32) (x2 : Vec F S256 .f32) (x3 : Vec F S256x256 .f32) (x4 : Vec F S256 .f32)
    (x5 : Vec F S256x16 .f32) (x6 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core c: the arrays as the region finds them; after the body at point t each
    input's buffer at its block and the output's at out1_7 of the input blocks; the invariant untouched by the body;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t
      = out1_7 (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic grid point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program: the third sub-network's kernel, run on the third quarter of the batch (rows 32768 to
  49151) in four row blocks of 4096. Its body reads a block of inputs (4096 by 256) and four layers' weights and
  biases (256 by 256 with 256, 256 by 128 with 128, 128 by 256 with 256, 256 by 16 with 16), each whole, and stores,
  whole, into the output block (4096 by 16) the value  relu(relu(relu(x W₁ + b₁) W₂ + b₂) W₃ + b₃) W₄ + b₄.  This
  file states, for any contents V the region may be entered from: each window's block at a grid point; that an
  input's staging buffer holds that block whenever the body runs; what the body leaves in the output's buffer; the
  body's triple; the pipeline's proof data; and the body obligation at every grid point.
-/
import proofs.«143194_j50603304682112_1_alg».proof.Proof.Gen.KernelIdeal.Launch
import proofs.«143194_j50603304682112_1_alg».proof.Proof.Gen.KernelIdeal.Skeleton
import proofs.«143194_j50603304682112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every grid point: either the point fetched it, or the block
    index has not moved since the last fetch (each weight and each bias is fetched once, at the first point). The body
    only reads these buffers. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every buffer whole -/

abbrev r2_0 : Rect S4096x256 := Rect.unit (s := S4096x256) ![0, 0] S4096x256.size inb_S4096x256_S4096x256_0_0
abbrev r2_1 : Rect S256x256 := Rect.unit (s := S256x256) ![0, 0] S256x256.size inb_S256x256_S256x256_0_0
abbrev r2_2 : Rect S256 := Rect.unit (s := S256) ![0] S256.size inb_S256_S256_0
abbrev r2_3 : Rect S256x128 := Rect.unit (s := S256x128) ![0, 0] S256x128.size inb_S256x128_S256x128_0_0
abbrev r2_4 : Rect S128 := Rect.unit (s := S128) ![0] S128.size inb_S128_S128_0
abbrev r2_5 : Rect S128x256 := Rect.unit (s := S128x256) ![0, 0] S128x256.size inb_S128x256_S128x256_0_0
abbrev r2_6 : Rect S256 := Rect.unit (s := S256) ![0] S256.size inb_S256_S256_0
abbrev r2_7 : Rect S256x16 := Rect.unit (s := S256x16) ![0, 0] S256x16.size inb_S256x16_S256x16_0_0
abbrev r2_8 : Rect S16 := Rect.unit (s := S16) ![0] S16.size inb_S16_S16_0
abbrev r2_9 : Rect S4096x16 := Rect.unit (s := S4096x16) ![0, 0] S4096x16.size inb_S4096x16_S4096x16_0_0

/-! ## What the body leaves in the output's buffer -/

/-- The output's staging buffer after the body, from the input blocks: one store, of the four layers' value. -/
def out2_9 (x0 : Vec F S4096x256 .f32) (x1 : Vec F S256x256 .f32) (x2 : Vec F S256 .f32) (x3 : Vec F S256x128 .f32) (x4 : Vec F S128 .f32)
    (x5 : Vec F S128x256 .f32) (x6 : Vec F S256 .f32) (x7 : Vec F S256x16 .f32) (x8 : Vec F S16 .f32) :
    Vec F S4096x16 .f32 :=
  View.canon [⟨r2_9, k2_pay1 (View.ld x0 r2_0) (View.ld x1 r2_1) (View.ld x2 r2_2) (View.ld x3 r2_3) (View.ld x4 r2_4) (View.ld x5 r2_5)
    (View.ld x6 r2_6) (View.ld x7 r2_7) (View.ld x8 r2_8)⟩]

/-- The one store covers the buffer. -/
theorem cover2_9 (p0 : Vec F S4096x16 .f32) (y : S4096x16.Idx) :
    ∃ pc ∈ ([⟨r2_9, p0⟩] : List (View.Piece (Elt F) S4096x16 .f32)), y ∈ pc.1.set :=
  View.cover_of_tiled [⟨r2_9, p0⟩] S4096x16.size (by rfl) y

/-! ## The body's triple -/

set_option maxHeartbeats 1000000 in
/-- The body on whole staging memrefs, the inputs' at contents x0 … x8 and the output's at anything, runs to the
    continuation with the inputs' as they were and the output's at out2_9 of them. -/
theorem sound_kernel2 (c : Dev nD) (E : Set ℕ) (i : grid2.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S128x256 .f32) (harg6 : arg6.IsWhole)
    (arg7 : Memref sig .tc .vmem S256 .f32) (harg7 : arg7.IsWhole) (arg8 : Memref sig .tc .vmem S256x16 .f32) (harg8 : arg8.IsWhole)
    (arg9 : Memref sig .tc .vmem S16 .f32) (harg9 : arg9.IsWhole) (arg10 : Memref sig .tc .vmem S4096x16 .f32) (harg10 : arg10.IsWhole)
    (x0 : Vec F S4096x256 .f32) (x1 : Vec F S256x256 .f32) (x2 : Vec F S256 .f32) (x3 : Vec F S256x128 .f32) (x4 : Vec F S128 .f32)
    (x5 : Vec F S128x256 .f32) (x6 : Vec F S256 .f32) (x7 : Vec F S256x16 .f32) (x8 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out2_9 x0 x1 x2 x3 x4 x5 x6 x7 x8)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core c: the arrays as the region finds them; after the body at point t each
    input's buffer at its block and the output's at out2_9 of the input blocks; the invariant untouched by the body;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t)
        (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t
      = out2_9 (iblk2 V c 0 t) (iblk2 V c 1 t) (iblk2 V c 2 t) (iblk2 V c 3 t) (iblk2 V c 4 t) (iblk2 V c 5 t) (iblk2 V c 6 t)
          (iblk2 V c 7 t) (iblk2 V c 8 t) := by
  dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic grid point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t)
    (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the program: the fourth sub-network's kernel, run at four grid points on row blocks of 4096. Its body
  reads a block of inputs, then the weights and biases of four hidden layers of width 256 and of a closing layer of
  width 16, each buffer whole, and stores into the output block, whole, four rounds of relu-of-affine followed by one
  affine map. The first ten reads and the hidden layers' value form a part of the body of their own, which hands the
  last hidden activation and the closing weights to the rest; the rest reads the closing bias and stores. This file
  states, for any contents V the region may be entered from: each window's block at a grid point; that an input's
  staging buffer holds that block whenever the body runs; what the body leaves in the output's buffer; the body's
  triple; the pipeline's proof data; and the body obligation at every grid point.
-/
import proofs.«143194_j50603304682112_1_alg».proof.Proof.Gen.KernelIdeal.Launch
import proofs.«143194_j50603304682112_1_alg».proof.Proof.Gen.KernelIdeal.Skeleton
import proofs.«143194_j50603304682112_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every grid point, whether the point fetched it or the block
    index stood still since the last fetch (the ten weight and bias windows are fetched once): the body only reads it. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every buffer whole -/

abbrev r3_0 : Rect S4096x256 := Rect.unit (s := S4096x256) ![0, 0] S4096x256.size inb_S4096x256_S4096x256_0_0
abbrev r3_1 : Rect S256x256 := Rect.unit (s := S256x256) ![0, 0] S256x256.size inb_S256x256_S256x256_0_0
abbrev r3_2 : Rect S256 := Rect.unit (s := S256) ![0] S256.size inb_S256_S256_0
abbrev r3_3 : Rect S256x256 := Rect.unit (s := S256x256) ![0, 0] S256x256.size inb_S256x256_S256x256_0_0
abbrev r3_4 : Rect S256 := Rect.unit (s := S256) ![0] S256.size inb_S256_S256_0
abbrev r3_5 : Rect S256x256 := Rect.unit (s := S256x256) ![0, 0] S256x256.size inb_S256x256_S256x256_0_0
abbrev r3_6 : Rect S256 := Rect.unit (s := S256) ![0] S256.size inb_S256_S256_0
abbrev r3_7 : Rect S256x256 := Rect.unit (s := S256x256) ![0, 0] S256x256.size inb_S256x256_S256x256_0_0
abbrev r3_8 : Rect S256 := Rect.unit (s := S256) ![0] S256.size inb_S256_S256_0
abbrev r3_9 : Rect S256x16 := Rect.unit (s := S256x16) ![0, 0] S256x16.size inb_S256x16_S256x16_0_0
abbrev r3_10 : Rect S16 := Rect.unit (s := S16) ![0] S16.size inb_S16_S16_0
abbrev r3_11 : Rect S4096x16 := Rect.unit (s := S4096x16) ![0, 0] S4096x16.size inb_S4096x16_S4096x16_0_0

/-! ## What the body leaves in the output's buffer -/

/-- The output's staging buffer after the body, from the input blocks: one store, of the closing layer's value on the
    four hidden layers' value. -/
def out3_11 (x0 : Vec F S4096x256 .f32) (x1 : Vec F S256x256 .f32) (x2 : Vec F S256 .f32) (x3 : Vec F S256x256 .f32) (x4 : Vec F S256 .f32)
    (x5 : Vec F S256x256 .f32) (x6 : Vec F S256 .f32) (x7 : Vec F S256x256 .f32) (x8 : Vec F S256 .f32) (x9 : Vec F S256x16 .f32)
    (x10 : Vec F S16 .f32) : Vec F S4096x16 .f32 :=
  View.canon [⟨r3_11, k3_pay1 (k3_pay2 (View.ld x0 r3_0) (View.ld x1 r3_1) (View.ld x2 r3_2) (View.ld x3 r3_3) (View.ld x4 r3_4)
    (View.ld x5 r3_5) (View.ld x6 r3_6) (View.ld x7 r3_7) (View.ld x8 r3_8)) (View.ld x9 r3_9) (View.ld x10 r3_10)⟩]

/-- The one store covers the buffer. -/
theorem cover3_11 (p0 : Vec F S4096x16 .f32) (y : S4096x16.Idx) :
    ∃ pc ∈ ([⟨r3_11, p0⟩] : List (View.Piece (Elt F) S4096x16 .f32)), y ∈ pc.1.set :=
  View.cover_of_tiled [⟨r3_11, p0⟩] S4096x16.size (by rfl) y

/-! ## The body's triple -/

set_option maxHeartbeats 1000000 in
/-- The body on whole staging memrefs, the inputs' at contents x0 … x10 and the output's at anything, runs to the
    continuation with the inputs' as they were and the output's at out3_11 of them. The part reads ten of the inputs
    and returns the hidden layers' value with the closing weights; the rest reads the closing bias and stores. -/
theorem sound_kernel3 (c : Dev nD) (E : Set ℕ) (i : grid3.Coords)
    (arg1 : Memref sig .tc .vmem S4096x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S256 .f32) (harg7 : arg7.IsWhole) (arg8 : Memref sig .tc .vmem S256x256 .f32) (harg8 : arg8.IsWhole)
    (arg9 : Memref sig .tc .vmem S256 .f32) (harg9 : arg9.IsWhole) (arg10 : Memref sig .tc .vmem S256x16 .f32) (harg10 : arg10.IsWhole)
    (arg11 : Memref sig .tc .vmem S16 .f32) (harg11 : arg11.IsWhole) (arg12 : Memref sig .tc .vmem S4096x16 .f32) (harg12 : arg12.IsWhole)
    (x0 : Vec F S4096x256 .f32) (x1 : Vec F S256x256 .f32) (x2 : Vec F S256 .f32) (x3 : Vec F S256x256 .f32) (x4 : Vec F S256 .f32)
    (x5 : Vec F S256x256 .f32) (x6 : Vec F S256 .f32) (x7 : Vec F S256x256 .f32) (x8 : Vec F S256 .f32) (x9 : Vec F S256x16 .f32)
    (x10 : Vec F S16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out3_11 x0 x1 x2 x3 x4 x5 x6 x7 x8 x9 x10)) -∗ K ⟨⟩))
      ⊢ wp frame (wpE (defs₀ (F := F)) Variants.none c none) E
          (cc3_kernel i arg1 harg1 arg2 harg2 arg3 harg3 arg4 harg4 arg5 harg5 arg6 harg6 arg7 harg7 arg8 harg8 arg9 harg9 arg10 harg10
            arg11 harg11 arg12 harg12) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data of pipeline 3 on core c: the arrays as the region finds them; after the body at point t each
    input's buffer at its block and the output's at out3_11 of the input blocks; the invariant untouched by the body;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) :
    (dat3 V c).after 11 t = out3_11 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic grid point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t)
    (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline library's body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole program's run. Between two items of the program — a stretch of host operations or a kernel region — each
  core holds every buffer at known contents: the launch contents, then each host stretch applied, then, after a
  region, the region's output array at what its four write-backs leave (named `outs` and tied to the pipeline's
  proof data by `OutsOk`). Each region is entered from those contents: its arrays are split out of the buffers, its
  body obligation is the region's own, and its arrays are put back at the exit. The launch over the nine items then
  gives: every weakly fair execution ends, and every buffer ends at the last contents `V9`. The frame claim and the
  value claim both read their buffers off `V9`.
-/
import proofs.«143194_j50603304682112_1_alg».proof.Proof.KI.Region0
import proofs.«143194_j50603304682112_1_alg».proof.Proof.KI.Region1
import proofs.«143194_j50603304682112_1_alg».proof.Proof.KI.Region2
import proofs.«143194_j50603304682112_1_alg».proof.Proof.KI.Region3
import proofs.«143194_j50603304682112_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (outs : Outs (F := F))

/-! ## The contents each region is entered from -/

/-- Region 0's entry contents: the launch contents after the first host stretch (the first quarter of the batch sliced out). -/
abbrev ent0 : (c : Dev nD) → (b : Ref sig .tc) → Buf (Elt F) ((c : Thread nD τ).loc b) := fun c b => V1 m c b
/-- Region 1's entry contents. -/
abbrev ent1 : (c : Dev nD) → (b : Ref sig .tc) → Buf (Elt F) ((c : Thread nD τ).loc b) := fun c b => V3 m outs c b
/-- Region 2's entry contents. -/
abbrev ent2 : (c : Dev nD) → (b : Ref sig .tc) → Buf (Elt F) ((c : Thread nD τ).loc b) := fun c b => V5 m outs c b
/-- Region 3's entry contents. -/
abbrev ent3 : (c : Dev nD) → (b : Ref sig .tc) → Buf (Elt F) ((c : Thread nD τ).loc b) := fun c b => V7 m outs c b

/-- What ties the named output contents to the regions: after each region its output array holds what the region's
    write-backs, folded over the four grid points, leave of the entry contents. -/
structure OutsOk : Prop where
  h0 : ∀ c, outs 2 main_v1 c = (dat0 (ent0 m) c).arrAt 5 cfg0.N
  h1 : ∀ c, outs 4 main_v3 c = (dat1 (ent1 m outs) c).arrAt 7 cfg1.N
  h2 : ∀ c, outs 6 main_v5 c = (dat2 (ent2 m outs) c).arrAt 9 cfg2.N
  h3 : ∀ c, outs 8 main_v7 c = (dat3 (ent3 m outs) c).arrAt 11 cfg3.N

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (ent0 m) c
  | ⟨1, _⟩ => fun c => dat1 (ent1 m outs) c
  | ⟨2, _⟩ => fun c => dat2 (ent2 m outs) c
  | ⟨3, _⟩ => fun c => dat3 (ent3 m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

/-! ## Region 0 as an item -/

/-- At region 0's exit each of its arrays holds what the pipeline leaves: an input's array is as entered, the output's
    is the named contents. -/
theorem hF0 (hok : OutsOk m outs) (c : Dev nD) (w : Fin cfg0.W) :
    (dat0 (ent0 m) c).arrAt w cfg0.N = V2 m outs c (Pipeline.arrRef spec0 w) := by
  match w with
  | ⟨0, _⟩ => exact (((dat0 (ent0 m) c).arrAt_in 0 rfl _).trans (A_eq0 (ent0 m) c 0)).trans (V2_of m outs c _ (by decide)).symm
  | ⟨1, _⟩ => exact (((dat0 (ent0 m) c).arrAt_in 1 rfl _).trans (A_eq0 (ent0 m) c 1)).trans (V2_of m outs c _ (by decide)).symm
  | ⟨2, _⟩ => exact (((dat0 (ent0 m) c).arrAt_in 2 rfl _).trans (A_eq0 (ent0 m) c 2)).trans (V2_of m outs c _ (by decide)).symm
  | ⟨3, _⟩ => exact (((dat0 (ent0 m) c).arrAt_in 3 rfl _).trans (A_eq0 (ent0 m) c 3)).trans (V2_of m outs c _ (by decide)).symm
  | ⟨4, _⟩ => exact (((dat0 (ent0 m) c).arrAt_in 4 rfl _).trans (A_eq0 (ent0 m) c 4)).trans (V2_of m outs c _ (by decide)).symm
  | ⟨5, _⟩ =>
    show _ = Function.update (V1 m c) main_v1 (outs 2 main_v1 c) main_v1
    rw [Function.update_self]; exact (hok.h0 c).symm

/-- Every other buffer is as the region found it. -/
theorem hrest0 (c : Dev nD) : ∀ b, b ∉ Finset.univ.image (Pipeline.arrRef spec0) → V2 m outs c b = V1 m c b :=
  fun b hb => V2_of m outs c b fun h => hb (by
    rw [List.mem_singleton] at h; subst h
    exact Finset.mem_image.mpr ⟨5, Finset.mem_univ _, rfl⟩)

set_option backward.isDefEq.respectTransparency.types false in
/-- Region 0 over the thread state: entered from every buffer at the contents before it, left at the contents after
    it. Its arrays are split out of the buffers and put back at the exit contents; the generator register goes into the
    pipeline's invariant and comes back; nothing is owed; the kernel has no semaphore of its own. -/
def reg0 (hok : OutsOk m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (ent0 m c) (fun b => V2 m outs c b) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as an item -/

/-- At region 1's exit each of its arrays holds what the pipeline leaves. -/
theorem hF1 (hok : OutsOk m outs) (c : Dev nD) (w : Fin cfg1.W) :
    (dat1 (ent1 m outs) c).arrAt w cfg1.N = V4 m outs c (Pipeline.arrRef spec1 w) := by
  match w with
  | ⟨0, _⟩ => exact (((dat1 (ent1 m outs) c).arrAt_in 0 rfl _).trans (A_eq1 (ent1 m outs) c 0)).trans (V4_of m outs c _ (by decide)).symm
  | ⟨1, _⟩ => exact (((dat1 (ent1 m outs) c).arrAt_in 1 rfl _).trans (A_eq1 (ent1 m outs) c 1)).trans (V4_of m outs c _ (by decide)).symm
  | ⟨2, _⟩ => exact (((dat1 (ent1 m outs) c).arrAt_in 2 rfl _).trans (A_eq1 (ent1 m outs) c 2)).trans (V4_of m outs c _ (by decide)).symm
  | ⟨3, _⟩ => exact (((dat1 (ent1 m outs) c).arrAt_in 3 rfl _).trans (A_eq1 (ent1 m outs) c 3)).trans (V4_of m outs c _ (by decide)).symm
  | ⟨4, _⟩ => exact (((dat1 (ent1 m outs) c).arrAt_in 4 rfl _).trans (A_eq1 (ent1 m outs) c 4)).trans (V4_of m outs c _ (by decide)).symm
  | ⟨5, _⟩ => exact (((dat1 (ent1 m outs) c).arrAt_in 5 rfl _).trans (A_eq1 (ent1 m outs) c 5)).trans (V4_of m outs c _ (by decide)).symm
  | ⟨6, _⟩ => exact (((dat1 (ent1 m outs) c).arrAt_in 6 rfl _).trans (A_eq1 (ent1 m outs) c 6)).trans (V4_of m outs c _ (by decide)).symm
  | ⟨7, _⟩ =>
    show _ = Function.update (V3 m outs c) main_v3 (outs 4 main_v3 c) main_v3
    rw [Function.update_self]; exact (hok.h1 c).symm

/-- Every other buffer is as the region found it. -/
theorem hrest1 (c : Dev nD) : ∀ b, b ∉ Finset.univ.image (Pipeline.arrRef spec1) → V4 m outs c b = V3 m outs c b :=
  fun b hb => V4_of m outs c b fun h => hb (by
    rw [List.mem_singleton] at h; subst h
    exact Finset.mem_image.mpr ⟨7, Finset.mem_univ _, rfl⟩)

set_option backward.isDefEq.respectTransparency.types false in
/-- Region 1 over the thread state, as region 0. -/
def reg1 (hok : OutsOk m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec1 c (ent1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (ent1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (ent1 m outs c) (fun b => V4 m outs c b) ((pdats m outs 1 c).arrAt · cfg1.N) (hF1 m outs hok c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as an item -/

set_option maxHeartbeats 1600000 in
/-- At region 2's exit each of its arrays holds what the pipeline leaves. -/
theorem hF2 (hok : OutsOk m outs) (c : Dev nD) (w : Fin cfg2.W) :
    (dat2 (ent2 m outs) c).arrAt w cfg2.N = V6 m outs c (Pipeline.arrRef spec2 w) := by
  match w with
  | ⟨0, _⟩ => exact (((dat2 (ent2 m outs) c).arrAt_in 0 rfl _).trans (A_eq2 (ent2 m outs) c 0)).trans (V6_of m outs c _ (by decide)).symm
  | ⟨1, _⟩ => exact (((dat2 (ent2 m outs) c).arrAt_in 1 rfl _).trans (A_eq2 (ent2 m outs) c 1)).trans (V6_of m outs c _ (by decide)).symm
  | ⟨2, _⟩ => exact (((dat2 (ent2 m outs) c).arrAt_in 2 rfl _).trans (A_eq2 (ent2 m outs) c 2)).trans (V6_of m outs c _ (by decide)).symm
  | ⟨3, _⟩ => exact (((dat2 (ent2 m outs) c).arrAt_in 3 rfl _).trans (A_eq2 (ent2 m outs) c 3)).trans (V6_of m outs c _ (by decide)).symm
  | ⟨4, _⟩ => exact (((dat2 (ent2 m outs) c).arrAt_in 4 rfl _).trans (A_eq2 (ent2 m outs) c 4)).trans (V6_of m outs c _ (by decide)).symm
  | ⟨5, _⟩ => exact (((dat2 (ent2 m outs) c).arrAt_in 5 rfl _).trans (A_eq2 (ent2 m outs) c 5)).trans (V6_of m outs c _ (by decide)).symm
  | ⟨6, _⟩ => exact (((dat2 (ent2 m outs) c).arrAt_in 6 rfl _).trans (A_eq2 (ent2 m outs) c 6)).trans (V6_of m outs c _ (by decide)).symm
  | ⟨7, _⟩ => exact (((dat2 (ent2 m outs) c).arrAt_in 7 rfl _).trans (A_eq2 (ent2 m outs) c 7)).trans (V6_of m outs c _ (by decide)).symm
  | ⟨8, _⟩ => exact (((dat2 (ent2 m outs) c).arrAt_in 8 rfl _).trans (A_eq2 (ent2 m outs) c 8)).trans (V6_of m outs c _ (by decide)).symm
  | ⟨9, _⟩ =>
    show _ = Function.update (V5 m outs c) main_v5 (outs 6 main_v5 c) main_v5
    rw [Function.update_self]; exact (hok.h2 c).symm

/-- Every other buffer is as the region found it. -/
theorem hrest2 (c : Dev nD) : ∀ b, b ∉ Finset.univ.image (Pipeline.arrRef spec2) → V6 m outs c b = V5 m outs c b :=
  fun b hb => V6_of m outs c b fun h => hb (by
    rw [List.mem_singleton] at h; subst h
    exact Finset.mem_image.mpr ⟨9, Finset.mem_univ _, rfl⟩)

set_option backward.isDefEq.respectTransparency.types false in
/-- Region 2 over the thread state, as region 0. -/
def reg2 (hok : OutsOk m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m outs) c).loose
  hwaits := Pipeline.hwaits_of_owed_zero _ _ _ _ L lv 2 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec2 c (ent2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (ent2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (ent2 m outs c) (fun b => V6 m outs c b) ((pdats m outs 2 c).arrAt · cfg2.N) (hF2 m outs hok c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as an item -/

set_option maxHeartbeats 1600000 in
/-- At region 3's exit each of its arrays holds what the pipeline leaves. -/
theorem hF3 (hok : OutsOk m outs) (c : Dev nD) (w : Fin cfg3.W) :
    (dat3 (ent3 m outs) c).arrAt w cfg3.N = V8 m outs c (Pipeline.arrRef spec3 w) := by
  match w with
  | ⟨0, _⟩ => exact (((dat3 (ent3 m outs) c).arrAt_in 0 rfl _).trans (A_eq3 (ent3 m outs) c 0)).trans (V8_of m outs c _ (by decide)).symm
  | ⟨1, _⟩ => exact (((dat3 (ent3 m outs) c).arrAt_in 1 rfl _).trans (A_eq3 (ent3 m outs) c 1)).trans (V8_of m outs c _ (by decide)).symm
  | ⟨2, _⟩ => exact (((dat3 (ent3 m outs) c).arrAt_in 2 rfl _).trans (A_eq3 (ent3 m outs) c 2)).trans (V8_of m outs c _ (by decide)).symm
  | ⟨3, _⟩ => exact (((dat3 (ent3 m outs) c).arrAt_in 3 rfl _).trans (A_eq3 (ent3 m outs) c 3)).trans (V8_of m outs c _ (by decide)).symm
  | ⟨4, _⟩ => exact (((dat3 (ent3 m outs) c).arrAt_in 4 rfl _).trans (A_eq3 (ent3 m outs) c 4)).trans (V8_of m outs c _ (by decide)).symm
  | ⟨5, _⟩ => exact (((dat3 (ent3 m outs) c).arrAt_in 5 rfl _).trans (A_eq3 (ent3 m outs) c 5)).trans (V8_of m outs c _ (by decide)).symm
  | ⟨6, _⟩ => exact (((dat3 (ent3 m outs) c).arrAt_in 6 rfl _).trans (A_eq3 (ent3 m outs) c 6)).trans (V8_of m outs c _ (by decide)).symm
  | ⟨7, _⟩ => exact (((dat3 (ent3 m outs) c).arrAt_in 7 rfl _).trans (A_eq3 (ent3 m outs) c 7)).trans (V8_of m outs c _ (by decide)).symm
  | ⟨8, _⟩ => exact (((dat3 (ent3 m outs) c).arrAt_in 8 rfl _).trans (A_eq3 (ent3 m outs) c 8)).trans (V8_of m outs c _ (by decide)).symm
  | ⟨9, _⟩ => exact (((dat3 (ent3 m outs) c).arrAt_in 9 rfl _).trans (A_eq3 (ent3 m outs) c 9)).trans (V8_of m outs c _ (by decide)).symm
  | ⟨10, _⟩ => exact (((dat3 (ent3 m outs) c).arrAt_in 10 rfl _).trans (A_eq3 (ent3 m outs) c 10)).trans (V8_of m outs c _ (by decide)).symm
  | ⟨11, _⟩ =>
    show _ = Function.update (V7 m outs c) main_v7 (outs 8 main_v7 c) main_v7
    rw [Function.update_self]; exact (hok.h3 c).symm

/-- Every other buffer is as the region found it. -/
theorem hrest3 (c : Dev nD) : ∀ b, b ∉ Finset.univ.image (Pipeline.arrRef spec3) → V8 m outs c b = V7 m outs c b :=
  fun b hb => V8_of m outs c b fun h => hb (by
    rw [List.mem_singleton] at h; subst h
    exact Finset.mem_image.mpr ⟨11, Finset.mem_univ _, rfl⟩)

set_option backward.isDefEq.respectTransparency.types false in
/-- Region 3 over the thread state, as region 0. -/
def reg3 (hok : OutsOk m outs) : RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m outs) c).loose
  hwaits := Pipeline.hwaits_of_owed_zero _ _ _ _ L lv 3 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec3 c (ent3 m outs c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (ent3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (ent3 m outs c) (fun b => V8 m outs c b) ((pdats m outs 3 c).arrAt · cfg3.N) (hF3 m outs hok c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN. From any memory with zero counters every weakly fair execution of the program on the cores ends, nothing
    faulting, and in every final state each core's every buffer holds the last contents `V9`: the launch contents
    carried through the five host stretches and the four regions. -/
theorem run_all (hok : OutsOk m outs) :
    θ_run defs (onTc (τ := τ) (main (F := F))) ⟨m, fun _ => 0, ρ⟩ (fun r => ∀ c : Dev nD,
      ∀ b ∈ Pipeline.ucRefs τ sig, r.2.mem ((c : Thread nD τ).1, b) = V9 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs hok) (reg1 m outs hok) (reg2 m outs hok) (reg3 m outs hok))
    (fun c Q => by
      rewrite [main_chain c, Seg.run_eq_chain,
        show (segs m outs 𝒱₀ L lv E () (pdats m outs) (reg0 m outs hok) (reg1 m outs hok) (reg2 m outs hok) (reg3 m outs hok) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m outs c b)
    (hfin := fun c s' => by
      iintro ⟨Hh, HSI⟩
      unfold StableHlo.held
      imodintro
      iapply (pointsTo_read_all (Pipeline.ucRefs τ sig) (fun b => (((c : Thread nD τ)).1, b)) (V9 m outs c) s')
      isplitl [Hh] <;> iassumption)
    (hQ := fun s h c => h c)

/-- An unscoped buffer of a core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Outs.lean ====
/-
  The named output contents exist. The contents the four regions leave are defined one after the other: region 0's
  output from the launch contents, region 1's from the contents that follow once region 0's output is in place, and so
  on. Each later definition reads the earlier ones only through the buffers they were put in, so the family built in
  four steps satisfies all four defining equations at once.
-/
import proofs.«143194_j50603304682112_1_alg».proof.Proof.KI.Run

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)

/-- A family of contents that reads the valuations `W` at step `n0` and is `base` at every other step. -/
def stage (n0 : ℕ) (W : Dev nD → Valuation τ sig (Elt F)) (base : Outs (F := F)) : Outs (F := F) :=
  fun n r c => if n = n0 then W c r else base n r c

theorem stage_self (n0 : ℕ) (W : Dev nD → Valuation τ sig (Elt F)) (base : Outs (F := F)) (r : Ref sig .tc) (c : Dev nD) :
    stage n0 W base n0 r c = W c r := if_pos rfl

theorem stage_ne (n0 : ℕ) (W : Dev nD → Valuation τ sig (Elt F)) (base : Outs (F := F)) {n : ℕ} (h : n ≠ n0) (r : Ref sig .tc) (c : Dev nD) :
    stage n0 W base n r c = base n r c := if_neg h

/-! ## The contents after a region depend on the named outputs only through the regions before it -/

theorem V3_congr (o o' : Outs (F := F)) (h2 : ∀ c, o 2 main_v1 c = o' 2 main_v1 c) (c : Dev nD) : V3 m o c = V3 m o' c := by
  show StableHlo.after hostOps1 (Function.update (V1 m c) main_v1 (o 2 main_v1 c))
    = StableHlo.after hostOps1 (Function.update (V1 m c) main_v1 (o' 2 main_v1 c))
  rw [h2 c]

theorem V5_congr (o o' : Outs (F := F)) (h2 : ∀ c, o 2 main_v1 c = o' 2 main_v1 c) (h4 : ∀ c, o 4 main_v3 c = o' 4 main_v3 c) (c : Dev nD) :
    V5 m o c = V5 m o' c := by
  show StableHlo.after hostOps2 (Function.update (V3 m o c) main_v3 (o 4 main_v3 c))
    = StableHlo.after hostOps2 (Function.update (V3 m o' c) main_v3 (o' 4 main_v3 c))
  rw [V3_congr m o o' h2 c, h4 c]

theorem V7_congr (o o' : Outs (F := F)) (h2 : ∀ c, o 2 main_v1 c = o' 2 main_v1 c) (h4 : ∀ c, o 4 main_v3 c = o' 4 main_v3 c)
    (h6 : ∀ c, o 6 main_v5 c = o' 6 main_v5 c) (c : Dev nD) : V7 m o c = V7 m o' c := by
  show StableHlo.after hostOps3 (Function.update (V5 m o c) main_v5 (o 6 main_v5 c))
    = StableHlo.after hostOps3 (Function.update (V5 m o' c) main_v5 (o' 6 main_v5 c))
  rw [V5_congr m o o' h2 h4 c, h6 c]

/-! ## The four steps -/

/-- Before any region: every buffer's launch contents. -/
def outsA : Outs (F := F) := fun _ r c => V0 m c r
/-- Region 0's output in place. -/
def outsB : Outs (F := F) :=
  stage 2 (fun c => Function.update (V1 m c) main_v1 ((dat0 (ent0 m) c).arrAt 5 cfg0.N)) (outsA m)
/-- Region 1's output in place. -/
def outsC : Outs (F := F) :=
  stage 4 (fun c => Function.update (V3 m (outsB m) c) main_v3 ((dat1 (ent1 m (outsB m)) c).arrAt 7 cfg1.N)) (outsB m)
/-- Region 2's output in place. -/
def outsD : Outs (F := F) :=
  stage 6 (fun c => Function.update (V5 m (outsC m) c) main_v5 ((dat2 (ent2 m (outsC m)) c).arrAt 9 cfg2.N)) (outsC m)
/-- Region 3's output in place: the family the run is stated at. -/
def outsE : Outs (F := F) :=
  stage 8 (fun c => Function.update (V7 m (outsD m) c) main_v7 ((dat3 (ent3 m (outsD m)) c).arrAt 11 cfg3.N)) (outsD m)

theorem outsE_2 (c : Dev nD) : outsE m 2 main_v1 c = (dat0 (ent0 m) c).arrAt 5 cfg0.N := by
  unfold outsE; rw [stage_ne _ _ _ (by decide)]
  unfold outsD; rw [stage_ne _ _ _ (by decide)]
  unfold outsC; rw [stage_ne _ _ _ (by decide)]
  unfold outsB; rw [stage_self]
  exact Function.update_self _ _ _

theorem outsD_2 (c : Dev nD) : outsD m 2 main_v1 c = outsE m 2 main_v1 c := by
  rw [outsE_2]
  unfold outsD; rw [stage_ne _ _ _ (by decide)]
  unfold outsC; rw [stage_ne _ _ _ (by decide)]
  unfold outsB; rw [stage_self]
  exact Function.update_self _ _ _

theorem outsC_2 (c : Dev nD) : outsC m 2 main_v1 c = outsE m 2 main_v1 c := by
  rw [outsE_2]
  unfold outsC; rw [stage_ne _ _ _ (by decide)]
  unfold outsB; rw [stage_self]
  exact Function.update_self _ _ _

theorem outsB_2 (c : Dev nD) : outsB m 2 main_v1 c = outsE m 2 main_v1 c := by
  rw [outsE_2]
  unfold outsB; rw [stage_self]
  exact Function.update_self _ _ _

theorem outsE_4 (c : Dev nD) : outsE m 4 main_v3 c = (dat1 (ent1 m (outsB m)) c).arrAt 7 cfg1.N := by
  unfold outsE; rw [stage_ne _ _ _ (by decide)]
  unfold outsD; rw [stage_ne _ _ _ (by decide)]
  unfold outsC; rw [stage_self]
  exact Function.update_self _ _ _

theorem outsD_4 (c : Dev nD) : outsD m 4 main_v3 c = outsE m 4 main_v3 c := by
  rw [outsE_4]
  unfold outsD; rw [stage_ne _ _ _ (by decide)]
  unfold outsC; rw [stage_self]
  exact Function.update_self _ _ _

theorem outsC_4 (c : Dev nD) : outsC m 4 main_v3 c = outsE m 4 main_v3 c := by
  rw [outsE_4]
  unfold outsC; rw [stage_self]
  exact Function.update_self _ _ _

theorem outsE_6 (c : Dev nD) : outsE m 6 main_v5 c = (dat2 (ent2 m (outsC m)) c).arrAt 9 cfg2.N := by
  unfold outsE; rw [stage_ne _ _ _ (by decide)]
  unfold outsD; rw [stage_self]
  exact Function.update_self _ _ _

theorem outsD_6 (c : Dev nD) : outsD m 6 main_v5 c = outsE m 6 main_v5 c := by
  rw [outsE_6]
  unfold outsD; rw [stage_self]
  exact Function.update_self _ _ _

theorem outsE_8 (c : Dev nD) : outsE m 8 main_v7 c = (dat3 (ent3 m (outsD m)) c).arrAt 11 cfg3.N := by
  unfold outsE; rw [stage_self]
  exact Function.update_self _ _ _

/-- The entry contents of regions 1, 2, 3 at the final family are those at the step that defined the region's output. -/
theorem ent1_E : ent1 m (outsE m) = ent1 m (outsB m) := by
  funext c b
  exact congrFun (V3_congr m (outsE m) (outsB m) (fun c => (outsB_2 m c).symm) c) _

theorem ent2_E : ent2 m (outsE m) = ent2 m (outsC m) := by
  funext c b
  exact congrFun (V5_congr m (outsE m) (outsC m) (fun c => (outsC_2 m c).symm) (fun c => (outsC_4 m c).symm) c) _

theorem ent3_E : ent3 m (outsE m) = ent3 m (outsD m) := by
  funext c b
  exact congrFun (V7_congr m (outsE m) (outsD m) (fun c => (outsD_2 m c).symm) (fun c => (outsD_4 m c).symm) (fun c => (outsD_6 m c).symm) c) _

/-- The family built in four steps satisfies the four defining equations. -/
theorem outsE_ok : OutsOk m (outsE m) where
  h0 c := outsE_2 m c
  h1 c := by rw [ent1_E]; exact outsE_4 m c
  h2 c := by rw [ent2_E]; exact outsE_6 m c
  h3 c := by rw [ent3_E]; exact outsE_8 m c

end Cert.KernelIdeal.Hand

end
-- ==== Proof.KI.Frame.lean ====
/-
  The frame claim: the program runs to the end, faults nowhere, and every argument array ends as launched. The run
  leaves every buffer at the last contents of the chain, and no host operation and no region writes an argument, so
  each argument's last contents are its launch contents.
-/
import proofs.«143194_j50603304682112_1_alg».proof.Defs
import proofs.«143194_j50603304682112_1_alg».proof.Proof.Gen.Pre_finite_inputs
import proofs.«143194_j50603304682112_1_alg».proof.Proof.KI.Run
import proofs.«143194_j50603304682112_1_alg».proof.Proof.KI.Outs

noncomputable section

namespace Cert.KernelIdeal.Hand

open Cert.KernelIdeal Cert.KernelIdeal.Gen
open Idealize.ShloMosaic Idealize.ShloMosaic.TcCoe
open Idealize.SL.Sem

theorem frame_claim : Cert.frame_KernelIdeal := by
  intro m ρ _
  refine (θ_run defs _ _).mono (fun r h c => ?_) (run_all m ρ (outsE m) (outsE_ok m))
  exact ⟨
    (h c _ (mem_uc main_arg0 (by decide))).trans (V9_main_arg0 m (outsE m) c),
    (h c _ (mem_uc main_arg1 (by decide))).trans (V9_main_arg1 m (outsE m) c),
    (h c _ (mem_uc main_arg2 (by decide))).trans (V9_main_arg2 m (outsE m) c),
    (h c _ (mem_uc main_arg3 (by decide))).trans (V9_main_arg3 m (outsE m) c),
    (h c _ (mem_uc main_arg4 (by decide))).trans (V9_main_arg4 m (outsE m) c),
    (h c _ (mem_uc main_arg5 (by decide))).trans (V9_main_arg5 m (outsE m) c),
    (h c _ (mem_uc main_arg6 (by decide))).trans (V9_main_arg6 m (outsE m) c),
    (h c _ (mem_uc main_arg7 (by decide))).trans (V9_main_arg7 m (outsE m) c),
    (h c _ (mem_uc main_arg8 (by decide))).trans (V9_main_arg8 m (outsE m) c),
    (h c _ (mem_uc main_arg9 (by decide))).trans (V9_main_arg9 m (outsE m) c),
    (h c _ (mem_uc main_arg10 (by decide))).trans (V9_main_arg10 m (outsE m) c),
    (h c _ (mem_uc main_arg11 (by decide))).trans (V9_main_arg11 m (outsE m) c),
    (h c _ (mem_uc main_arg12 (by decide))).trans (V9_main_arg12 m (outsE m) c),
    (h c _ (mem_uc main_arg13 (by decide))).trans (V9_main_arg13 m (outsE m) c),
    (h c _ (mem_uc main_arg14 (by decide))).trans (V9_main_arg14 m (outsE m) c),
    (h c _ (mem_uc main_arg15 (by decide))).trans (V9_main_arg15 m (outsE m) c),
    (h c _ (mem_uc main_arg16 (by decide))).trans (V9_main_arg16 m (outsE m) c),
    (h c _ (mem_uc main_arg17 (by decide))).trans (V9_main_arg17 m (outsE m) c),
    (h c _ (mem_uc main_arg18 (by decide))).trans (V9_main_arg18 m (outsE m) c),
    (h c _ (mem_uc main_arg19 (by decide))).trans (V9_main_arg19 m (outsE m) c),
    (h c _ (mem_uc main_arg20 (by decide))).trans (V9_main_arg20 m (outsE m) c),
    (h c _ (mem_uc main_arg21 (by decide))).trans (V9_main_arg21 m (outsE m) c),
    (h c _ (mem_uc main_arg22 (by decide))).trans (V9_main_arg22 m (outsE m) c),
    (h c _ (mem_uc main_arg23 (by decide))).trans (V9_main_arg23 m (outsE m) c),
    (h c _ (mem_uc main_arg24 (by decide))).trans (V9_main_arg24 m (outsE m) c),
    (h c _ (mem_uc main_arg25 (by decide))).trans (V9_main_arg25 m (outsE m) c),
    (h c _ (mem_uc main_arg26 (by decide))).trans (V9_main_arg26 m (outsE m) c),
    (h c _ (mem_uc main_arg27 (by decide))).trans (V9_main_arg27 m (outsE m) c),
    (h c _ (mem_uc main_arg28 (by decide))).trans (V9_main_arg28 m (outsE m) c)⟩

end Cert.KernelIdeal.Hand

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.LibDenseRows.lean ====
/-
  A dense layer and a rectifier, read row by row.

  A dense layer takes a matrix `Y` of `M` rows and `K` columns to `Y · W + b`: the product with a `K × N` weight matrix
  plus a bias vector of length `N` added to every row. A rectifier takes every entry `y` to `max y 0`. Both act on each row
  by itself: row `r` of the result depends on row `r` of the operand only. This file names the row of a matrix (`rowOf`),
  the dense layer on one row (`dense`: entry `j` is `∑ q, x q * W q j + b j`) and the rectifier on one row (`relu`), and
  proves that the two ways a program spells each layer are these functions of the row, at the extended reals:
  • the block spelling: the accumulating block product into a zero accumulator, plus the bias given one unit row axis by a
    shape cast and repeated over the rows; the maximum with a repeated scalar zero;
  • the host spelling: the host's product, plus the bias sent to a `1 × N` matrix and then to `M × N` by two axis-naming
    broadcasts; the maximum with the rank-0 zero constant broadcast along no axis.
  The statements are equations between functions of the column, so that one layer's equation rewrites inside the next
  layer's. Nothing is assumed finite and no law of arithmetic is used: each operation is only read at an entry. The
  product's dimension numbers are any record that contracts the left columns with the right rows, keeps the left rows
  and the right columns in that order, and has no batch axis.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«143194_j50603304682112_1_alg».proof.Proof.LibPlainDot

noncomputable section

open scoped BigOperators

namespace Cert.LibDenseRows

open Idealize.ShloMosaic Idealize.ShloMosaic.ValueIdx

/-! ## The vocabulary: a row, a dense layer on a row, a rectifier on a row -/

/-- Row `i` of a matrix, as a function of the column. -/
def rowOf {M K : Nat} (X : (⟨2, ![M, K]⟩ : Shape).Idx → EReal) (i : Fin M) : Fin K → EReal :=
  fun q => X (ix2 i q)

/-- A dense layer on one row `x`: entry `j` is the row times column `j` of the weights, plus the bias at `j`. -/
def dense {K N : Nat} (W : (⟨2, ![K, N]⟩ : Shape).Idx → EReal) (b : (⟨1, ![N]⟩ : Shape).Idx → EReal)
    (x : Fin K → EReal) : Fin N → EReal :=
  fun j => (∑ q : Fin K, x q * W (ix2 q j)) + b (ix1 j)

/-- The rectifier on one row: every entry's maximum with zero. -/
def relu {N : Nat} (x : Fin N → EReal) : Fin N → EReal :=
  fun j => max (x j) 0

/-- A row read at a column is the matrix read at that entry. -/
theorem rowOf_apply {M K : Nat} (X : (⟨2, ![M, K]⟩ : Shape).Idx → EReal) (i : Fin M) (q : Fin K) :
    rowOf X i q = X (ix2 i q) := rfl

/-! ## A bias repeated over the rows by two axis-naming broadcasts

The host first sends the length-`N` bias to a `1 × N` matrix (the bias's axis named as the result's column axis), then
that matrix to `M × N` (both axes named in order, the unit row axis stretched). Read at `(i, j)` the result is the bias
at `j`: a stretched axis reads coordinate `0`, a kept axis reads the result's coordinate. -/

section Bias
variable {α : Type} {M N : Nat}

/-- A `1 × N` matrix broadcast to `M × N` along the axes `[0, 1]` reads, at `(i, j)`, its one row at `j`. -/
theorem bcastRows_apply (v : (⟨2, ![1, N]⟩ : Shape).Idx → α)
    (h : (⟨2, ![1, N]⟩ : Shape).BroadcastsInDim ⟨2, ![M, N]⟩ ![0, 1]) (i : Fin M) (j : Fin N) :
    broadcastInDim ⟨2, ![M, N]⟩ ![0, 1] h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if N = 1 then 0 else j.val
    split
    · have := j.isLt; omega
    · rfl

/-- A length-`N` vector broadcast to `1 × N` along the axis `[1]` reads, at `(u, j)`, the vector at `j`. -/
theorem bcastVec_apply (b : (⟨1, ![N]⟩ : Shape).Idx → α)
    (h : (⟨1, ![N]⟩ : Shape).BroadcastsInDim ⟨2, ![1, N]⟩ ![1]) (u : Fin 1) (j : Fin N) :
    broadcastInDim ⟨2, ![1, N]⟩ ![1] h b (ix2 u j) = b (ix1 j) := by
  refine broadcastInDim_apply _ h b (ix2 u j) (ix1 j) fun ax => ?_
  match ax with
  | ⟨0, _⟩ =>
    show j.val = if N = 1 then 0 else j.val
    split
    · have := j.isLt; omega
    · rfl

end Bias

/-! ## The four layer equations -/

section Layers

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- THE BLOCK SPELLING OF A DENSE LAYER, row by row: the block product into the zero accumulator plus the bias (given a
    unit row axis, then repeated over the rows) has, as its row `r`, the dense layer of the operand's row `r`. -/
theorem kernel_dense (prec : Option ContractPrecision) (Y : FVec Ideal (⟨2, ![M, K]⟩ : Shape) .f32)
    (W : FVec Ideal (⟨2, ![K, N]⟩ : Shape) .f32) (b : FVec Ideal (⟨1, ![N]⟩ : Shape) .f32)
    (h1 : (⟨1, ![N]⟩ : Shape).ShapeCasts ⟨2, ![1, N]⟩) (h2 : (⟨2, ![1, N]⟩ : Shape).Broadcasts ⟨2, ![M, N]⟩)
    (r : Fin M) :
    rowOf (addf (matmul (F := Ideal) d prec Y W (constant (⟨2, ![M, N]⟩ : Shape) .f32 0x00000000#32))
        (broadcastTo ⟨2, ![M, N]⟩ (shapeCast ⟨2, ![1, N]⟩ b h1) h2)) r
      = dense W b (rowOf Y r) := by
  funext j
  show addf (matmul (F := Ideal) d prec Y W (constant (⟨2, ![M, N]⟩ : Shape) .f32 0x00000000#32))
      (broadcastTo ⟨2, ![M, N]⟩ (shapeCast ⟨2, ![1, N]⟩ b h1) h2) (ix2 r j)
    = (∑ q : Fin K, Y (ix2 r q) * W (ix2 q j)) + b (ix1 j)
  rw [addf_apply, Cert.LibPlainDot.matmul_zero_apply' d hlc hrc hln hrn hlb hrb prec Y W r j,
    broadcastTo_1b_ab_apply, shapeCast_a_1a_apply]

/-- THE BLOCK SPELLING OF A RECTIFIER, row by row: the maximum with a repeated scalar zero has, as its row `r`, the
    rectifier of the operand's row `r`. -/
theorem kernel_relu {M N : Nat} (Z : FVec Ideal (⟨2, ![M, N]⟩ : Shape) .f32) (r : Fin M) :
    rowOf (maximumf Z (broadcast (⟨2, ![M, N]⟩ : Shape) (Scalar.ofBits (F := Ideal) .f32 0x00000000#32))) r
      = relu (rowOf Z r) := by
  funext j
  show max (Z (ix2 r j)) (Ideal.ofBits .f32 0x00000000#32) = max (Z (ix2 r j)) 0
  rw [Ideal.ofBits_zero_f32]

include hlc hrc hln hrn hlb hrb in
/-- THE HOST SPELLING OF A DENSE LAYER, row by row: the host's product plus the bias (sent to `1 × N`, then to
    `M × N`) has, as its row `i`, the dense layer of the operand's row `i`. -/
theorem host_dense (prec : Option ContractPrecision) (Y : FVec Ideal (⟨2, ![M, K]⟩ : Shape) .f32)
    (W : FVec Ideal (⟨2, ![K, N]⟩ : Shape) .f32) (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) :
    rowOf (addf (Host.dotGeneral (F := Ideal) d prec Y W)
        (broadcastInDim ⟨2, ![M, N]⟩ ![0, 1] h2 (broadcastInDim ⟨2, ![1, N]⟩ ![1] h1 b))) i
      = dense W b (rowOf Y i) := by
  funext j
  show addf (Host.dotGeneral (F := Ideal) d prec Y W)
      (broadcastInDim ⟨2, ![M, N]⟩ ![0, 1] h2 (broadcastInDim ⟨2, ![1, N]⟩ ![1] h1 b)) (ix2 i j)
    = (∑ q : Fin K, Y (ix2 i q) * W (ix2 q j)) + b (ix1 j)
  rw [addf_apply, Cert.LibPlainDot.hostDot_apply d hlc hrc hln hrn hlb hrb prec Y W i j,
    bcastRows_apply, bcastVec_apply]

/-- THE HOST SPELLING OF A RECTIFIER, row by row: the maximum with the rank-0 zero constant broadcast along no axis has,
    as its row `i`, the rectifier of the operand's row `i`. -/
theorem host_relu {M N : Nat} (Z : FVec Ideal (⟨2, ![M, N]⟩ : Shape) .f32)
    (h : (⟨0, ![]⟩ : Shape).BroadcastsInDim ⟨2, ![M, N]⟩ ![]) (i : Fin M) :
    rowOf (maximumf Z (broadcastInDim (⟨2, ![M, N]⟩ : Shape) ![] h
        (constant (F := Ideal) (⟨0, ![]⟩ : Shape) .f32 0x00000000#32))) i
      = relu (rowOf Z i) := by
  funext j
  show max (Z (ix2 i j)) (Ideal.ofBits .f32 0x00000000#32) = max (Z (ix2 i j)) 0
  rw [Ideal.ofBits_zero_f32]

end Layers

end Cert.LibDenseRows

end
-- ==== Proof.NetRows.lean ====
/-
  The four sub-networks of this program, read row by row.

  Each quarter of the batch goes through its own multi-layer perceptron: dense layers `x ↦ x · W + b` with a rectifier
  between consecutive layers and none after the last. The four perceptrons have two, three, four and five dense layers;
  all start from rows of length 256 and end in rows of length 16. `net0` … `net3` are these perceptrons as functions of
  ONE row. The block program computes each on blocks of 4096 rows and the host program on a quarter of 16384 rows;
  every layer acts on each row by itself, so row `r` of a block's result, and row `i` of a quarter's result, is the
  perceptron of that row of the operand. The proofs peel the layers off from the outside with the row-by-row layer
  equations; nothing is assumed finite.
-/
import proofs.«143194_j50603304682112_1_alg».proof.Proof.Gen.KernelIdeal.Skeleton
import proofs.«143194_j50603304682112_1_alg».proof.ReferenceIdeal
import proofs.«143194_j50603304682112_1_alg».proof.Proof.Gen.ReferenceIdeal
import proofs.«143194_j50603304682112_1_alg».proof.Proof.LibDenseRows
import Idealize.ShloMosaic.Lib.Pipeline.Value

noncomputable section

namespace Cert.NetRows

open Idealize.ShloMosaic Idealize.ShloMosaic.ValueIdx Cert.LibDenseRows

/-! ## The four perceptrons on one row -/

/-- Two dense layers, 256 → 256 → 16. -/
def net0 (w0 : Cert.KernelIdeal.S256x256.Idx → EReal) (b0 : Cert.KernelIdeal.S256.Idx → EReal)
    (w1 : Cert.KernelIdeal.S256x16.Idx → EReal) (b1 : Cert.KernelIdeal.S16.Idx → EReal)
    (x : Fin 256 → EReal) : Fin 16 → EReal :=
  dense w1 b1 (relu (dense w0 b0 x))

/-- Three dense layers, 256 → 256 → 256 → 16. -/
def net1 (w0 : Cert.KernelIdeal.S256x256.Idx → EReal) (b0 : Cert.KernelIdeal.S256.Idx → EReal)
    (w1 : Cert.KernelIdeal.S256x256.Idx → EReal) (b1 : Cert.KernelIdeal.S256.Idx → EReal)
    (w2 : Cert.KernelIdeal.S256x16.Idx → EReal) (b2 : Cert.KernelIdeal.S16.Idx → EReal)
    (x : Fin 256 → EReal) : Fin 16 → EReal :=
  dense w2 b2 (relu (dense w1 b1 (relu (dense w0 b0 x))))

/-- Four dense layers, 256 → 256 → 128 → 256 → 16. -/
def net2 (w0 : Cert.KernelIdeal.S256x256.Idx → EReal) (b0 : Cert.KernelIdeal.S256.Idx → EReal)
    (w1 : Cert.KernelIdeal.S256x128.Idx → EReal) (b1 : Cert.KernelIdeal.S128.Idx → EReal)
    (w2 : Cert.KernelIdeal.S128x256.Idx → EReal) (b2 : Cert.KernelIdeal.S256.Idx → EReal)
    (w3 : Cert.KernelIdeal.S256x16.Idx → EReal) (b3 : Cert.KernelIdeal.S16.Idx → EReal)
    (x : Fin 256 → EReal) : Fin 16 → EReal :=
  dense w3 b3 (relu (dense w2 b2 (relu (dense w1 b1 (relu (dense w0 b0 x))))))

/-- Five dense layers, 256 → 256 → 256 → 256 → 256 → 16. -/
def net3 (w0 : Cert.KernelIdeal.S256x256.Idx → EReal) (b0 : Cert.KernelIdeal.S256.Idx → EReal)
    (w1 : Cert.KernelIdeal.S256x256.Idx → EReal) (b1 : Cert.KernelIdeal.S256.Idx → EReal)
    (w2 : Cert.KernelIdeal.S256x256.Idx → EReal) (b2 : Cert.KernelIdeal.S256.Idx → EReal)
    (w3 : Cert.KernelIdeal.S256x256.Idx → EReal) (b3 : Cert.KernelIdeal.S256.Idx → EReal)
    (w4 : Cert.KernelIdeal.S256x16.Idx → EReal) (b4 : Cert.KernelIdeal.S16.Idx → EReal)
    (x : Fin 256 → EReal) : Fin 16 → EReal :=
  dense w4 b4 (relu (dense w3 b3 (relu (dense w2 b2 (relu (dense w1 b1 (relu (dense w0 b0 x))))))))

/-! ## The block program: row `r` of a block of 4096 rows

Each block value begins with a shape cast of the loaded block to its own shape, the identity; then the layers in the
block spelling. The outermost layer is peeled first; each equation leaves the next layer's row under it. -/

section Kernel

/-- Row `r` of the first perceptron's block result is the perceptron of row `r` of the block. -/
theorem k0_rows (x0 : Vec Ideal Cert.KernelIdeal.S4096x256 .f32) (w0 : Vec Ideal Cert.KernelIdeal.S256x256 .f32)
    (b0 : Vec Ideal Cert.KernelIdeal.S256 .f32) (w1 : Vec Ideal Cert.KernelIdeal.S256x16 .f32)
    (b1 : Vec Ideal Cert.KernelIdeal.S16 .f32) (r : Fin 4096) :
    rowOf (Cert.KernelIdeal.Gen.k0_pay1 (F := Ideal) x0 w0 b0 w1 b1) r = net0 w0 b0 w1 b1 (rowOf x0 r) := by
  unfold Cert.KernelIdeal.Gen.k0_pay1 net0
  rw [kernel_dense Cert.KernelIdeal.dot_S4096x256_S256x16_S4096x16_1_0_0_1_n_n rfl rfl rfl rfl rfl rfl,
    kernel_relu,
    kernel_dense Cert.KernelIdeal.dot_S4096x256_S256x256_S4096x256_1_0_0_1_n_n rfl rfl rfl rfl rfl rfl,
    shapeCast_self]

/-- Row `r` of the second perceptron's block result is the perceptron of row `r` of the block. -/
theorem k1_rows (x0 : Vec Ideal Cert.KernelIdeal.S4096x256 .f32) (w0 : Vec Ideal Cert.KernelIdeal.S256x256 .f32)
    (b0 : Vec Ideal Cert.KernelIdeal.S256 .f32) (w1 : Vec Ideal Cert.KernelIdeal.S256x256 .f32)
    (b1 : Vec Ideal Cert.KernelIdeal.S256 .f32) (w2 : Vec Ideal Cert.KernelIdeal.S256x16 .f32)
    (b2 : Vec Ideal Cert.KernelIdeal.S16 .f32) (r : Fin 4096) :
    rowOf (Cert.KernelIdeal.Gen.k1_pay1 (F := Ideal) x0 w0 b0 w1 b1 w2 b2) r
      = net1 w0 b0 w1 b1 w2 b2 (rowOf x0 r) := by
  unfold Cert.KernelIdeal.Gen.k1_pay1 net1
  rw [kernel_dense Cert.KernelIdeal.dot_S4096x256_S256x16_S4096x16_1_0_0_1_n_n rfl rfl rfl rfl rfl rfl,
    kernel_relu,
    kernel_dense Cert.KernelIdeal.dot_S4096x256_S256x256_S4096x256_1_0_0_1_n_n rfl rfl rfl rfl rfl rfl,
    kernel_relu,
    kernel_dense Cert.KernelIdeal.dot_S4096x256_S256x256_S4096x256_1_0_0_1_n_n rfl rfl rfl rfl rfl rfl,
    shapeCast_self]

/-- Row `r` of the third perceptron's block result is the perceptron of row `r` of the block. -/
theorem k2_rows (x0 : Vec Ideal Cert.KernelIdeal.S4096x256 .f32) (w0 : Vec Ideal Cert.KernelIdeal.S256x256 .f32)
    (b0 : Vec Ideal Cert.KernelIdeal.S256 .f32) (w1 : Vec Ideal Cert.KernelIdeal.S256x128 .f32)
    (b1 : Vec Ideal Cert.KernelIdeal.S128 .f32) (w2 : Vec Ideal Cert.KernelIdeal.S128x256 .f32)
    (b2 : Vec Ideal Cert.KernelIdeal.S256 .f32) (w3 : Vec Ideal Cert.KernelIdeal.S256x16 .f32)
    (b3 : Vec Ideal Cert.KernelIdeal.S16 .f32) (r : Fin 4096) :
    rowOf (Cert.KernelIdeal.Gen.k2_pay1 (F := Ideal) x0 w0 b0 w1 b1 w2 b2 w3 b3) r
      = net2 w0 b0 w1 b1 w2 b2 w3 b3 (rowOf x0 r) := by
  unfold Cert.KernelIdeal.Gen.k2_pay1 net2
  rw [kernel_dense Cert.KernelIdeal.dot_S4096x256_S256x16_S4096x16_1_0_0_1_n_n rfl rfl rfl rfl rfl rfl,
    kernel_relu,
    kernel_dense Cert.KernelIdeal.dot_S4096x128_S128x256_S4096x256_1_0_0_1_n_n rfl rfl rfl rfl rfl rfl,
    kernel_relu,
    kernel_dense Cert.KernelIdeal.dot_S4096x256_S256x128_S4096x128_1_0_0_1_n_n rfl rfl rfl rfl rfl rfl,
    kernel_relu,
    kernel_dense Cert.KernelIdeal.dot_S4096x256_S256x256_S4096x256_1_0_0_1_n_n rfl rfl rfl rfl rfl rfl,
    shapeCast_self]

/-- Row `r` of the fourth perceptron's block result — its last dense layer applied to the rectified value of the
    first four — is the perceptron of row `r` of the block. -/
theorem k3_rows (x0 : Vec Ideal Cert.KernelIdeal.S4096x256 .f32) (w0 : Vec Ideal Cert.KernelIdeal.S256x256 .f32)
    (b0 : Vec Ideal Cert.KernelIdeal.S256 .f32) (w1 : Vec Ideal Cert.KernelIdeal.S256x256 .f32)
    (b1 : Vec Ideal Cert.KernelIdeal.S256 .f32) (w2 : Vec Ideal Cert.KernelIdeal.S256x256 .f32)
    (b2 : Vec Ideal Cert.KernelIdeal.S256 .f32) (w3 : Vec Ideal Cert.KernelIdeal.S256x256 .f32)
    (b3 : Vec Ideal Cert.KernelIdeal.S256 .f32) (w4 : Vec Ideal Cert.KernelIdeal.S256x16 .f32)
    (b4 : Vec Ideal Cert.KernelIdeal.S16 .f32) (r : Fin 4096) :
    rowOf (Cert.KernelIdeal.Gen.k3_pay1 (F := Ideal)
        (Cert.KernelIdeal.Gen.k3_pay2 (F := Ideal) x0 w0 b0 w1 b1 w2 b2 w3 b3) w4 b4) r
      = net3 w0 b0 w1 b1 w2 b2 w3 b3 w4 b4 (rowOf x0 r) := by
  unfold Cert.KernelIdeal.Gen.k3_pay1 Cert.KernelIdeal.Gen.k3_pay2 net3
  rw [kernel_dense Cert.KernelIdeal.dot_S4096x256_S256x16_S4096x16_1_0_0_1_n_n rfl rfl rfl rfl rfl rfl,
    kernel_relu,
    kernel_dense Cert.KernelIdeal.dot_S4096x256_S256x256_S4096x256_1_0_0_1_n_n rfl rfl rfl rfl rfl rfl,
    kernel_relu,
    kernel_dense Cert.KernelIdeal.dot_S4096x256_S256x256_S4096x256_1_0_0_1_n_n rfl rfl rfl rfl rfl rfl,
    kernel_relu,
    kernel_dense Cert.KernelIdeal.dot_S4096x256_S256x256_S4096x256_1_0_0_1_n_n rfl rfl rfl rfl rfl rfl,
    kernel_relu,
    kernel_dense Cert.KernelIdeal.dot_S4096x256_S256x256_S4096x256_1_0_0_1_n_n rfl rfl rfl rfl rfl rfl,
    shapeCast_self]

end Kernel

/-! ## The host program: row `i` of a quarter of 16384 rows

`refNet0` … `refNet3` are the host program's four perceptron terms with the quarter of the batch and the weights as
arguments: the layers in the host spelling, each rectifier the maximum with the rank-0 zero broadcast along no axis. -/

section Reference

open Cert.ReferenceIdeal Cert.ReferenceIdeal.Gen

/-- The host's first perceptron over a quarter `X` of the batch. -/
def refNet0 (X : FVec Ideal S16384x256 .f32) (w0 : FVec Ideal S256x256 .f32) (b0 : FVec Ideal S256 .f32)
    (w1 : FVec Ideal S256x16 .f32) (b1 : FVec Ideal S16 .f32) : FVec Ideal S16384x16 .f32 :=
  (addf (Host.dotGeneral dot_S16384x256_S256x16_S16384x16_1_0_0_1_n_n none (maximumf (addf (Host.dotGeneral dot_S16384x256_S256x256_S16384x256_1_0_0_1_n_n none X w0) (broadcastInDim S16384x256 ![0, 1] bcast_S1x256_S16384x256_0_1 (broadcastInDim S1x256 ![1] bcast_S256_S1x256_1 b0))) (broadcastInDim S16384x256 ![] bcast_S_S16384x256 (constant S_ .f32 0x00000000#32))) w1) (broadcastInDim S16384x16 ![0, 1] bcast_S1x16_S16384x16_0_1 (broadcastInDim S1x16 ![1] bcast_S16_S1x16_1 b1)))

/-- The host's second perceptron over a quarter `X` of the batch. -/
def refNet1 (X : FVec Ideal S16384x256 .f32) (w0 : FVec Ideal S256x256 .f32) (b0 : FVec Ideal S256 .f32)
    (w1 : FVec Ideal S256x256 .f32) (b1 : FVec Ideal S256 .f32)
    (w2 : FVec Ideal S256x16 .f32) (b2 : FVec Ideal S16 .f32) : FVec Ideal S16384x16 .f32 :=
  (addf (Host.dotGeneral dot_S16384x256_S256x16_S16384x16_1_0_0_1_n_n none (maximumf (addf (Host.dotGeneral dot_S16384x256_S256x256_S16384x256_1_0_0_1_n_n none (maximumf (addf (Host.dotGeneral dot_S16384x256_S256x256_S16384x256_1_0_0_1_n_n none X w0) (broadcastInDim S16384x256 ![0, 1] bcast_S1x256_S16384x256_0_1 (broadcastInDim S1x256 ![1] bcast_S256_S1x256_1 b0))) (broadcastInDim S16384x256 ![] bcast_S_S16384x256 (constant S_ .f32 0x00000000#32))) w1) (broadcastInDim S16384x256 ![0, 1] bcast_S1x256_S16384x256_0_1 (broadcastInDim S1x256 ![1] bcast_S256_S1x256_1 b1))) (broadcastInDim S16384x256 ![] bcast_S_S16384x256 (constant S_ .f32 0x00000000#32))) w2) (broadcastInDim S16384x16 ![0, 1] bcast_S1x16_S16384x16_0_1 (broadcastInDim S1x16 ![1] bcast_S16_S1x16_1 b2)))

/-- The host's third perceptron over a quarter `X` of the batch. -/
def refNet2 (X : FVec Ideal S16384x256 .f32) (w0 : FVec Ideal S256x256 .f32) (b0 : FVec Ideal S256 .f32)
    (w1 : FVec Ideal S256x128 .f32) (b1 : FVec Ideal S128 .f32)
    (w2 : FVec Ideal S128x256 .f32) (b2 : FVec Ideal S256 .f32)
    (w3 : FVec Ideal S256x16 .f32) (b3 : FVec Ideal S16 .f32) : FVec Ideal S16384x16 .f32 :=
  (addf (Host.dotGeneral dot_S16384x256_S256x16_S16384x16_1_0_0_1_n_n none (maximumf (addf (Host.dotGeneral dot_S16384x128_S128x256_S16384x256_1_0_0_1_n_n none (maximumf (addf (Host.dotGeneral dot_S16384x256_S256x128_S16384x128_1_0_0_1_n_n none (maximumf (addf (Host.dotGeneral dot_S16384x256_S256x256_S16384x256_1_0_0_1_n_n none X w0) (broadcastInDim S16384x256 ![0, 1] bcast_S1x256_S16384x256_0_1 (broadcastInDim S1x256 ![1] bcast_S256_S1x256_1 b0))) (broadcastInDim S16384x256 ![] bcast_S_S16384x256 (constant S_ .f32 0x00000000#32))) w1) (broadcastInDim S16384x128 ![0, 1] bcast_S1x128_S16384x128_0_1 (broadcastInDim S1x128 ![1] bcast_S128_S1x128_1 b1))) (broadcastInDim S16384x128 ![] bcast_S_S16384x128 (constant S_ .f32 0x00000000#32))) w2) (broadcastInDim S16384x256 ![0, 1] bcast_S1x256_S16384x256_0_1 (broadcastInDim S1x256 ![1] bcast_S256_S1x256_1 b2))) (broadcastInDim S16384x256 ![] bcast_S_S16384x256 (constant S_ .f32 0x00000000#32))) w3) (broadcastInDim S16384x16 ![0, 1] bcast_S1x16_S16384x16_0_1 (broadcastInDim S1x16 ![1] bcast_S16_S1x16_1 b3)))

/-- The host's fourth perceptron over a quarter `X` of the batch. -/
def refNet3 (X : FVec Ideal S16384x256 .f32) (w0 : FVec Ideal S256x256 .f32) (b0 : FVec Ideal S256 .f32)
    (w1 : FVec Ideal S256x256 .f32) (b1 : FVec Ideal S256 .f32)
    (w2 : FVec Ideal S256x256 .f32) (b2 : FVec Ideal S256 .f32)
    (w3 : FVec Ideal S256x256 .f32) (b3 : FVec Ideal S256 .f32)
    (w4 : FVec Ideal S256x16 .f32) (b4 : FVec Ideal S16 .f32) : FVec Ideal S16384x16 .f32 :=
  (addf (Host.dotGeneral dot_S16384x256_S256x16_S16384x16_1_0_0_1_n_n none (maximumf (addf (Host.dotGeneral dot_S16384x256_S256x256_S16384x256_1_0_0_1_n_n none (maximumf (addf (Host.dotGeneral dot_S16384x256_S256x256_S16384x256_1_0_0_1_n_n none (maximumf (addf (Host.dotGeneral dot_S16384x256_S256x256_S16384x256_1_0_0_1_n_n none (maximumf (addf (Host.dotGeneral dot_S16384x256_S256x256_S16384x256_1_0_0_1_n_n none X w0) (broadcastInDim S16384x256 ![0, 1] bcast_S1x256_S16384x256_0_1 (broadcastInDim S1x256 ![1] bcast_S256_S1x256_1 b0))) (broadcastInDim S16384x256 ![] bcast_S_S16384x256 (constant S_ .f32 0x00000000#32))) w1) (broadcastInDim S16384x256 ![0, 1] bcast_S1x256_S16384x256_0_1 (broadcastInDim S1x256 ![1] bcast_S256_S1x256_1 b1))) (broadcastInDim S16384x256 ![] bcast_S_S16384x256 (constant S_ .f32 0x00000000#32))) w2) (broadcastInDim S16384x256 ![0, 1] bcast_S1x256_S16384x256_0_1 (broadcastInDim S1x256 ![1] bcast_S256_S1x256_1 b2))) (broadcastInDim S16384x256 ![] bcast_S_S16384x256 (constant S_ .f32 0x00000000#32))) w3) (broadcastInDim S16384x256 ![0, 1] bcast_S1x256_S16384x256_0_1 (broadcastInDim S1x256 ![1] bcast_S256_S1x256_1 b3))) (broadcastInDim S16384x256 ![] bcast_S_S16384x256 (constant S_ .f32 0x00000000#32))) w4) (broadcastInDim S16384x16 ![0, 1] bcast_S1x16_S16384x16_0_1 (broadcastInDim S1x16 ![1] bcast_S16_S1x16_1 b4)))

/-- Row `i` of the host's first perceptron over a quarter is the perceptron of row `i` of the quarter. -/
theorem ref0_rows (X : FVec Ideal S16384x256 .f32) (w0 : FVec Ideal S256x256 .f32) (b0 : FVec Ideal S256 .f32)
    (w1 : FVec Ideal S256x16 .f32) (b1 : FVec Ideal S16 .f32) (i : Fin 16384) :
    rowOf (refNet0 X w0 b0 w1 b1) i = net0 w0 b0 w1 b1 (rowOf X i) := by
  unfold refNet0 net0
  rw [host_dense dot_S16384x256_S256x16_S16384x16_1_0_0_1_n_n rfl rfl rfl rfl rfl rfl,
    host_relu,
    host_dense dot_S16384x256_S256x256_S16384x256_1_0_0_1_n_n rfl rfl rfl rfl rfl rfl]

/-- Row `i` of the host's second perceptron over a quarter is the perceptron of row `i` of the quarter. -/
theorem ref1_rows (X : FVec Ideal S16384x256 .f32) (w0 : FVec Ideal S256x256 .f32) (b0 : FVec Ideal S256 .f32)
    (w1 : FVec Ideal S256x256 .f32) (b1 : FVec Ideal S256 .f32)
    (w2 : FVec Ideal S256x16 .f32) (b2 : FVec Ideal S16 .f32) (i : Fin 16384) :
    rowOf (refNet1 X w0 b0 w1 b1 w2 b2) i = net1 w0 b0 w1 b1 w2 b2 (rowOf X i) := by
  unfold refNet1 net1
  rw [host_dense dot_S16384x256_S256x16_S16384x16_1_0_0_1_n_n rfl rfl rfl rfl rfl rfl,
    host_relu,
    host_dense dot_S16384x256_S256x256_S16384x256_1_0_0_1_n_n rfl rfl rfl rfl rfl rfl,
    host_relu,
    host_dense dot_S16384x256_S256x256_S16384x256_1_0_0_1_n_n rfl rfl rfl rfl rfl rfl]

/-- Row `i` of the host's third perceptron over a quarter is the perceptron of row `i` of the quarter. -/
theorem ref2_rows (X : FVec Ideal S16384x256 .f32) (w0 : FVec Ideal S256x256 .f32) (b0 : FVec Ideal S256 .f32)
    (w1 : FVec Ideal S256x128 .f32) (b1 : FVec Ideal S128 .f32)
    (w2 : FVec Ideal S128x256 .f32) (b2 : FVec Ideal S256 .f32)
    (w3 : FVec Ideal S256x16 .f32) (b3 : FVec Ideal S16 .f32) (i : Fin 16384) :
    rowOf (refNet2 X w0 b0 w1 b1 w2 b2 w3 b3) i = net2 w0 b0 w1 b1 w2 b2 w3 b3 (rowOf X i) := by
  unfold refNet2 net2
  rw [host_dense dot_S16384x256_S256x16_S16384x16_1_0_0_1_n_n rfl rfl rfl rfl rfl rfl,
    host_relu,
    host_dense dot_S16384x128_S128x256_S16384x256_1_0_0_1_n_n rfl rfl rfl rfl rfl rfl,
    host_relu,
    host_dense dot_S16384x256_S256x128_S16384x128_1_0_0_1_n_n rfl rfl rfl rfl rfl rfl,
    host_relu,
    host_dense dot_S16384x256_S256x256_S16384x256_1_0_0_1_n_n rfl rfl rfl rfl rfl rfl]

/-- Row `i` of the host's fourth perceptron over a quarter is the perceptron of row `i` of the quarter. -/
theorem ref3_rows (X : FVec Ideal S16384x256 .f32) (w0 : FVec Ideal S256x256 .f32) (b0 : FVec Ideal S256 .f32)
    (w1 : FVec Ideal S256x256 .f32) (b1 : FVec Ideal S256 .f32)
    (w2 : FVec Ideal S256x256 .f32) (b2 : FVec Ideal S256 .f32)
    (w3 : FVec Ideal S256x256 .f32) (b3 : FVec Ideal S256 .f32)
    (w4 : FVec Ideal S256x16 .f32) (b4 : FVec Ideal S16 .f32) (i : Fin 16384) :
    rowOf (refNet3 X w0 b0 w1 b1 w2 b2 w3 b3 w4 b4) i = net3 w0 b0 w1 b1 w2 b2 w3 b3 w4 b4 (rowOf X i) := by
  unfold refNet3 net3
  rw [host_dense dot_S16384x256_S256x16_S16384x16_1_0_0_1_n_n rfl rfl rfl rfl rfl rfl,
    host_relu,
    host_dense dot_S16384x256_S256x256_S16384x256_1_0_0_1_n_n rfl rfl rfl rfl rfl rfl,
    host_relu,
    host_dense dot_S16384x256_S256x256_S16384x256_1_0_0_1_n_n rfl rfl rfl rfl rfl rfl,
    host_relu,
    host_dense dot_S16384x256_S256x256_S16384x256_1_0_0_1_n_n rfl rfl rfl rfl rfl rfl,
    host_relu,
    host_dense dot_S16384x256_S256x256_S16384x256_1_0_0_1_n_n rfl rfl rfl rfl rfl rfl]

end Reference

end Cert.NetRows

end
-- ==== Proof.KI.Final0.lean ====
/-
  The value of region 0: what the first sub-network's output array holds after the region has run, at the extended
  reals.

  The region's output has 16384 rows of 16 entries. Grid point t (of four) writes back rows 4096·t … 4096·t + 4095, all
  16 columns, and what it writes is the body's result on the blocks it was given: the rows 4096·t … 4096·t + 4095 of the
  first quarter of the batch, and the two layers' weights and biases, each whole. A row of the body's result is the
  two-layer perceptron of the same row of its input block (a dense layer and a rectifier act on each row by itself), so
  row r of what point t writes is the perceptron of row 4096·t + r of the quarter. Every row i lies in exactly the block of
  point i / 4096, so the four blocks cover the array, and the array ends holding, at row i and column j, entry j of the
  perceptron  dense W₂ b₂ (relu (dense W₁ b₁ x))  of row i of the quarter.
-/
import proofs.«143194_j50603304682112_1_alg».proof.Proof.KI.Region0
import proofs.«143194_j50603304682112_1_alg».proof.Proof.NetRows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Cert.LibDenseRows Cert.NetRows Idealize.ShloMosaic.ValueIdx

variable (V : (c : Dev nD) → (b : Ref sig .tc) → Buf (Elt Ideal) ((c : Thread nD τ).loc b))

/-! ## Offsets, points and rows -/

/-- The two zero offsets of a whole rank-2 buffer. -/
theorem zeroOff2_0 : (![0, 0] : Fin 2 → Nat) = fun _ => 0 := funext fun a => by fin_cases a <;> rfl

/-- The zero offset of a whole rank-1 buffer. -/
theorem zeroOff1_0 : (![0] : Fin 1 → Nat) = fun _ => 0 := funext fun a => by fin_cases a; rfl

/-- The grid has four points. -/
theorem point_lt0 (t : Fin cfg0.N) : t.val < 4 := lt_of_lt_of_eq t.isLt N_0

/-- Row r of the block of point t is row 4096·t + r of the array. -/
def row0 (t : Fin cfg0.N) (r : Fin 4096) : Fin 16384 :=
  ⟨4096 * t.val + r.val, by have := point_lt0 t; have := r.isLt; omega⟩

/-- The block indices, decided over the four points: the batch and the output move one block of rows per point and
    stay on the one block of columns; every weight and bias stays on its one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The array's final contents as one function of its index -/

/-- Entry (i, j) of the output: entry j of the first perceptron of row i of the first quarter of the batch. -/
def G0 (c : Dev nD) : S16384x16.Idx → EReal := fun idx =>
  net0 (V c main_arg1 : S256x256.Idx → EReal) (V c main_arg2 : S256.Idx → EReal) (V c main_arg3 : S256x16.Idx → EReal)
    (V c main_arg4 : S16.Idx → EReal) (rowOf (V c main_v0 : S16384x256.Idx → EReal) (idx 0)) (idx 1)

/-! ## The input blocks at a point -/

/-- The first layer's weights are fetched whole: their block at any point is the array. -/
theorem blk0_1_eq (c : Dev nD) (t : Fin cfg0.N) : (iblk0 V c 1 t : S256x256.Idx → EReal) = V c main_arg1 := by
  obtain ⟨-, -, e0, e1, -⟩ := idx_facts0 t
  funext y
  show V c main_arg1 (((cfg0.win 1).blk t).view.emb y) = V c main_arg1 y
  have h : ((cfg0.win 1).blk t).view.emb y = y := by
    funext a; apply Fin.ext
    match a with
    | ⟨0, _⟩ => show win0_1.index t (0 : Fin 2) * 256 + 1 * (y 0).val = (y 0).val; omega
    | ⟨1, _⟩ => show win0_1.index t (1 : Fin 2) * 256 + 1 * (y 1).val = (y 1).val; omega
  rw [h]

/-- The first layer's bias likewise. -/
theorem blk0_2_eq (c : Dev nD) (t : Fin cfg0.N) : (iblk0 V c 2 t : S256.Idx → EReal) = V c main_arg2 := by
  obtain ⟨-, -, -, -, e0, -⟩ := idx_facts0 t
  funext y
  show V c main_arg2 (((cfg0.win 2).blk t).view.emb y) = V c main_arg2 y
  have h : ((cfg0.win 2).blk t).view.emb y = y := by
    funext a; apply Fin.ext
    match a with
    | ⟨0, _⟩ => show win0_2.index t (0 : Fin 1) * 256 + 1 * (y 0).val = (y 0).val; omega
  rw [h]

/-- The second layer's weights likewise. -/
theorem blk0_3_eq (c : Dev nD) (t : Fin cfg0.N) : (iblk0 V c 3 t : S256x16.Idx → EReal) = V c main_arg3 := by
  obtain ⟨-, -, -, -, -, e0, e1, -⟩ := idx_facts0 t
  funext y
  show V c main_arg3 (((cfg0.win 3).blk t).view.emb y) = V c main_arg3 y
  have h : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 16 + 1 * (y 1).val = (y 1).val; omega
  rw [h]

/-- The second layer's bias likewise. -/
theorem blk0_4_eq (c : Dev nD) (t : Fin cfg0.N) : (iblk0 V c 4 t : S16.Idx → EReal) = V c main_arg4 := by
  obtain ⟨-, -, -, -, -, -, -, e0, -⟩ := idx_facts0 t
  funext y
  show V c main_arg4 (((cfg0.win 4).blk t).view.emb y) = V c main_arg4 y
  have h : ((cfg0.win 4).blk t).view.emb y = y := by
    funext a; apply Fin.ext
    match a with
    | ⟨0, _⟩ => show win0_4.index t (0 : Fin 1) * 16 + 1 * (y 0).val = (y 0).val; omega
  rw [h]

/-- Row r of the batch's block at point t is row 4096·t + r of the quarter. -/
theorem row_blk0 (c : Dev nD) (t : Fin cfg0.N) (r : Fin 4096) :
    rowOf (iblk0 V c 0 t : S4096x256.Idx → EReal) r = rowOf (V c main_v0 : S16384x256.Idx → EReal) (row0 t r) := by
  obtain ⟨e0, e1, -⟩ := idx_facts0 t
  funext q
  show V c main_v0 (((cfg0.win 0).blk t).view.emb (ix2 r q)) = V c main_v0 (ix2 (row0 t r) q)
  have h : ((cfg0.win 0).blk t).view.emb (ix2 r q) = ix2 (row0 t r) q := by
    funext a; apply Fin.ext
    match a with
    | ⟨0, _⟩ => show win0_0.index t (0 : Fin 2) * 4096 + 1 * r.val = 4096 * t.val + r.val; omega
    | ⟨1, _⟩ => show win0_0.index t (1 : Fin 2) * 256 + 1 * q.val = q.val; omega
  rw [h]

/-- Entry (r, j) of the output's block at point t sits at (4096·t + r, j) in the array. -/
theorem emb0_5 (t : Fin cfg0.N) (r : Fin 4096) (j : Fin 16) :
    ((cfg0.win 5).blk t).view.emb (ix2 r j) = (ix2 (row0 t r) j : S16384x16.Idx) := by
  obtain ⟨-, -, -, -, -, -, -, -, e0, e1⟩ := idx_facts0 t
  funext a; apply Fin.ext
  match a with
  | ⟨0, _⟩ => show win0_5.index t (0 : Fin 2) * 4096 + 1 * r.val = 4096 * t.val + r.val; omega
  | ⟨1, _⟩ => show win0_5.index t (1 : Fin 2) * 16 + 1 * j.val = j.val; omega

/-! ## What a point writes back -/

/-- The body's result at an entry: the perceptron of the entry's row of the input block. -/
theorem k0_at (x0 : Vec Ideal S4096x256 .f32) (w0 : Vec Ideal S256x256 .f32) (b0 : Vec Ideal S256 .f32)
    (w1 : Vec Ideal S256x16 .f32) (b1 : Vec Ideal S16 .f32) (r : Fin 4096) (j : Fin 16) :
    k0_pay1 (F := Ideal) x0 w0 b0 w1 b1 (ix2 r j) = net0 w0 b0 w1 b1 (rowOf x0 r) j :=
  congrFun (k0_rows x0 w0 b0 w1 b1 r) j

/-- What point t writes back is its block of G0. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero zeroOff2_0]
  simp only [View.ld_unit_zero (S := S4096x256) zeroOff2_0, View.ld_unit_zero (S := S256x256) zeroOff2_0,
    View.ld_unit_zero (S := S256) zeroOff1_0, View.ld_unit_zero (S := S256x16) zeroOff2_0,
    View.ld_unit_zero (S := S16) zeroOff1_0]
  refine funext fun (y : S4096x16.Idx) => ?_
  obtain ⟨r, j, rfl⟩ : ∃ (r : Fin 4096) (j : Fin 16), y = ix2 r j := ⟨y 0, y 1, eq_ix2 y⟩
  show k0_pay1 (F := Ideal) (iblk0 V c 0 t) (iblk0 V c 1 t) (iblk0 V c 2 t) (iblk0 V c 3 t) (iblk0 V c 4 t) (ix2 r j)
    = G0 V c (((cfg0.win 5).blk t).view.emb (ix2 r j))
  refine (k0_at (iblk0 V c 0 t) (iblk0 V c 1 t) (iblk0 V c 2 t) (iblk0 V c 3 t) (iblk0 V c 4 t) r j).trans ?_
  rw [emb0_5 t r j]
  show net0 (iblk0 V c 1 t) (iblk0 V c 2 t) (iblk0 V c 3 t) (iblk0 V c 4 t) (rowOf (iblk0 V c 0 t : S4096x256.Idx → EReal) r) j
    = net0 (V c main_arg1) (V c main_arg2) (V c main_arg3) (V c main_arg4) (rowOf (V c main_v0 : S16384x256.Idx → EReal) (row0 t r)) j
  rw [blk0_1_eq V c t, blk0_2_eq V c t, blk0_3_eq V c t, blk0_4_eq V c t, row_blk0 V c t r]

/-! ## The blocks cover the array -/

/-- An index of the array is in point t's block iff each coordinate is in the block's range on its axis. -/
theorem mem_blk0_5 (t : Fin cfg0.N) (i : S16384x16.Idx) :
    i ∈ ((cfg0.win 5).blk t).view.set ↔ ∀ a : Fin 2, win0_5.index t a * S4096x16.size a ≤ (i a).val
      ∧ (i a).val < win0_5.index t a * S4096x16.size a + S4096x16.size a := by
  show i ∈ ((View.whole main_v1).slice (win0_5.rect t)).set ↔ _
  rw [View.set_slice_whole, Rect.mem_set_unit]
  exact Iff.rfl

/-- Row i is in the block of point i / 4096, which writes back. -/
theorem cover0 (i : S16384x16.Idx) :
    ∃ t : Fin cfg0.N, (cfg0.win 5).flush t = true ∧ i ∈ ((cfg0.win 5).blk t).view.set := by
  have hi0 : (i 0).val < 16384 := idx2_lt0 i
  have hi1 : (i 1).val < 16 := idx2_lt1 i
  obtain ⟨t, ht⟩ : ∃ t : Fin cfg0.N, t.val = (i 0).val / 4096 :=
    ⟨⟨(i 0).val / 4096, lt_of_lt_of_eq (by omega : (i 0).val / 4096 < 4) N_0.symm⟩, rfl⟩
  obtain ⟨-, -, -, -, -, -, -, -, e0, e1⟩ := idx_facts0 t
  refine ⟨t, flush0_5 t, ?_⟩
  rw [mem_blk0_5]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 16 ≤ (i 1).val ∧ (i 1).val < win0_5.index t (1 : Fin 2) * 16 + 16
    omega

/-! ## The value -/

/-- After the region the output array holds, at row i and column j, entry j of the first perceptron of row i of the
    first quarter of the batch. -/
theorem final0 (c : Dev nD) (i : Fin 16384) (j : Fin 16) :
    (dat0 (F := Ideal) V c).arrAt 5 cfg0.N (ix2 i j)
      = net0 (V c main_arg1) (V c main_arg2) (V c main_arg3) (V c main_arg4) (rowOf (V c main_v0) i) j :=
  congrFun ((dat0 (F := Ideal) V c).arrAt_eq_of_cover 5 (G0 V c) (fun t _ => flushed0_eq V c t) cover0) (ix2 i j)

end Cert.KernelIdeal.Hand

end
-- ==== Proof.KI.Final1.lean ====
/-
  The value of region 1: what the second sub-network's output array holds after the region has run, at the extended
  reals.

  The region's output has 16384 rows of 16 entries. Grid point t (of four) writes back rows 4096·t … 4096·t + 4095, all
  16 columns, and what it writes is the body's result on the blocks it was given: the rows 4096·t … 4096·t + 4095 of the
  second quarter of the batch, and the three layers' weights and biases, each whole. A row of the body's result is the
  three-layer perceptron of the same row of its input block (a dense layer and a rectifier act on each row by itself),
  so row r of what point t writes is the perceptron of row 4096·t + r of the quarter. Every row i lies in exactly the
  block of point i / 4096, so the four blocks cover the array, and the array ends holding, at row i and column j, entry j
  of the perceptron  dense W₃ b₃ (relu (dense W₂ b₂ (relu (dense W₁ b₁ x))))  of row i of the quarter.
-/
import proofs.«143194_j50603304682112_1_alg».proof.Proof.KI.Region1
import proofs.«143194_j50603304682112_1_alg».proof.Proof.NetRows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Cert.LibDenseRows Cert.NetRows Idealize.ShloMosaic.ValueIdx

variable (V : (c : Dev nD) → (b : Ref sig .tc) → Buf (Elt Ideal) ((c : Thread nD τ).loc b))

/-! ## Offsets, points and rows -/

/-- The two zero offsets of a whole rank-2 buffer. -/
theorem zeroOff2_1 : (![0, 0] : Fin 2 → Nat) = fun _ => 0 := funext fun a => by fin_cases a <;> rfl

/-- The zero offset of a whole rank-1 buffer. -/
theorem zeroOff1_1 : (![0] : Fin 1 → Nat) = fun _ => 0 := funext fun a => by fin_cases a; rfl

/-- The grid has four points. -/
theorem point_lt1 (t : Fin cfg1.N) : t.val < 4 := lt_of_lt_of_eq t.isLt N_1

/-- Row r of the block of point t is row 4096·t + r of the array. -/
def row1 (t : Fin cfg1.N) (r : Fin 4096) : Fin 16384 :=
  ⟨4096 * t.val + r.val, by have := point_lt1 t; have := r.isLt; omega⟩

/-- The block indices, decided over the four points: the batch and the output move one block of rows per point and
    stay on the one block of columns; every weight and bias stays on its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-! ## The array's final contents as one function of its index -/

/-- Entry (i, j) of the output: entry j of the second perceptron of row i of the second quarter of the batch. -/
def G1 (c : Dev nD) : S16384x16.Idx → EReal := fun idx =>
  net1 (V c main_arg5 : S256x256.Idx → EReal) (V c main_arg6 : S256.Idx → EReal) (V c main_arg7 : S256x256.Idx → EReal)
    (V c main_arg8 : S256.Idx → EReal) (V c main_arg9 : S256x16.Idx → EReal) (V c main_arg10 : S16.Idx → EReal)
    (rowOf (V c main_v2 : S16384x256.Idx → EReal) (idx 0)) (idx 1)

/-! ## The input blocks at a point -/

/-- The first layer's weights are fetched whole: their block at any point is the array. -/
theorem blk1_1_eq (c : Dev nD) (t : Fin cfg1.N) : (iblk1 V c 1 t : S256x256.Idx → EReal) = V c main_arg5 := by
  obtain ⟨-, -, e0, e1, -⟩ := idx_facts1 t
  funext y
  show V c main_arg5 (((cfg1.win 1).blk t).view.emb y) = V c main_arg5 y
  have h : ((cfg1.win 1).blk t).view.emb y = y := by
    funext a; apply Fin.ext
    match a with
    | ⟨0, _⟩ => show win1_1.index t (0 : Fin 2) * 256 + 1 * (y 0).val = (y 0).val; omega
    | ⟨1, _⟩ => show win1_1.index t (1 : Fin 2) * 256 + 1 * (y 1).val = (y 1).val; omega
  rw [h]

/-- The first layer's bias likewise. -/
theorem blk1_2_eq (c : Dev nD) (t : Fin cfg1.N) : (iblk1 V c 2 t : S256.Idx → EReal) = V c main_arg6 := by
  obtain ⟨-, -, -, -, e0, -⟩ := idx_facts1 t
  funext y
  show V c main_arg6 (((cfg1.win 2).blk t).view.emb y) = V c main_arg6 y
  have h : ((cfg1.win 2).blk t).view.emb y = y := by
    funext a; apply Fin.ext
    match a with
    | ⟨0, _⟩ => show win1_2.index t (0 : Fin 1) * 256 + 1 * (y 0).val = (y 0).val; omega
  rw [h]

/-- The second layer's weights likewise. -/
theorem blk1_3_eq (c : Dev nD) (t : Fin cfg1.N) : (iblk1 V c 3 t : S256x256.Idx → EReal) = V c main_arg7 := by
  obtain ⟨-, -, -, -, -, e0, e1, -⟩ := idx_facts1 t
  funext y
  show V c main_arg7 (((cfg1.win 3).blk t).view.emb y) = V c main_arg7 y
  have h : ((cfg1.win 3).blk t).view.emb y = y := by
    funext a; apply Fin.ext
    match a with
    | ⟨0, _⟩ => show win1_3.index t (0 : Fin 2) * 256 + 1 * (y 0).val = (y 0).val; omega
    | ⟨1, _⟩ => show win1_3.index t (1 : Fin 2) * 256 + 1 * (y 1).val = (y 1).val; omega
  rw [h]

/-- The second layer's bias likewise. -/
theorem blk1_4_eq (c : Dev nD) (t : Fin cfg1.N) : (iblk1 V c 4 t : S256.Idx → EReal) = V c main_arg8 := by
  obtain ⟨-, -, -, -, -, -, -, e0, -⟩ := idx_facts1 t
  funext y
  show V c main_arg8 (((cfg1.win 4).blk t).view.emb y) = V c main_arg8 y
  have h : ((cfg1.win 4).blk t).view.emb y = y := by
    funext a; apply Fin.ext
    match a with
    | ⟨0, _⟩ => show win1_4.index t (0 : Fin 1) * 256 + 1 * (y 0).val = (y 0).val; omega
  rw [h]

/-- The third layer's weights likewise. -/
theorem blk1_5_eq (c : Dev nD) (t : Fin cfg1.N) : (iblk1 V c 5 t : S256x16.Idx → EReal) = V c main_arg9 := by
  obtain ⟨-, -, -, -, -, -, -, -, e0, e1, -⟩ := idx_facts1 t
  funext y
  show V c main_arg9 (((cfg1.win 5).blk t).view.emb y) = V c main_arg9 y
  have h : ((cfg1.win 5).blk t).view.emb y = y := by
    funext a; apply Fin.ext
    match a with
    | ⟨0, _⟩ => show win1_5.index t (0 : Fin 2) * 256 + 1 * (y 0).val = (y 0).val; omega
    | ⟨1, _⟩ => show win1_5.index t (1 : Fin 2) * 16 + 1 * (y 1).val = (y 1).val; omega
  rw [h]

/-- The third layer's bias likewise. -/
theorem blk1_6_eq (c : Dev nD) (t : Fin cfg1.N) : (iblk1 V c 6 t : S16.Idx → EReal) = V c main_arg10 := by
  obtain ⟨-, -, -, -, -, -, -, -, -, -, e0, -⟩ := idx_facts1 t
  funext y
  show V c main_arg10 (((cfg1.win 6).blk t).view.emb y) = V c main_arg10 y
  have h : ((cfg1.win 6).blk t).view.emb y = y := by
    funext a; apply Fin.ext
    match a with
    | ⟨0, _⟩ => show win1_6.index t (0 : Fin 1) * 16 + 1 * (y 0).val = (y 0).val; omega
  rw [h]

/-- Row r of the batch's block at point t is row 4096·t + r of the quarter. -/
theorem row_blk1 (c : Dev nD) (t : Fin cfg1.N) (r : Fin 4096) :
    rowOf (iblk1 V c 0 t : S4096x256.Idx → EReal) r = rowOf (V c main_v2 : S16384x256.Idx → EReal) (row1 t r) := by
  obtain ⟨e0, e1, -⟩ := idx_facts1 t
  funext q
  show V c main_v2 (((cfg1.win 0).blk t).view.emb (ix2 r q)) = V c main_v2 (ix2 (row1 t r) q)
  have h : ((cfg1.win 0).blk t).view.emb (ix2 r q) = ix2 (row1 t r) q := by
    funext a; apply Fin.ext
    match a with
    | ⟨0, _⟩ => show win1_0.index t (0 : Fin 2) * 4096 + 1 * r.val = 4096 * t.val + r.val; omega
    | ⟨1, _⟩ => show win1_0.index t (1 : Fin 2) * 256 + 1 * q.val = q.val; omega
  rw [h]

/-- Entry (r, j) of the output's block at point t sits at (4096·t + r, j) in the array. -/
theorem emb1_7 (t : Fin cfg1.N) (r : Fin 4096) (j : Fin 16) :
    ((cfg1.win 7).blk t).view.emb (ix2 r j) = (ix2 (row1 t r) j : S16384x16.Idx) := by
  obtain ⟨-, -, -, -, -, -, -, -, -, -, -, e0, e1⟩ := idx_facts1 t
  funext a; apply Fin.ext
  match a with
  | ⟨0, _⟩ => show win1_7.index t (0 : Fin 2) * 4096 + 1 * r.val = 4096 * t.val + r.val; omega
  | ⟨1, _⟩ => show win1_7.index t (1 : Fin 2) * 16 + 1 * j.val = j.val; omega

/-! ## What a point writes back -/

/-- The body's result at an entry: the perceptron of the entry's row of the input block. -/
theorem k1_at (x0 : Vec Ideal S4096x256 .f32) (w0 : Vec Ideal S256x256 .f32) (b0 : Vec Ideal S256 .f32)
    (w1 : Vec Ideal S256x256 .f32) (b1 : Vec Ideal S256 .f32) (w2 : Vec Ideal S256x16 .f32) (b2 : Vec Ideal S16 .f32)
    (r : Fin 4096) (j : Fin 16) :
    k1_pay1 (F := Ideal) x0 w0 b0 w1 b1 w2 b2 (ix2 r j) = net1 w0 b0 w1 b1 w2 b2 (rowOf x0 r) j :=
  congrFun (k1_rows x0 w0 b0 w1 b1 w2 b2 r) j

/-- What point t writes back is its block of G1. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  unfold out1_7
  rw [View.canon_unit_zero zeroOff2_1]
  simp only [View.ld_unit_zero (S := S4096x256) zeroOff2_1, View.ld_unit_zero (S := S256x256) zeroOff2_1,
    View.ld_unit_zero (S := S256) zeroOff1_1, View.ld_unit_zero (S := S256x16) zeroOff2_1,
    View.ld_unit_zero (S := S16) zeroOff1_1]
  refine funext fun (y : S4096x16.Idx) => ?_
  obtain ⟨r, j, rfl⟩ : ∃ (r : Fin 4096) (j : Fin 16), y = ix2 r j := ⟨y 0, y 1, eq_ix2 y⟩
  show k1_pay1 (F := Ideal) (iblk1 V c 0 t) (iblk1 V c 1 t) (iblk1 V c 2 t) (iblk1 V c 3 t) (iblk1 V c 4 t) (iblk1 V c 5 t)
      (iblk1 V c 6 t) (ix2 r j)
    = G1 V c (((cfg1.win 7).blk t).view.emb (ix2 r j))
  refine (k1_at (iblk1 V c 0 t) (iblk1 V c 1 t) (iblk1 V c 2 t) (iblk1 V c 3 t) (iblk1 V c 4 t) (iblk1 V c 5 t) (iblk1 V c 6 t)
    r j).trans ?_
  rw [emb1_7 t r j]
  show net1 (iblk1 V c 1 t) (iblk1 V c 2 t) (iblk1 V c 3 t) (iblk1 V c 4 t) (iblk1 V c 5 t) (iblk1 V c 6 t)
      (rowOf (iblk1 V c 0 t : S4096x256.Idx → EReal) r) j
    = net1 (V c main_arg5) (V c main_arg6) (V c main_arg7) (V c main_arg8) (V c main_arg9) (V c main_arg10)
      (rowOf (V c main_v2 : S16384x256.Idx → EReal) (row1 t r)) j
  rw [blk1_1_eq V c t, blk1_2_eq V c t, blk1_3_eq V c t, blk1_4_eq V c t, blk1_5_eq V c t, blk1_6_eq V c t, row_blk1 V c t r]

/-! ## The blocks cover the array -/

/-- An index of the array is in point t's block iff each coordinate is in the block's range on its axis. -/
theorem mem_blk1_7 (t : Fin cfg1.N) (i : S16384x16.Idx) :
    i ∈ ((cfg1.win 7).blk t).view.set ↔ ∀ a : Fin 2, win1_7.index t a * S4096x16.size a ≤ (i a).val
      ∧ (i a).val < win1_7.index t a * S4096x16.size a + S4096x16.size a := by
  show i ∈ ((View.whole main_v3).slice (win1_7.rect t)).set ↔ _
  rw [View.set_slice_whole, Rect.mem_set_unit]
  exact Iff.rfl

/-- Row i is in the block of point i / 4096, which writes back. -/
theorem cover1 (i : S16384x16.Idx) :
    ∃ t : Fin cfg1.N, (cfg1.win 7).flush t = true ∧ i ∈ ((cfg1.win 7).blk t).view.set := by
  have hi0 : (i 0).val < 16384 := idx2_lt0 i
  have hi1 : (i 1).val < 16 := idx2_lt1 i
  obtain ⟨t, ht⟩ : ∃ t : Fin cfg1.N, t.val = (i 0).val / 4096 :=
    ⟨⟨(i 0).val / 4096, lt_of_lt_of_eq (by omega : (i 0).val / 4096 < 4) N_1.symm⟩, rfl⟩
  obtain ⟨-, -, -, -, -, -, -, -, -, -, -, e0, e1⟩ := idx_facts1 t
  refine ⟨t, flush1_7 t, ?_⟩
  rw [mem_blk1_7]
  intro a
  match a with
  | ⟨0, _⟩ =>
    show win1_7.index t (0 : Fin 2) * 4096 ≤ (i 0).val ∧ (i 0).val < win1_7.index t (0 : Fin 2) * 4096 + 4096
    omega
  | ⟨1, _⟩ =>
    show win1_7.index t (1 : Fin 2) * 16 ≤ (i 1).val ∧ (i 1).val < win1_7.index t (1 : Fin 2) * 16 + 16
    omega

/-! ## The value -/

/-- After the region the output array holds, at row i and column j, entry j of the second perceptron of row i of the
    second quarter of the batch. -/
theorem final1 (c : Dev nD) (i : Fin 16384) (j : Fin 16) :
    (dat1 (F := Ideal) V c).arrAt 7 cfg1.N (ix2 i j)
      = net1 (V c main_arg5) (V c main_arg6) (V c main_arg7) (V c main_arg8) (V c main_arg9) (V c main_arg10)
          (rowOf (V c main_v2) i) j :=
  congrFun ((dat1 (F := Ideal) V c).arrAt_eq_of_cover 7 (G1 V c) (fun t _ => flushed1_eq V c t) cover1) (ix2 i j)

end Cert.KernelIdeal.Hand

end
-- ==== Proof.KI.Final2.lean ====
/-
  The value of region 2 at the extended reals. The region's output array has 16384 rows of 16 columns; grid point t of the
  four writes back rows 4096·t … 4096·t + 4095, all columns. What a point writes back is the four-layer perceptron
  (256 → 256 → 128 → 256 → 16) of its block of the input quarter, row by row: the eight weight and bias windows are whole
  arrays at block index zero, so each point reads the arrays themselves, and row r of the input block at point t is row
  4096·t + r of the input quarter. Hence every point's block is the restriction of ONE function of the array index, the
  perceptron of the index's row read at the index's column; the four blocks tile the array (row i lies in the block of
  point i / 4096), so the array ends holding that function.
-/
import proofs.«143194_j50603304682112_1_alg».proof.Proof.KI.Region2
import proofs.«143194_j50603304682112_1_alg».proof.Proof.LibDenseRows
import proofs.«143194_j50603304682112_1_alg».proof.Proof.NetRows
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Cert.LibDenseRows Cert.NetRows Idealize.ShloMosaic.ValueIdx

variable (V : (c : Dev nD) → (b : Ref sig .tc) → Buf (Elt Ideal) ((c : Thread nD τ).loc b))

/-! ## Zero offsets, however spelt -/

theorem zeros2_2 : (![0, 0] : Fin 2 → Nat) = fun _ => 0 := funext fun a => by fin_cases a <;> rfl
theorem zeros2_1 : (![0] : Fin 1 → Nat) = fun _ => 0 := funext fun a => by fin_cases a <;> rfl

/-! ## The result as one function of the array index -/

/-- The perceptron of row (idx 0) of the input quarter, read at column (idx 1): what the output array ends holding. -/
def G2 (c : Dev nD) : S16384x16.Idx → EReal := fun idx =>
  net2 (V c main_arg11) (V c main_arg12) (V c main_arg13) (V c main_arg14) (V c main_arg15) (V c main_arg16)
    (V c main_arg17) (V c main_arg18) (rowOf (V c main_v4) (idx 0)) (idx 1)

/-! ## The block indices, decided over the grid

The input's and the output's row-block index is the grid point, their column-block index zero; every weight and bias window's
block index is zero on every axis. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 1) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 1) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 1) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 1) = 0 :=
  (by decide +kernel : ∀ t : Fin grid2.N, _)
theorem idx2_9 : ∀ t : Fin cfg2.N, win2_9.index t (0 : Fin 2) = t.val ∧ win2_9.index t (1 : Fin 2) = 0 :=
  (by decide +kernel : ∀ t : Fin grid2.N, _)

/-! ## The weight and bias windows' blocks are the arrays -/

theorem wblk2_1 (c : Dev nD) (t : Fin cfg2.N) : (iblk2 V c 1 t : Vec Ideal S256x256 .f32) = V c main_arg11 := by
  obtain ⟨e0, e1⟩ := idx2_1 t
  funext y
  unfold iblk2
  rw [View.read_apply]
  show V c main_arg11 _ = V c main_arg11 y
  congr 1
  funext a; apply Fin.ext
  match a with
  | ⟨0, _⟩ => show win2_1.index t (0 : Fin 2) * 256 + 1 * (y 0).val = (y 0).val; omega
  | ⟨1, _⟩ => show win2_1.index t (1 : Fin 2) * 256 + 1 * (y 1).val = (y 1).val; omega

theorem wblk2_2 (c : Dev nD) (t : Fin cfg2.N) : (iblk2 V c 2 t : Vec Ideal S256 .f32) = V c main_arg12 := by
  have e0 := idx2_2 t
  funext y
  unfold iblk2
  rw [View.read_apply]
  show V c main_arg12 _ = V c main_arg12 y
  congr 1
  funext a; apply Fin.ext
  match a with
  | ⟨0, _⟩ => show win2_2.index t (0 : Fin 1) * 256 + 1 * (y 0).val = (y 0).val; omega

theorem wblk2_3 (c : Dev nD) (t : Fin cfg2.N) : (iblk2 V c 3 t : Vec Ideal S256x128 .f32) = V c main_arg13 := by
  obtain ⟨e0, e1⟩ := idx2_3 t
  funext y
  unfold iblk2
  rw [View.read_apply]
  show V c main_arg13 _ = V c main_arg13 y
  congr 1
  funext a; apply Fin.ext
  match a with
  | ⟨0, _⟩ => show win2_3.index t (0 : Fin 2) * 256 + 1 * (y 0).val = (y 0).val; omega
  | ⟨1, _⟩ => show win2_3.index t (1 : Fin 2) * 128 + 1 * (y 1).val = (y 1).val; omega

theorem wblk2_4 (c : Dev nD) (t : Fin cfg2.N) : (iblk2 V c 4 t : Vec Ideal S128 .f32) = V c main_arg14 := by
  have e0 := idx2_4 t
  funext y
  unfold iblk2
  rw [View.read_apply]
  show V c main_arg14 _ = V c main_arg14 y
  congr 1
  funext a; apply Fin.ext
  match a with
  | ⟨0, _⟩ => show win2_4.index t (0 : Fin 1) * 128 + 1 * (y 0).val = (y 0).val; omega

theorem wblk2_5 (c : Dev nD) (t : Fin cfg2.N) : (iblk2 V c 5 t : Vec Ideal S128x256 .f32) = V c main_arg15 := by
  obtain ⟨e0, e1⟩ := idx2_5 t
  funext y
  unfold iblk2
  rw [View.read_apply]
  show V c main_arg15 _ = V c main_arg15 y
  congr 1
  funext a; apply Fin.ext
  match a with
  | ⟨0, _⟩ => show win2_5.index t (0 : Fin 2) * 128 + 1 * (y 0).val = (y 0).val; omega
  | ⟨1, _⟩ => show win2_5.index t (1 : Fin 2) * 256 + 1 * (y 1).val = (y 1).val; omega

theorem wblk2_6 (c : Dev nD) (t : Fin cfg2.N) : (iblk2 V c 6 t : Vec Ideal S256 .f32) = V c main_arg16 := by
  have e0 := idx2_6 t
  funext y
  unfold iblk2
  rw [View.read_apply]
  show V c main_arg16 _ = V c main_arg16 y
  congr 1
  funext a; apply Fin.ext
  match a with
  | ⟨0, _⟩ => show win2_6.index t (0 : Fin 1) * 256 + 1 * (y 0).val = (y 0).val; omega

theorem wblk2_7 (c : Dev nD) (t : Fin cfg2.N) : (iblk2 V c 7 t : Vec Ideal S256x16 .f32) = V c main_arg17 := by
  obtain ⟨e0, e1⟩ := idx2_7 t
  funext y
  unfold iblk2
  rw [View.read_apply]
  show V c main_arg17 _ = V c main_arg17 y
  congr 1
  funext a; apply Fin.ext
  match a with
  | ⟨0, _⟩ => show win2_7.index t (0 : Fin 2) * 256 + 1 * (y 0).val = (y 0).val; omega
  | ⟨1, _⟩ => show win2_7.index t (1 : Fin 2) * 16 + 1 * (y 1).val = (y 1).val; omega

theorem wblk2_8 (c : Dev nD) (t : Fin cfg2.N) : (iblk2 V c 8 t : Vec Ideal S16 .f32) = V c main_arg18 := by
  have e0 := idx2_8 t
  funext y
  unfold iblk2
  rw [View.read_apply]
  show V c main_arg18 _ = V c main_arg18 y
  congr 1
  funext a; apply Fin.ext
  match a with
  | ⟨0, _⟩ => show win2_8.index t (0 : Fin 1) * 16 + 1 * (y 0).val = (y 0).val; omega

/-! ## The input block's rows are the quarter's rows -/

/-- Row r of the input block at point t is row 4096·t + r of the input quarter. -/
theorem xblk2_row (c : Dev nD) (t : Fin cfg2.N) (r : Fin 4096) (i : Fin 16384) (hi : i.val = 4096 * t.val + r.val) :
    rowOf (iblk2 V c 0 t : Vec Ideal S4096x256 .f32) r = rowOf (V c main_v4 : S16384x256.Idx → EReal) i := by
  obtain ⟨e0, e1⟩ := idx2_0 t
  funext q
  show (iblk2 V c 0 t : Vec Ideal S4096x256 .f32) (ix2 r q) = (V c main_v4 : S16384x256.Idx → EReal) (ix2 i q)
  unfold iblk2
  rw [View.read_apply]
  show V c main_v4 _ = V c main_v4 _
  congr 1
  funext a; apply Fin.ext
  match a with
  | ⟨0, _⟩ => show win2_0.index t (0 : Fin 2) * 4096 + 1 * r.val = i.val; omega
  | ⟨1, _⟩ => show win2_0.index t (1 : Fin 2) * 256 + 1 * q.val = q.val; omega

/-! ## What a point's block holds, entry by entry -/

/-- Entry (r, j) of the body's value on the blocks at point t is the array function at (4096·t + r, j). -/
theorem blockval2 (c : Dev nD) (t : Fin cfg2.N) (r : Fin 4096) (j : Fin 16) (i : Fin 16384) (hi : i.val = 4096 * t.val + r.val) :
    k2_pay1 (F := Ideal) (iblk2 V c 0 t) (iblk2 V c 1 t) (iblk2 V c 2 t) (iblk2 V c 3 t) (iblk2 V c 4 t)
        (iblk2 V c 5 t) (iblk2 V c 6 t) (iblk2 V c 7 t) (iblk2 V c 8 t) (ix2 r j)
      = G2 V c (ix2 i j) := by
  refine (congrFun (k2_rows (iblk2 V c 0 t) (iblk2 V c 1 t) (iblk2 V c 2 t) (iblk2 V c 3 t) (iblk2 V c 4 t) (iblk2 V c 5 t)
    (iblk2 V c 6 t) (iblk2 V c 7 t) (iblk2 V c 8 t) r) j).trans ?_
  rw [wblk2_1 V c t, wblk2_2 V c t, wblk2_3 V c t, wblk2_4 V c t, wblk2_5 V c t, wblk2_6 V c t, wblk2_7 V c t, wblk2_8 V c t,
    xblk2_row V c t r i hi]
  rfl

/-! ## What a point writes back -/

/-- Point t writes back block t of the array function. -/
theorem flushed2_eq (c : Dev nD) (t : Fin cfg2.N) :
    (dat2 (F := Ideal) V c).flushed 9 t = ((cfg2.win 9).blk t).view.read (Elt Ideal) (G2 V c) := by
  show (cfg2.win 9).cut (grid2.coords t) ((dat2 (F := Ideal) V c).after 9 t) = _
  rw [after2_9]
  unfold out2_9
  rw [View.canon_unit_zero zeros2_2]
  simp only [View.ld_unit_zero (S := S4096x256) zeros2_2, View.ld_unit_zero (S := S256x256) zeros2_2,
    View.ld_unit_zero (S := S256) zeros2_1, View.ld_unit_zero (S := S256x128) zeros2_2, View.ld_unit_zero (S := S128) zeros2_1,
    View.ld_unit_zero (S := S128x256) zeros2_2, View.ld_unit_zero (S := S256x16) zeros2_2, View.ld_unit_zero (S := S16) zeros2_1]
  obtain ⟨e0, e1⟩ := idx2_9 t
  have ht : t.val < 4 := by have h := t.isLt; have hN : cfg2.N = 4 := N_2; omega
  have aux : ∀ y : S4096x16.Idx,
      k2_pay1 (F := Ideal) (iblk2 V c 0 t) (iblk2 V c 1 t) (iblk2 V c 2 t) (iblk2 V c 3 t) (iblk2 V c 4 t)
          (iblk2 V c 5 t) (iblk2 V c 6 t) (iblk2 V c 7 t) (iblk2 V c 8 t) y
        = G2 V c (((cfg2.win 9).blk t).view.emb y) := by
    intro y
    obtain ⟨r, j, rfl⟩ : ∃ (r : Fin 4096) (j : Fin 16), y = ix2 r j := ⟨y 0, y 1, eq_ix2 y⟩
    have hr : r.val < 4096 := r.isLt
    refine (blockval2 V c t r j ⟨4096 * t.val + r.val, by omega⟩ rfl).trans ?_
    refine congrArg (G2 V c) ?_
    funext a; apply Fin.ext
    match a with
    | ⟨0, _⟩ => show 4096 * t.val + r.val = win2_9.index t (0 : Fin 2) * 4096 + 1 * r.val; omega
    | ⟨1, _⟩ => show j.val = win2_9.index t (1 : Fin 2) * 16 + 1 * j.val; omega
  funext y
  exact aux y

/-! ## The blocks tile the array -/

/-- An index of the array is in point t's block iff each coordinate is in the block's range on its axis. -/
theorem mem_blk2 (t : Fin cfg2.N) (i : S16384x16.Idx) :
    i ∈ ((cfg2.win 9).blk t).view.set ↔ ∀ a : Fin 2, win2_9.index t a * S4096x16.size a ≤ (i a).val ∧ (i a).val < win2_9.index t a * S4096x16.size a + S4096x16.size a := by
  show i ∈ ((View.whole main_v5).slice (win2_9.rect t)).set ↔ _
  rw [View.set_slice_whole, Rect.mem_set_unit]
  exact Iff.rfl

/-- Row i of the array lies in the block of point i / 4096, which writes back. -/
theorem cover2 (i : S16384x16.Idx) : ∃ t : Fin cfg2.N, (cfg2.win 9).flush t = true ∧ i ∈ ((cfg2.win 9).blk t).view.set := by
  have h0 : (i 0).val < 16384 := idx2_lt0 i
  have h1 : (i 1).val < 16 := idx2_lt1 i
  have hN : cfg2.N = 4 := N_2
  have hlt : (i 0).val / 4096 < cfg2.N := by rw [hN]; omega
  obtain ⟨e0, e1⟩ := idx2_9 ⟨(i 0).val / 4096, hlt⟩
  refine ⟨⟨(i 0).val / 4096, hlt⟩, flush2_9 _, ?_⟩
  rw [mem_blk2]
  intro a
  match a with
  | ⟨0, _⟩ =>
    show win2_9.index ⟨(i 0).val / 4096, hlt⟩ (0 : Fin 2) * 4096 ≤ (i 0).val ∧ (i 0).val < win2_9.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win2_9.index ⟨(i 0).val / 4096, hlt⟩ (1 : Fin 2) * 16 ≤ (i 1).val ∧ (i 1).val < win2_9.index ⟨(i 0).val / 4096, hlt⟩ (1 : Fin 2) * 16 + 16
    rw [e1]
    omega

/-! ## The array after the region -/

/-- The output array of region 2 ends holding, at row i and column j, the four-layer perceptron of row i of the input
    quarter at column j. -/
theorem final2 (c : Dev nD) (i : Fin 16384) (j : Fin 16) :
    (dat2 (F := Ideal) V c).arrAt 9 cfg2.N (ix2 i j)
      = net2 (V c main_arg11) (V c main_arg12) (V c main_arg13) (V c main_arg14) (V c main_arg15) (V c main_arg16)
          (V c main_arg17) (V c main_arg18) (rowOf (V c main_v4) i) j := by
  have h := (dat2 (F := Ideal) V c).arrAt_eq_of_cover 9 (G2 V c) (fun t _ => flushed2_eq V c t) cover2
  exact congrFun h (ix2 i j)

end Cert.KernelIdeal.Hand

end
-- ==== Proof.KI.Final3.lean ====
/-
  The value of region 3 at the extended reals. The region's output array has 16384 rows of 16 columns; grid point t of the
  four writes back rows 4096·t … 4096·t + 4095, all columns. What a point writes back is the five-layer perceptron of its
  block of the input quarter, row by row: the ten weight and bias windows are whole arrays at block index zero, so each
  point reads the arrays themselves, and row r of the input block at point t is row 4096·t + r of the input quarter.
  Hence every point's block is the restriction of ONE function of the array index, the perceptron of the index's row
  read at the index's column; the four blocks tile the array (row i lies in the block of point i / 4096), so the array
  ends holding that function.
-/
import proofs.«143194_j50603304682112_1_alg».proof.Proof.KI.Region3
import proofs.«143194_j50603304682112_1_alg».proof.Proof.LibDenseRows
import proofs.«143194_j50603304682112_1_alg».proof.Proof.NetRows
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Cert.LibDenseRows Cert.NetRows Idealize.ShloMosaic.ValueIdx

variable (V : (c : Dev nD) → (b : Ref sig .tc) → Buf (Elt Ideal) ((c : Thread nD τ).loc b))

/-! ## Zero offsets, however spelt -/

theorem zeros3_2 : (![0, 0] : Fin 2 → Nat) = fun _ => 0 := funext fun a => by fin_cases a <;> rfl
theorem zeros3_1 : (![0] : Fin 1 → Nat) = fun _ => 0 := funext fun a => by fin_cases a <;> rfl

/-! ## The result as one function of the array index -/

/-- The perceptron of row (idx 0) of the input quarter, read at column (idx 1): what the output array ends holding. -/
def G3 (c : Dev nD) : S16384x16.Idx → EReal := fun idx =>
  net3 (V c main_arg19) (V c main_arg20) (V c main_arg21) (V c main_arg22) (V c main_arg23) (V c main_arg24)
    (V c main_arg25) (V c main_arg26) (V c main_arg27) (V c main_arg28) (rowOf (V c main_v6) (idx 0)) (idx 1)

/-! ## The block indices, decided over the grid

The input's and the output's row-block index is the grid point, their column-block index zero; every weight and bias window's
block index is zero on every axis. -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 1) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 1) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 1) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 1) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 1) = 0 :=
  (by decide +kernel : ∀ t : Fin grid3.N, _)
theorem idx3_11 : ∀ t : Fin cfg3.N, win3_11.index t (0 : Fin 2) = t.val ∧ win3_11.index t (1 : Fin 2) = 0 :=
  (by decide +kernel : ∀ t : Fin grid3.N, _)

/-! ## The weight and bias windows' blocks are the arrays -/

theorem wblk3_1 (c : Dev nD) (t : Fin cfg3.N) : (iblk3 V c 1 t : Vec Ideal S256x256 .f32) = V c main_arg19 := by
  obtain ⟨e0, e1⟩ := idx3_1 t
  funext y
  unfold iblk3
  rw [View.read_apply]
  show V c main_arg19 _ = V c main_arg19 y
  congr 1
  funext a; apply Fin.ext
  match a with
  | ⟨0, _⟩ => show win3_1.index t (0 : Fin 2) * 256 + 1 * (y 0).val = (y 0).val; omega
  | ⟨1, _⟩ => show win3_1.index t (1 : Fin 2) * 256 + 1 * (y 1).val = (y 1).val; omega

theorem wblk3_2 (c : Dev nD) (t : Fin cfg3.N) : (iblk3 V c 2 t : Vec Ideal S256 .f32) = V c main_arg20 := by
  have e0 := idx3_2 t
  funext y
  unfold iblk3
  rw [View.read_apply]
  show V c main_arg20 _ = V c main_arg20 y
  congr 1
  funext a; apply Fin.ext
  match a with
  | ⟨0, _⟩ => show win3_2.index t (0 : Fin 1) * 256 + 1 * (y 0).val = (y 0).val; omega

theorem wblk3_3 (c : Dev nD) (t : Fin cfg3.N) : (iblk3 V c 3 t : Vec Ideal S256x256 .f32) = V c main_arg21 := by
  obtain ⟨e0, e1⟩ := idx3_3 t
  funext y
  unfold iblk3
  rw [View.read_apply]
  show V c main_arg21 _ = V c main_arg21 y
  congr 1
  funext a; apply Fin.ext
  match a with
  | ⟨0, _⟩ => show win3_3.index t (0 : Fin 2) * 256 + 1 * (y 0).val = (y 0).val; omega
  | ⟨1, _⟩ => show win3_3.index t (1 : Fin 2) * 256 + 1 * (y 1).val = (y 1).val; omega

theorem wblk3_4 (c : Dev nD) (t : Fin cfg3.N) : (iblk3 V c 4 t : Vec Ideal S256 .f32) = V c main_arg22 := by
  have e0 := idx3_4 t
  funext y
  unfold iblk3
  rw [View.read_apply]
  show V c main_arg22 _ = V c main_arg22 y
  congr 1
  funext a; apply Fin.ext
  match a with
  | ⟨0, _⟩ => show win3_4.index t (0 : Fin 1) * 256 + 1 * (y 0).val = (y 0).val; omega

theorem wblk3_5 (c : Dev nD) (t : Fin cfg3.N) : (iblk3 V c 5 t : Vec Ideal S256x256 .f32) = V c main_arg23 := by
  obtain ⟨e0, e1⟩ := idx3_5 t
  funext y
  unfold iblk3
  rw [View.read_apply]
  show V c main_arg23 _ = V c main_arg23 y
  congr 1
  funext a; apply Fin.ext
  match a with
  | ⟨0, _⟩ => show win3_5.index t (0 : Fin 2) * 256 + 1 * (y 0).val = (y 0).val; omega
  | ⟨1, _⟩ => show win3_5.index t (1 : Fin 2) * 256 + 1 * (y 1).val = (y 1).val; omega

theorem wblk3_6 (c : Dev nD) (t : Fin cfg3.N) : (iblk3 V c 6 t : Vec Ideal S256 .f32) = V c main_arg24 := by
  have e0 := idx3_6 t
  funext y
  unfold iblk3
  rw [View.read_apply]
  show V c main_arg24 _ = V c main_arg24 y
  congr 1
  funext a; apply Fin.ext
  match a with
  | ⟨0, _⟩ => show win3_6.index t (0 : Fin 1) * 256 + 1 * (y 0).val = (y 0).val; omega

theorem wblk3_7 (c : Dev nD) (t : Fin cfg3.N) : (iblk3 V c 7 t : Vec Ideal S256x256 .f32) = V c main_arg25 := by
  obtain ⟨e0, e1⟩ := idx3_7 t
  funext y
  unfold iblk3
  rw [View.read_apply]
  show V c main_arg25 _ = V c main_arg25 y
  congr 1
  funext a; apply Fin.ext
  match a with
  | ⟨0, _⟩ => show win3_7.index t (0 : Fin 2) * 256 + 1 * (y 0).val = (y 0).val; omega
  | ⟨1, _⟩ => show win3_7.index t (1 : Fin 2) * 256 + 1 * (y 1).val = (y 1).val; omega

theorem wblk3_8 (c : Dev nD) (t : Fin cfg3.N) : (iblk3 V c 8 t : Vec Ideal S256 .f32) = V c main_arg26 := by
  have e0 := idx3_8 t
  funext y
  unfold iblk3
  rw [View.read_apply]
  show V c main_arg26 _ = V c main_arg26 y
  congr 1
  funext a; apply Fin.ext
  match a with
  | ⟨0, _⟩ => show win3_8.index t (0 : Fin 1) * 256 + 1 * (y 0).val = (y 0).val; omega

theorem wblk3_9 (c : Dev nD) (t : Fin cfg3.N) : (iblk3 V c 9 t : Vec Ideal S256x16 .f32) = V c main_arg27 := by
  obtain ⟨e0, e1⟩ := idx3_9 t
  funext y
  unfold iblk3
  rw [View.read_apply]
  show V c main_arg27 _ = V c main_arg27 y
  congr 1
  funext a; apply Fin.ext
  match a with
  | ⟨0, _⟩ => show win3_9.index t (0 : Fin 2) * 256 + 1 * (y 0).val = (y 0).val; omega
  | ⟨1, _⟩ => show win3_9.index t (1 : Fin 2) * 16 + 1 * (y 1).val = (y 1).val; omega

theorem wblk3_10 (c : Dev nD) (t : Fin cfg3.N) : (iblk3 V c 10 t : Vec Ideal S16 .f32) = V c main_arg28 := by
  have e0 := idx3_10 t
  funext y
  unfold iblk3
  rw [View.read_apply]
  show V c main_arg28 _ = V c main_arg28 y
  congr 1
  funext a; apply Fin.ext
  match a with
  | ⟨0, _⟩ => show win3_10.index t (0 : Fin 1) * 16 + 1 * (y 0).val = (y 0).val; omega

/-! ## The input block's rows are the quarter's rows -/

/-- Row r of the input block at point t is row 4096·t + r of the input quarter. -/
theorem xblk3_row (c : Dev nD) (t : Fin cfg3.N) (r : Fin 4096) (i : Fin 16384) (hi : i.val = 4096 * t.val + r.val) :
    rowOf (iblk3 V c 0 t : Vec Ideal S4096x256 .f32) r = rowOf (V c main_v6 : S16384x256.Idx → EReal) i := by
  obtain ⟨e0, e1⟩ := idx3_0 t
  funext q
  show (iblk3 V c 0 t : Vec Ideal S4096x256 .f32) (ix2 r q) = (V c main_v6 : S16384x256.Idx → EReal) (ix2 i q)
  unfold iblk3
  rw [View.read_apply]
  show V c main_v6 _ = V c main_v6 _
  congr 1
  funext a; apply Fin.ext
  match a with
  | ⟨0, _⟩ => show win3_0.index t (0 : Fin 2) * 4096 + 1 * r.val = i.val; omega
  | ⟨1, _⟩ => show win3_0.index t (1 : Fin 2) * 256 + 1 * q.val = q.val; omega

/-! ## What a point's block holds, entry by entry -/

/-- Entry (r, j) of the body's value on the blocks at point t is the array function at (4096·t + r, j). -/
theorem blockval3 (c : Dev nD) (t : Fin cfg3.N) (r : Fin 4096) (j : Fin 16) (i : Fin 16384) (hi : i.val = 4096 * t.val + r.val) :
    k3_pay1 (F := Ideal) (k3_pay2 (F := Ideal) (iblk3 V c 0 t) (iblk3 V c 1 t) (iblk3 V c 2 t) (iblk3 V c 3 t) (iblk3 V c 4 t)
        (iblk3 V c 5 t) (iblk3 V c 6 t) (iblk3 V c 7 t) (iblk3 V c 8 t)) (iblk3 V c 9 t) (iblk3 V c 10 t) (ix2 r j)
      = G3 V c (ix2 i j) := by
  refine (congrFun (k3_rows (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) r) j).trans ?_
  rw [wblk3_1 V c t, wblk3_2 V c t, wblk3_3 V c t, wblk3_4 V c t, wblk3_5 V c t, wblk3_6 V c t, wblk3_7 V c t, wblk3_8 V c t,
    wblk3_9 V c t, wblk3_10 V c t, xblk3_row V c t r i hi]
  rfl

/-! ## What a point writes back -/

/-- Point t writes back block t of the array function. -/
theorem flushed3_eq (c : Dev nD) (t : Fin cfg3.N) :
    (dat3 (F := Ideal) V c).flushed 11 t = ((cfg3.win 11).blk t).view.read (Elt Ideal) (G3 V c) := by
  show (cfg3.win 11).cut (grid3.coords t) ((dat3 (F := Ideal) V c).after 11 t) = _
  rw [after3_11]
  unfold out3_11
  rw [View.canon_unit_zero zeros3_2]
  simp only [View.ld_unit_zero (S := S4096x256) zeros3_2, View.ld_unit_zero (S := S256x256) zeros3_2,
    View.ld_unit_zero (S := S256) zeros3_1, View.ld_unit_zero (S := S256x16) zeros3_2, View.ld_unit_zero (S := S16) zeros3_1]
  obtain ⟨e0, e1⟩ := idx3_11 t
  have ht : t.val < 4 := by have h := t.isLt; have hN : cfg3.N = 4 := N_3; omega
  have aux : ∀ y : S4096x16.Idx,
      k3_pay1 (F := Ideal) (k3_pay2 (F := Ideal) (iblk3 V c 0 t) (iblk3 V c 1 t) (iblk3 V c 2 t) (iblk3 V c 3 t) (iblk3 V c 4 t)
          (iblk3 V c 5 t) (iblk3 V c 6 t) (iblk3 V c 7 t) (iblk3 V c 8 t)) (iblk3 V c 9 t) (iblk3 V c 10 t) y
        = G3 V c (((cfg3.win 11).blk t).view.emb y) := by
    intro y
    obtain ⟨r, j, rfl⟩ : ∃ (r : Fin 4096) (j : Fin 16), y = ix2 r j := ⟨y 0, y 1, eq_ix2 y⟩
    have hr : r.val < 4096 := r.isLt
    refine (blockval3 V c t r j ⟨4096 * t.val + r.val, by omega⟩ rfl).trans ?_
    refine congrArg (G3 V c) ?_
    funext a; apply Fin.ext
    match a with
    | ⟨0, _⟩ => show 4096 * t.val + r.val = win3_11.index t (0 : Fin 2) * 4096 + 1 * r.val; omega
    | ⟨1, _⟩ => show j.val = win3_11.index t (1 : Fin 2) * 16 + 1 * j.val; omega
  funext y
  exact aux y

/-! ## The blocks tile the array -/

/-- An index of the array is in point t's block iff each coordinate is in the block's range on its axis. -/
theorem mem_blk3 (t : Fin cfg3.N) (i : S16384x16.Idx) :
    i ∈ ((cfg3.win 11).blk t).view.set ↔ ∀ a : Fin 2, win3_11.index t a * S4096x16.size a ≤ (i a).val ∧ (i a).val < win3_11.index t a * S4096x16.size a + S4096x16.size a := by
  show i ∈ ((View.whole main_v7).slice (win3_11.rect t)).set ↔ _
  rw [View.set_slice_whole, Rect.mem_set_unit]
  exact Iff.rfl

/-- Row i of the array lies in the block of point i / 4096, which writes back. -/
theorem cover3 (i : S16384x16.Idx) : ∃ t : Fin cfg3.N, (cfg3.win 11).flush t = true ∧ i ∈ ((cfg3.win 11).blk t).view.set := by
  have h0 : (i 0).val < 16384 := idx2_lt0 i
  have h1 : (i 1).val < 16 := idx2_lt1 i
  have hN : cfg3.N = 4 := N_3
  have hlt : (i 0).val / 4096 < cfg3.N := by rw [hN]; omega
  obtain ⟨e0, e1⟩ := idx3_11 ⟨(i 0).val / 4096, hlt⟩
  refine ⟨⟨(i 0).val / 4096, hlt⟩, flush3_11 _, ?_⟩
  rw [mem_blk3]
  intro a
  match a with
  | ⟨0, _⟩ =>
    show win3_11.index ⟨(i 0).val / 4096, hlt⟩ (0 : Fin 2) * 4096 ≤ (i 0).val ∧ (i 0).val < win3_11.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win3_11.index ⟨(i 0).val / 4096, hlt⟩ (1 : Fin 2) * 16 ≤ (i 1).val ∧ (i 1).val < win3_11.index ⟨(i 0).val / 4096, hlt⟩ (1 : Fin 2) * 16 + 16
    rw [e1]
    omega

/-! ## The array after the region -/

/-- The output array of region 3 ends holding, at row i and column j, the five-layer perceptron of row i of the input
    quarter at column j. -/
theorem final3 (c : Dev nD) (i : Fin 16384) (j : Fin 16) :
    (dat3 (F := Ideal) V c).arrAt 11 cfg3.N (ix2 i j)
      = net3 (V c main_arg19) (V c main_arg20) (V c main_arg21) (V c main_arg22) (V c main_arg23) (V c main_arg24)
          (V c main_arg25) (V c main_arg26) (V c main_arg27) (V c main_arg28) (rowOf (V c main_v6) i) j := by
  have h := (dat3 (F := Ideal) V c).arrAt_eq_of_cover 11 (G3 V c) (fun t _ => flushed3_eq V c t) cover3
  exact congrFun h (ix2 i j)

end Cert.KernelIdeal.Hand

end
-- ==== Proof.KI.Ends.lean ====
/-
  What the buffers hold at the regions' entries and at the program's end, read off the chain of contents: each
  region's quarter of the batch is the corresponding row slice of the launch batch; the weights and biases reach
  every region as launched (no host operation and no region writes them); the two results are the two column halves
  of the four regions' outputs joined along the rows.
-/
import proofs.«143194_j50603304682112_1_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (outs : Outs (F := F))

/-! ## A buffer no item has written yet is as launched -/

theorem V1_keep (c : Dev nD) (r : Ref sig .tc) (h1 : r ∉ hostOps0_W) : V1 m c r = m ((c : Thread nD τ).loc r) :=
  (V1_of m c r h1).trans rfl

theorem V3_keep (c : Dev nD) (r : Ref sig .tc) (h1 : r ∉ hostOps0_W) (h2 : r ∉ ([main_v1] : List (Ref sig .tc))) (h3 : r ∉ hostOps1_W) :
    V3 m outs c r = m ((c : Thread nD τ).loc r) :=
  (V3_of m outs c r h3).trans <| (V2_of m outs c r h2).trans <| V1_keep m c r h1

theorem V5_keep (c : Dev nD) (r : Ref sig .tc) (h1 : r ∉ hostOps0_W) (h2 : r ∉ ([main_v1] : List (Ref sig .tc))) (h3 : r ∉ hostOps1_W)
    (h4 : r ∉ ([main_v3] : List (Ref sig .tc))) (h5 : r ∉ hostOps2_W) : V5 m outs c r = m ((c : Thread nD τ).loc r) :=
  (V5_of m outs c r h5).trans <| (V4_of m outs c r h4).trans <| V3_keep m outs c r h1 h2 h3

theorem V7_keep (c : Dev nD) (r : Ref sig .tc) (h1 : r ∉ hostOps0_W) (h2 : r ∉ ([main_v1] : List (Ref sig .tc))) (h3 : r ∉ hostOps1_W)
    (h4 : r ∉ ([main_v3] : List (Ref sig .tc))) (h5 : r ∉ hostOps2_W) (h6 : r ∉ ([main_v5] : List (Ref sig .tc))) (h7 : r ∉ hostOps3_W) :
    V7 m outs c r = m ((c : Thread nD τ).loc r) :=
  (V7_of m outs c r h7).trans <| (V6_of m outs c r h6).trans <| V5_keep m outs c r h1 h2 h3 h4 h5

/-! ## Each region's quarter of the batch -/

theorem V1_v0 (c : Dev nD) :
    V1 m c main_v0 = extractStridedSlice S16384x256 ![0, 0] (m ((c : Thread nD τ).loc main_arg0)) slices_S65536x256_S16384x256_0_0 := by
  show StableHlo.after hostOps0 (V0 m c) (Proc.devRef .tc main_v0) = _
  after_results

theorem V3_v2 (c : Dev nD) :
    V3 m outs c main_v2 = extractStridedSlice S16384x256 ![16384, 0] (m ((c : Thread nD τ).loc main_arg0)) slices_S65536x256_S16384x256_16384_0 := by
  show StableHlo.after hostOps1 (V2 m outs c) (Proc.devRef .tc main_v2) = _
  after_results
  rw [show V2 m outs c (Proc.devRef .tc main_arg0) = m ((c : Thread nD τ).loc main_arg0) from
    (V2_of m outs c main_arg0 (by decide)).trans (V1_keep m c main_arg0 (by decide))]

theorem V5_v4 (c : Dev nD) :
    V5 m outs c main_v4 = extractStridedSlice S16384x256 ![32768, 0] (m ((c : Thread nD τ).loc main_arg0)) slices_S65536x256_S16384x256_32768_0 := by
  show StableHlo.after hostOps2 (V4 m outs c) (Proc.devRef .tc main_v4) = _
  after_results
  rw [show V4 m outs c (Proc.devRef .tc main_arg0) = m ((c : Thread nD τ).loc main_arg0) from
    (V4_of m outs c main_arg0 (by decide)).trans (V3_keep m outs c main_arg0 (by decide) (by decide) (by decide))]

theorem V7_v6 (c : Dev nD) :
    V7 m outs c main_v6 = extractStridedSlice S16384x256 ![49152, 0] (m ((c : Thread nD τ).loc main_arg0)) slices_S65536x256_S16384x256_49152_0 := by
  show StableHlo.after hostOps3 (V6 m outs c) (Proc.devRef .tc main_v6) = _
  after_results
  rw [show V6 m outs c (Proc.devRef .tc main_arg0) = m ((c : Thread nD τ).loc main_arg0) from
    (V6_of m outs c main_arg0 (by decide)).trans (V5_keep m outs c main_arg0 (by decide) (by decide) (by decide) (by decide) (by decide))]

/-! ## The regions' outputs when the last host stretch runs -/

theorem V8_v1 (c : Dev nD) : V8 m outs c main_v1 = outs 2 main_v1 c :=
  (V8_of m outs c main_v1 (by decide)).trans <| (V7_of m outs c main_v1 (by decide)).trans <| (V6_of m outs c main_v1 (by decide)).trans <|
    (V5_of m outs c main_v1 (by decide)).trans <| (V4_of m outs c main_v1 (by decide)).trans <| (V3_of m outs c main_v1 (by decide)).trans <|
    Function.update_self _ _ _

theorem V8_v3 (c : Dev nD) : V8 m outs c main_v3 = outs 4 main_v3 c :=
  (V8_of m outs c main_v3 (by decide)).trans <| (V7_of m outs c main_v3 (by decide)).trans <| (V6_of m outs c main_v3 (by decide)).trans <|
    (V5_of m outs c main_v3 (by decide)).trans <| Function.update_self _ _ _

theorem V8_v5 (c : Dev nD) : V8 m outs c main_v5 = outs 6 main_v5 c :=
  (V8_of m outs c main_v5 (by decide)).trans <| (V7_of m outs c main_v5 (by decide)).trans <| Function.update_self _ _ _

theorem V8_v7 (c : Dev nD) : V8 m outs c main_v7 = outs 8 main_v7 c :=
  Function.update_self _ _ _

/-! ## The two results -/

/-- The first result from the four regions' outputs: joined along the rows, the first eight columns kept. -/
def joinLo (a0 a1 a2 a3 : FVec F S16384x16 .f32) : FVec F S65536x8 .f32 :=
  extractStridedSlice S65536x8 ![0, 0]
    (concatenate S65536x16 0 [⟨S16384x16, a0⟩, ⟨S16384x16, a1⟩, ⟨S16384x16, a2⟩, ⟨S16384x16, a3⟩]
      concatenates_S16384x16_S16384x16_S16384x16_S16384x16_S65536x16_d0) slices_S65536x16_S65536x8_0_0

/-- The second result: the same join, the last eight columns kept. -/
def joinHi (a0 a1 a2 a3 : FVec F S16384x16 .f32) : FVec F S65536x8 .f32 :=
  extractStridedSlice S65536x8 ![0, 8]
    (concatenate S65536x16 0 [⟨S16384x16, a0⟩, ⟨S16384x16, a1⟩, ⟨S16384x16, a2⟩, ⟨S16384x16, a3⟩]
      concatenates_S16384x16_S16384x16_S16384x16_S16384x16_S65536x16_d0) slices_S65536x16_S65536x8_0_8

theorem V9_v9 (c : Dev nD) :
    V9 m outs c main_v9 = joinLo (outs 2 main_v1 c) (outs 4 main_v3 c) (outs 6 main_v5 c) (outs 8 main_v7 c) := by
  show StableHlo.after hostOps4 (V8 m outs c) (Proc.devRef .tc main_v9) = _
  after_results
  show joinLo (V8 m outs c main_v1) (V8 m outs c main_v3) (V8 m outs c main_v5) (V8 m outs c main_v7) = _
  rw [V8_v1 m outs c, V8_v3 m outs c, V8_v5 m outs c, V8_v7 m outs c]

theorem V9_v10 (c : Dev nD) :
    V9 m outs c main_v10 = joinHi (outs 2 main_v1 c) (outs 4 main_v3 c) (outs 6 main_v5 c) (outs 8 main_v7 c) := by
  show StableHlo.after hostOps4 (V8 m outs c) (Proc.devRef .tc main_v10) = _
  after_results
  show joinHi (V8 m outs c main_v1) (V8 m outs c main_v3) (V8 m outs c main_v5) (V8 m outs c main_v7) = _
  rw [V8_v1 m outs c, V8_v3 m outs c, V8_v5 m outs c, V8_v7 m outs c]

end Cert.KernelIdeal.Hand

end
-- ==== Proof.KI.Value.lean ====
/-
  The kernel program's two results at the ideal instance, as functions of the launch contents. Each region's output
  array is the reference's own term for that sub-network applied to the region's quarter of the batch: row by row both
  are the same composition of affine layers and relu (the regions' arrays read index by index on one side, the
  reference's operations read row by row on the other). The two results are the two column halves of the four
  outputs joined along the rows.
-/
import proofs.«143194_j50603304682112_1_alg».proof.Proof.KI.Final0
import proofs.«143194_j50603304682112_1_alg».proof.Proof.KI.Final1
import proofs.«143194_j50603304682112_1_alg».proof.Proof.KI.Final2
import proofs.«143194_j50603304682112_1_alg».proof.Proof.KI.Final3
import proofs.«143194_j50603304682112_1_alg».proof.Proof.KI.Run
import proofs.«143194_j50603304682112_1_alg».proof.Proof.KI.Ends
import proofs.«143194_j50603304682112_1_alg».proof.Proof.NetRows

noncomputable section

namespace Cert.KernelIdeal.Hand

open Cert.KernelIdeal Cert.KernelIdeal.Gen
open Idealize.ShloMosaic Idealize.ShloMosaic.TcCoe Idealize.ShloMosaic.ValueIdx
open Idealize.SL.Sem
open Cert.LibDenseRows Cert.NetRows

variable (m : (ℓ : Loc nD τ sig) → Buf (Elt Ideal) ℓ)

/-! ## The four sub-networks' outputs, of the launch contents -/

/-- Sub-network 0 on the first quarter of the batch. -/
def A0 (c : Dev nD) : FVec Ideal S16384x16 .f32 :=
  refNet0 (extractStridedSlice S16384x256 ![0, 0] (m ((c : Thread nD τ).loc main_arg0)) Gen.slices_S65536x256_S16384x256_0_0)
    (m ((c : Thread nD τ).loc main_arg1)) (m ((c : Thread nD τ).loc main_arg2)) (m ((c : Thread nD τ).loc main_arg3)) (m ((c : Thread nD τ).loc main_arg4))

/-- Sub-network 1 on the second quarter. -/
def A1 (c : Dev nD) : FVec Ideal S16384x16 .f32 :=
  refNet1 (extractStridedSlice S16384x256 ![16384, 0] (m ((c : Thread nD τ).loc main_arg0)) Gen.slices_S65536x256_S16384x256_16384_0)
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10))

/-- Sub-network 2 on the third quarter. -/
def A2 (c : Dev nD) : FVec Ideal S16384x16 .f32 :=
  refNet2 (extractStridedSlice S16384x256 ![32768, 0] (m ((c : Thread nD τ).loc main_arg0)) Gen.slices_S65536x256_S16384x256_32768_0)
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))

/-- Sub-network 3 on the last quarter. -/
def A3 (c : Dev nD) : FVec Ideal S16384x16 .f32 :=
  refNet3 (extractStridedSlice S16384x256 ![49152, 0] (m ((c : Thread nD τ).loc main_arg0)) Gen.slices_S65536x256_S16384x256_49152_0)
    (m ((c : Thread nD τ).loc main_arg19)) (m ((c : Thread nD τ).loc main_arg20)) (m ((c : Thread nD τ).loc main_arg21)) (m ((c : Thread nD τ).loc main_arg22))
    (m ((c : Thread nD τ).loc main_arg23)) (m ((c : Thread nD τ).loc main_arg24)) (m ((c : Thread nD τ).loc main_arg25)) (m ((c : Thread nD τ).loc main_arg26))
    (m ((c : Thread nD τ).loc main_arg27)) (m ((c : Thread nD τ).loc main_arg28))

/-- The first result. -/
def resLo (c : Dev nD) : FVec Ideal S65536x8 .f32 := joinLo (A0 m c) (A1 m c) (A2 m c) (A3 m c)
/-- The second result. -/
def resHi (c : Dev nD) : FVec Ideal S65536x8 .f32 := joinHi (A0 m c) (A1 m c) (A2 m c) (A3 m c)

/-! ## Each region's output array is that sub-network's output -/

theorem arr0_eq (c : Dev nD) : (dat0 (F := Ideal) (ent0 m) c).arrAt 5 cfg0.N = A0 m c := by
  funext idx
  obtain ⟨i, j, rfl⟩ : ∃ (i : Fin 16384) (j : Fin 16), idx = ix2 i j := ⟨idx 0, idx 1, eq_ix2 idx⟩
  refine (final0 (ent0 m) c i j).trans ?_
  rw [show ent0 m c main_arg1 = m ((c : Thread nD τ).loc main_arg1) from V1_keep m c main_arg1 (by decide),
    show ent0 m c main_arg2 = m ((c : Thread nD τ).loc main_arg2) from V1_keep m c main_arg2 (by decide),
    show ent0 m c main_arg3 = m ((c : Thread nD τ).loc main_arg3) from V1_keep m c main_arg3 (by decide),
    show ent0 m c main_arg4 = m ((c : Thread nD τ).loc main_arg4) from V1_keep m c main_arg4 (by decide),
    show ent0 m c main_v0 = _ from V1_v0 m c]
  exact (congrFun (ref0_rows _ _ _ _ _ i) j).symm

theorem arr1_eq (outs : Outs (F := Ideal)) (c : Dev nD) : (dat1 (F := Ideal) (ent1 m outs) c).arrAt 7 cfg1.N = A1 m c := by
  funext idx
  obtain ⟨i, j, rfl⟩ : ∃ (i : Fin 16384) (j : Fin 16), idx = ix2 i j := ⟨idx 0, idx 1, eq_ix2 idx⟩
  refine (final1 (ent1 m outs) c i j).trans ?_
  rw [show ent1 m outs c main_arg5 = m ((c : Thread nD τ).loc main_arg5) from V3_keep m outs c main_arg5 (by decide) (by decide) (by decide),
    show ent1 m outs c main_arg6 = m ((c : Thread nD τ).loc main_arg6) from V3_keep m outs c main_arg6 (by decide) (by decide) (by decide),
    show ent1 m outs c main_arg7 = m ((c : Thread nD τ).loc main_arg7) from V3_keep m outs c main_arg7 (by decide) (by decide) (by decide),
    show ent1 m outs c main_arg8 = m ((c : Thread nD τ).loc main_arg8) from V3_keep m outs c main_arg8 (by decide) (by decide) (by decide),
    show ent1 m outs c main_arg9 = m ((c : Thread nD τ).loc main_arg9) from V3_keep m outs c main_arg9 (by decide) (by decide) (by decide),
    show ent1 m outs c main_arg10 = m ((c : Thread nD τ).loc main_arg10) from V3_keep m outs c main_arg10 (by decide) (by decide) (by decide),
    show ent1 m outs c main_v2 = _ from V3_v2 m outs c]
  exact (congrFun (ref1_rows _ _ _ _ _ _ _ i) j).symm

theorem arr2_eq (outs : Outs (F := Ideal)) (c : Dev nD) : (dat2 (F := Ideal) (ent2 m outs) c).arrAt 9 cfg2.N = A2 m c := by
  funext idx
  obtain ⟨i, j, rfl⟩ : ∃ (i : Fin 16384) (j : Fin 16), idx = ix2 i j := ⟨idx 0, idx 1, eq_ix2 idx⟩
  refine (final2 (ent2 m outs) c i j).trans ?_
  rw [show ent2 m outs c main_arg11 = m ((c : Thread nD τ).loc main_arg11) from V5_keep m outs c main_arg11 (by decide) (by decide) (by decide) (by decide) (by decide),
    show ent2 m outs c main_arg12 = m ((c : Thread nD τ).loc main_arg12) from V5_keep m outs c main_arg12 (by decide) (by decide) (by decide) (by decide) (by decide),
    show ent2 m outs c main_arg13 = m ((c : Thread nD τ).loc main_arg13) from V5_keep m outs c main_arg13 (by decide) (by decide) (by decide) (by decide) (by decide),
    show ent2 m outs c main_arg14 = m ((c : Thread nD τ).loc main_arg14) from V5_keep m outs c main_arg14 (by decide) (by decide) (by decide) (by decide) (by decide),
    show ent2 m outs c main_arg15 = m ((c : Thread nD τ).loc main_arg15) from V5_keep m outs c main_arg15 (by decide) (by decide) (by decide) (by decide) (by decide),
    show ent2 m outs c main_arg16 = m ((c : Thread nD τ).loc main_arg16) from V5_keep m outs c main_arg16 (by decide) (by decide) (by decide) (by decide) (by decide),
    show ent2 m outs c main_arg17 = m ((c : Thread nD τ).loc main_arg17) from V5_keep m outs c main_arg17 (by decide) (by decide) (by decide) (by decide) (by decide),
    show ent2 m outs c main_arg18 = m ((c : Thread nD τ).loc main_arg18) from V5_keep m outs c main_arg18 (by decide) (by decide) (by decide) (by decide) (by decide),
    show ent2 m outs c main_v4 = _ from V5_v4 m outs c]
  exact (congrFun (ref2_rows _ _ _ _ _ _ _ _ _ i) j).symm

theorem arr3_eq (outs : Outs (F := Ideal)) (c : Dev nD) : (dat3 (F := Ideal) (ent3 m outs) c).arrAt 11 cfg3.N = A3 m c := by
  funext idx
  obtain ⟨i, j, rfl⟩ : ∃ (i : Fin 16384) (j : Fin 16), idx = ix2 i j := ⟨idx 0, idx 1, eq_ix2 idx⟩
  refine (final3 (ent3 m outs) c i j).trans ?_
  rw [show ent3 m outs c main_arg19 = m ((c : Thread nD τ).loc main_arg19) from V7_keep m outs c main_arg19 (by decide) (by decide) (by decide) (by decide) (by decide) (by decide) (by decide),
    show ent3 m outs c main_arg20 = m ((c : Thread nD τ).loc main_arg20) from V7_keep m outs c main_arg20 (by decide) (by decide) (by decide) (by decide) (by decide) (by decide) (by decide),
    show ent3 m outs c main_arg21 = m ((c : Thread nD τ).loc main_arg21) from V7_keep m outs c main_arg21 (by decide) (by decide) (by decide) (by decide) (by decide) (by decide) (by decide),
    show ent3 m outs c main_arg22 = m ((c : Thread nD τ).loc main_arg22) from V7_keep m outs c main_arg22 (by decide) (by decide) (by decide) (by decide) (by decide) (by decide) (by decide),
    show ent3 m outs c main_arg23 = m ((c : Thread nD τ).loc main_arg23) from V7_keep m outs c main_arg23 (by decide) (by decide) (by decide) (by decide) (by decide) (by decide) (by decide),
    show ent3 m outs c main_arg24 = m ((c : Thread nD τ).loc main_arg24) from V7_keep m outs c main_arg24 (by decide) (by decide) (by decide) (by decide) (by decide) (by decide) (by decide),
    show ent3 m outs c main_arg25 = m ((c : Thread nD τ).loc main_arg25) from V7_keep m outs c main_arg25 (by decide) (by decide) (by decide) (by decide) (by decide) (by decide) (by decide),
    show ent3 m outs c main_arg26 = m ((c : Thread nD τ).loc main_arg26) from V7_keep m outs c main_arg26 (by decide) (by decide) (by decide) (by decide) (by decide) (by decide) (by decide),
    show ent3 m outs c main_arg27 = m ((c : Thread nD τ).loc main_arg27) from V7_keep m outs c main_arg27 (by decide) (by decide) (by decide) (by decide) (by decide) (by decide) (by decide),
    show ent3 m outs c main_arg28 = m ((c : Thread nD τ).loc main_arg28) from V7_keep m outs c main_arg28 (by decide) (by decide) (by decide) (by decide) (by decide) (by decide) (by decide),
    show ent3 m outs c main_v6 = _ from V7_v6 m outs c]
  exact (congrFun (ref3_rows _ _ _ _ _ _ _ _ _ _ _ i) j).symm

/-! ## The two results at the end of the run -/

theorem v9_eq (outs : Outs (F := Ideal)) (hok : OutsOk m outs) (c : Dev nD) : V9 m outs c main_v9 = resLo m c := by
  rw [V9_v9 m outs c, hok.h0 c, hok.h1 c, hok.h2 c, hok.h3 c, arr0_eq m c, arr1_eq m outs c, arr2_eq m outs c, arr3_eq m outs c]
  rfl

theorem v10_eq (outs : Outs (F := Ideal)) (hok : OutsOk m outs) (c : Dev nD) : V9 m outs c main_v10 = resHi m c := by
  rw [V9_v10 m outs c, hok.h0 c, hok.h1 c, hok.h2 c, hok.h3 c, arr0_eq m c, arr1_eq m outs c, arr2_eq m outs c, arr3_eq m outs c]
  rfl

end Cert.KernelIdeal.Hand

end
-- ==== Proof.RefJoin.lean ====
/-
  The host program's two results as the four perceptrons' outputs joined.

  The host program cuts the batch of 65536 rows into four quarters of 16384 rows, sends each quarter through its own
  perceptron (16 output columns each), joins the four outputs along the rows into one 65536 × 16 matrix, and returns
  that matrix's two column halves: columns 0 to 7 as the first result and columns 8 to 15 as the second. Here each
  result's term is written over the four perceptron terms `refNet0` … `refNet3` applied to the quarter of the batch
  and to the weights read from the launch contents. Both equations hold by unfolding the definitions.
-/
import proofs.«143194_j50603304682112_1_alg».proof.Proof.NetRows
import proofs.«143194_j50603304682112_1_alg».proof.Proof.Gen.ReferenceIdeal.Run

noncomputable section

namespace Cert.NetRows

open Idealize.ShloMosaic Idealize.ShloMosaic.TcCoe Idealize.SL.Sem Idealize.ShloMosaic.StableHlo
open Cert.ReferenceIdeal Cert.ReferenceIdeal.Gen Cert.ReferenceIdeal.Value

/-- The first result: columns 0 to 7 of the four perceptrons' outputs joined along the rows. -/
theorem res0_eq (m : (ℓ : Loc Cert.ReferenceIdeal.nD Cert.ReferenceIdeal.τ Cert.ReferenceIdeal.sig) → Buf (Elt Ideal) ℓ)
    (c : Dev Cert.ReferenceIdeal.nD) :
    res_main_v71 (F := Ideal) m c =
      extractStridedSlice S65536x8 ![0, 0] (concatenate S65536x16 0
        [⟨S16384x16, refNet0
            (extractStridedSlice S16384x256 ![0, 0] (m ((c.tc : Thread nD τ).loc main_arg0)) slices_S65536x256_S16384x256_0_0)
            (m ((c.tc : Thread nD τ).loc main_arg1)) (m ((c.tc : Thread nD τ).loc main_arg2))
            (m ((c.tc : Thread nD τ).loc main_arg3)) (m ((c.tc : Thread nD τ).loc main_arg4))⟩,
         ⟨S16384x16, refNet1
            (extractStridedSlice S16384x256 ![16384, 0] (m ((c.tc : Thread nD τ).loc main_arg0)) slices_S65536x256_S16384x256_16384_0)
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))⟩,
         ⟨S16384x16, refNet2
            (extractStridedSlice S16384x256 ![32768, 0] (m ((c.tc : Thread nD τ).loc main_arg0)) slices_S65536x256_S16384x256_32768_0)
            (m ((c.tc : Thread nD τ).loc main_arg11)) (m ((c.tc : Thread nD τ).loc main_arg12))
            (m ((c.tc : Thread nD τ).loc main_arg13)) (m ((c.tc : Thread nD τ).loc main_arg14))
            (m ((c.tc : Thread nD τ).loc main_arg15)) (m ((c.tc : Thread nD τ).loc main_arg16))
            (m ((c.tc : Thread nD τ).loc main_arg17)) (m ((c.tc : Thread nD τ).loc main_arg18))⟩,
         ⟨S16384x16, refNet3
            (extractStridedSlice S16384x256 ![49152, 0] (m ((c.tc : Thread nD τ).loc main_arg0)) slices_S65536x256_S16384x256_49152_0)
            (m ((c.tc : Thread nD τ).loc main_arg19)) (m ((c.tc : Thread nD τ).loc main_arg20))
            (m ((c.tc : Thread nD τ).loc main_arg21)) (m ((c.tc : Thread nD τ).loc main_arg22))
            (m ((c.tc : Thread nD τ).loc main_arg23)) (m ((c.tc : Thread nD τ).loc main_arg24))
            (m ((c.tc : Thread nD τ).loc main_arg25)) (m ((c.tc : Thread nD τ).loc main_arg26))
            (m ((c.tc : Thread nD τ).loc main_arg27)) (m ((c.tc : Thread nD τ).loc main_arg28))⟩]
        concatenates_S16384x16_S16384x16_S16384x16_S16384x16_S65536x16_d0) slices_S65536x16_S65536x8_0_0 := rfl

/-- The second result: columns 8 to 15 of the four perceptrons' outputs joined along the rows. -/
theorem res1_eq (m : (ℓ : Loc Cert.ReferenceIdeal.nD Cert.ReferenceIdeal.τ Cert.ReferenceIdeal.sig) → Buf (Elt Ideal) ℓ)
    (c : Dev Cert.ReferenceIdeal.nD) :
    res_main_v72 (F := Ideal) m c =
      extractStridedSlice S65536x8 ![0, 8] (concatenate S65536x16 0
        [⟨S16384x16, refNet0
            (extractStridedSlice S16384x256 ![0, 0] (m ((c.tc : Thread nD τ).loc main_arg0)) slices_S65536x256_S16384x256_0_0)
            (m ((c.tc : Thread nD τ).loc main_arg1)) (m ((c.tc : Thread nD τ).loc main_arg2))
            (m ((c.tc : Thread nD τ).loc main_arg3)) (m ((c.tc : Thread nD τ).loc main_arg4))⟩,
         ⟨S16384x16, refNet1
            (extractStridedSlice S16384x256 ![16384, 0] (m ((c.tc : Thread nD τ).loc main_arg0)) slices_S65536x256_S16384x256_16384_0)
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))⟩,
         ⟨S16384x16, refNet2
            (extractStridedSlice S16384x256 ![32768, 0] (m ((c.tc : Thread nD τ).loc main_arg0)) slices_S65536x256_S16384x256_32768_0)
            (m ((c.tc : Thread nD τ).loc main_arg11)) (m ((c.tc : Thread nD τ).loc main_arg12))
            (m ((c.tc : Thread nD τ).loc main_arg13)) (m ((c.tc : Thread nD τ).loc main_arg14))
            (m ((c.tc : Thread nD τ).loc main_arg15)) (m ((c.tc : Thread nD τ).loc main_arg16))
            (m ((c.tc : Thread nD τ).loc main_arg17)) (m ((c.tc : Thread nD τ).loc main_arg18))⟩,
         ⟨S16384x16, refNet3
            (extractStridedSlice S16384x256 ![49152, 0] (m ((c.tc : Thread nD τ).loc main_arg0)) slices_S65536x256_S16384x256_49152_0)
            (m ((c.tc : Thread nD τ).loc main_arg19)) (m ((c.tc : Thread nD τ).loc main_arg20))
            (m ((c.tc : Thread nD τ).loc main_arg21)) (m ((c.tc : Thread nD τ).loc main_arg22))
            (m ((c.tc : Thread nD τ).loc main_arg23)) (m ((c.tc : Thread nD τ).loc main_arg24))
            (m ((c.tc : Thread nD τ).loc main_arg25)) (m ((c.tc : Thread nD τ).loc main_arg26))
            (m ((c.tc : Thread nD τ).loc main_arg27)) (m ((c.tc : Thread nD τ).loc main_arg28))⟩]
        concatenates_S16384x16_S16384x16_S16384x16_S16384x16_S65536x16_d0) slices_S65536x16_S65536x8_0_8 := rfl

end Cert.NetRows

end
-- ==== Proof.lean ====
/-
  Four sub-networks (dense layers with relu between them) are applied to the four quarters of a batch; the kernel
  program runs each as a pipelined kernel region over row blocks of 4096, the reference as plain host operations, and
  both join the four outputs along the rows and return the two column halves.

  Frames. The kernel program, at the word level and idealized, is run as nine items — five stretches of host
  operations and four kernel regions — each entered from the buffers' contents the item before left; every buffer
  ends at the last contents of that chain, and no item writes an argument. The reference is a straight line of host
  operations.

  Values. At the ideal instance each region's output array, read index by index, is the sub-network applied to the
  corresponding row of its quarter of the batch: a matrix product into a zero accumulator is the plain sum of
  products, the bias is added per column, relu is the maximum with zero. The reference's operations read row by row
  are the same function, so each region's array IS the reference's term for that sub-network; the two programs then
  apply the same join and the same column slices. No algebraic law and no finiteness is needed: the precondition is
  never opened. The idealization rewrote nothing, so the preservation claim is trivial.
-/
import proofs.«143194_j50603304682112_1_alg».proof.Defs
import proofs.«143194_j50603304682112_1_alg».proof.Proof.Gen.Kernel
import proofs.«143194_j50603304682112_1_alg».proof.Proof.Gen.KernelIdeal
import proofs.«143194_j50603304682112_1_alg».proof.Proof.Gen.ReferenceIdeal
import proofs.«143194_j50603304682112_1_alg».proof.Proof.Gen.Pre_finite_inputs
import proofs.«143194_j50603304682112_1_alg».proof.Proof.Gen.ReferenceIdeal.Run
import proofs.«143194_j50603304682112_1_alg».proof.Proof.K.Frame
import proofs.«143194_j50603304682112_1_alg».proof.Proof.KI.Frame
import proofs.«143194_j50603304682112_1_alg».proof.Proof.KI.Value
import proofs.«143194_j50603304682112_1_alg».proof.Proof.RefJoin
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel := Cert.Kernel.Hand.frame_claim

/-- The idealized kernel program's frame. -/
theorem frame_ki : Cert.frame_KernelIdeal := Cert.KernelIdeal.Hand.frame_claim

/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

section Algebraic

open Cert.KernelIdeal Cert.KernelIdeal.Gen Cert.KernelIdeal.Hand

set_option maxHeartbeats 6000000 in
/-- From memories agreeing on the arguments both programs end with the same two results: the kernel program's are the
    join of the four sub-networks' outputs (each region's array is the reference's term for its sub-network), and the
    reference's results are that join by definition, of arguments that agree. -/
theorem algebraic : Cert.algebraic_KernelIdeal_ReferenceIdeal := by
  intro m ρ m' ρ' _ hagree
  refine ⟨fun c => resLo m c, fun c => resHi m c, ?_, ?_⟩
  · refine (θ_run Cert.KernelIdeal.defs _ _).mono (fun r h c => ?_) (run_all m ρ (outsE m) (outsE_ok m))
    exact ⟨
      (h c _ (mem_uc main_v9 (by decide))).trans (v9_eq m (outsE m) (outsE_ok m) c),
      (h c _ (mem_uc main_v10 (by decide))).trans (v10_eq m (outsE m) (outsE_ok m) c),
      (h c _ (mem_uc main_arg0 (by decide))).trans (V9_main_arg0 m (outsE m) c),
      (h c _ (mem_uc main_arg1 (by decide))).trans (V9_main_arg1 m (outsE m) c),
      (h c _ (mem_uc main_arg2 (by decide))).trans (V9_main_arg2 m (outsE m) c),
      (h c _ (mem_uc main_arg3 (by decide))).trans (V9_main_arg3 m (outsE m) c),
      (h c _ (mem_uc main_arg4 (by decide))).trans (V9_main_arg4 m (outsE m) c),
      (h c _ (mem_uc main_arg5 (by decide))).trans (V9_main_arg5 m (outsE m) c),
      (h c _ (mem_uc main_arg6 (by decide))).trans (V9_main_arg6 m (outsE m) c),
      (h c _ (mem_uc main_arg7 (by decide))).trans (V9_main_arg7 m (outsE m) c),
      (h c _ (mem_uc main_arg8 (by decide))).trans (V9_main_arg8 m (outsE m) c),
      (h c _ (mem_uc main_arg9 (by decide))).trans (V9_main_arg9 m (outsE m) c),
      (h c _ (mem_uc main_arg10 (by decide))).trans (V9_main_arg10 m (outsE m) c),
      (h c _ (mem_uc main_arg11 (by decide))).trans (V9_main_arg11 m (outsE m) c),
      (h c _ (mem_uc main_arg12 (by decide))).trans (V9_main_arg12 m (outsE m) c),
      (h c _ (mem_uc main_arg13 (by decide))).trans (V9_main_arg13 m (outsE m) c),
      (h c _ (mem_uc main_arg14 (by decide))).trans (V9_main_arg14 m (outsE m) c),
      (h c _ (mem_uc main_arg15 (by decide))).trans (V9_main_arg15 m (outsE m) c),
      (h c _ (mem_uc main_arg16 (by decide))).trans (V9_main_arg16 m (outsE m) c),
      (h c _ (mem_uc main_arg17 (by decide))).trans (V9_main_arg17 m (outsE m) c),
      (h c _ (mem_uc main_arg18 (by decide))).trans (V9_main_arg18 m (outsE m) c),
      (h c _ (mem_uc main_arg19 (by decide))).trans (V9_main_arg19 m (outsE m) c),
      (h c _ (mem_uc main_arg20 (by decide))).trans (V9_main_arg20 m (outsE m) c),
      (h c _ (mem_uc main_arg21 (by decide))).trans (V9_main_arg21 m (outsE m) c),
      (h c _ (mem_uc main_arg22 (by decide))).trans (V9_main_arg22 m (outsE m) c),
      (h c _ (mem_uc main_arg23 (by decide))).trans (V9_main_arg23 m (outsE m) c),
      (h c _ (mem_uc main_arg24 (by decide))).trans (V9_main_arg24 m (outsE m) c),
      (h c _ (mem_uc main_arg25 (by decide))).trans (V9_main_arg25 m (outsE m) c),
      (h c _ (mem_uc main_arg26 (by decide))).trans (V9_main_arg26 m (outsE m) c),
      (h c _ (mem_uc main_arg27 (by decide))).trans (V9_main_arg27 m (outsE m) c),
      (h c _ (mem_uc main_arg28 (by decide))).trans (V9_main_arg28 m (outsE m) c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16, e17, e18, e19, e20, e21, e22, e23, e24, e25, e26,
        e27, e28⟩ := hagree c
      rw [Cert.NetRows.res0_eq m' c, e0, e1, e2, e3, e4, e5, e6, e7, e8, e9, e10, e11, e12, e13, e14, e15, e16, e17, e18, e19, e20, e21, e22,
        e23, e24, e25, e26, e27, e28]
      rfl
    · obtain ⟨e0, e1, e2, e3, e4, e5, e6, e7, e8, e9, e10, e11, e12, e13, e14, e15, e16, e17, e18, e19, e20, e21, e22, e23, e24, e25, e26,
        e27, e28⟩ := hagree c
      rw [Cert.NetRows.res1_eq m' c, e0, e1, e2, e3, e4, e5, e6, e7, e8, e9, e10, e11, e12, e13, e14, e15, e16, e17, e18, e19, e20, e21, e22,
        e23, e24, e25, e26, e27, e28]
      rfl

end Algebraic

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
